-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x1024 : Shape := ⟨3, ![2048, 16, 1024]⟩
abbrev S256x1024 : Shape := ⟨2, ![256, 1024]⟩
abbrev S256 : Shape := ⟨1, ![256]⟩
abbrev S50000x256 : Shape := ⟨2, ![50000, 256]⟩
abbrev S50000 : Shape := ⟨1, ![50000]⟩
abbrev S4096 : Shape := ⟨1, ![4096]⟩
abbrev S8192 : Shape := ⟨1, ![8192]⟩
abbrev S_ : Shape := ⟨0, ![]⟩

class Facts : Prop where
  bcast_S_S2048x16x1024 : S_.BroadcastsInDim S2048x16x1024 (![] : Fin 0 → Fin S2048x16x1024.rank)
  reducesTo_S2048x16x1024_S_d0_1_2 : S2048x16x1024.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S50000x256 : S_.BroadcastsInDim S50000x256 (![] : Fin 0 → Fin S50000x256.rank)
  reducesTo_S50000x256_S_d0_1 : S50000x256.ReducesTo [0, 1] S_
  bcast_S_S50000 : S_.BroadcastsInDim S50000 (![] : Fin 0 → Fin S50000.rank)
  reducesTo_S50000_S_d0 : S50000.ReducesTo [0] S_

variable [Facts]

def fn_part1 {F : FTy → Type} [FloatOps F] (main_arg4 : FVec F S50000 .f32) (main_v13 : IVec S_ 1) (main_v16 : IVec S50000x256 1) : IVec S_ 1 :=
  let main_c_5 : IVec S_ 1 := constantI S_ 1 1#1
  let main_v17 : IVec S_ 1 := (fun x v => Host.reduce IntOp.andi x v reducesTo_S50000x256_S_d0_1 h_S_) main_v16 main_c_5
  let main_v18 : IVec S_ 1 := andi main_v13 main_v17
  let main_v19 : FVec F S50000 .f32 := Host.absf main_arg4
  let main_cst_6 : FVec F S_ .f32 := constant S_ .f32 0x7F800000#32
  let main_v20 : FVec F S50000 .f32 := broadcastInDim S50000 ![] bcast_S_S50000 main_cst_6
  let main_v21 : IVec S50000 1 := cmpf .olt main_v19 main_v20
  let main_c_7 : IVec S_ 1 := constantI S_ 1 1#1
  let main_v22 : IVec S_ 1 := (fun x v => Host.reduce IntOp.andi x v reducesTo_S50000_S_d0 h_S_) main_v21 main_c_7
  let main_v23 : IVec S_ 1 := andi main_v18 main_v22
  main_v23

def fn {F : FTy → Type} [FloatOps F] (main_arg0 : FVec F S2048x16x1024 .f32) (main_arg1 : FVec F S256x1024 .f32) (main_arg2 : FVec F S256 .f32) (main_arg3 : FVec F S50000x256 .f32) (main_arg4 : FVec F S50000 .f32) (main_arg5 : IVec S4096 32) (main_arg6 : IVec S4096 32) (main_arg7 : IVec S4096 32) (main_arg8 : IVec S8192 32) (main_arg9 : IVec S8192 32) : IVec S_ 1 :=
  let main_v0 : FVec F S2048x16x1024 .f32 := Host.absf main_arg0
  let main_cst : FVec F S_ .f32 := constant S_ .f32 0x7F800000#32
  let main_v1 : FVec F S2048x16x1024 .f32 := broadcastInDim S2048x16x1024 ![] bcast_S_S2048x16x1024 main_cst
  let main_v2 : IVec S2048x16x1024 1 := cmpf .olt main_v0 main_v1
  let main_c : IVec S_ 1 := constantI S_ 1 1#1
  let main_v3 : IVec S_ 1 := (fun x v => Host.reduce IntOp.andi x v reducesTo_S2048x16x1024_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S50000x256 .f32 := Host.absf main_arg3
  let main_cst_4 : FVec F S_ .f32 := constant S_ .f32 0x7F800000#32
  let main_v15 : FVec F S50000x256 .f32 := broadcastInDim S50000x256 ![] bcast_S_S50000x256 main_cst_4
  let main_v16 : IVec S50000x256 1 := cmpf .olt main_v14 main_v15
  fn_part1 (F := F) main_arg4 main_v13 main_v16
-- ==== Kernel.lean ====
abbrev S2048x16x1024 : Shape := ⟨3, ![2048, 16, 1024]⟩
abbrev S256x1024 : Shape := ⟨2, ![256, 1024]⟩
abbrev S256 : Shape := ⟨1, ![256]⟩
abbrev S50000x256 : Shape := ⟨2, ![50000, 256]⟩
abbrev S50000 : Shape := ⟨1, ![50000]⟩
abbrev S4096 : Shape := ⟨1, ![4096]⟩
abbrev S8192 : Shape := ⟨1, ![8192]⟩
abbrev S_ : Shape := ⟨0, ![]⟩
abbrev S4096x1 : Shape := ⟨2, ![4096, 1]⟩
abbrev S4096x3 : Shape := ⟨2, ![4096, 3]⟩
abbrev S4096x512 : Shape := ⟨2, ![4096, 512]⟩
abbrev S4096x1024 : Shape := ⟨2, ![4096, 1024]⟩
abbrev S1024x256 : Shape := ⟨2, ![1024, 256]⟩
abbrev S4096x256 : Shape := ⟨2, ![4096, 256]⟩
abbrev S1x256 : Shape := ⟨2, ![1, 256]⟩
abbrev S1x50000 : Shape := ⟨2, ![1, 50000]⟩
abbrev S2048x256 : Shape := ⟨2, ![2048, 256]⟩
abbrev S10000x256 : Shape := ⟨2, ![10000, 256]⟩
abbrev S2048x1 : Shape := ⟨2, ![2048, 1]⟩
abbrev S2048x10000 : Shape := ⟨2, ![2048, 10000]⟩
abbrev S1x10000 : Shape := ⟨2, ![1, 10000]⟩
abbrev S2048 : Shape := ⟨1, ![2048]⟩
abbrev S8192x1 : Shape := ⟨2, ![8192, 1]⟩
abbrev S8192x256 : Shape := ⟨2, ![8192, 256]⟩
abbrev S8192x2 : Shape := ⟨2, ![8192, 2]⟩
abbrev S1 : Shape := ⟨1, ![1]⟩

abbrev nBuf : Space → Nat
  | .hbm => 153
  | .vmem => 9
  | .smem => 0
  | _ => 0

abbrev hbmTy0_0 (i : Nat) : BufTy := match i % 128 with
  | 0 => ⟨S2048x16x1024, .f32⟩
  | 1 => ⟨S256x1024, .f32⟩
  | 2 => ⟨S256, .f32⟩
  | 3 => ⟨S50000x256, .f32⟩
  | 4 => ⟨S50000, .f32⟩
  | 5 => ⟨S4096, .i32⟩
  | 6 => ⟨S4096, .i32⟩
  | 7 => ⟨S4096, .i32⟩
  | 8 => ⟨S8192, .i32⟩
  | 9 => ⟨S8192, .i32⟩
  | 10 => ⟨S_, .i32⟩
  | 11 => ⟨S4096, .i32⟩
  | 12 => ⟨S4096, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S4096, .i32⟩
  | 20 => ⟨S4096, .i32⟩
  | 21 => ⟨S_, .i32⟩
  | 22 => ⟨S4096, .i32⟩
  | 23 => ⟨S4096, .i1⟩
  | 24 => ⟨S_, .i32⟩
  | 25 => ⟨S4096, .i32⟩
  | 26 => ⟨S4096, .i1⟩
  | 27 => ⟨S_, .i32⟩
  | 28 => ⟨S_, .i1⟩
  | 29 => ⟨S4096, .i1⟩
  | 30 => ⟨S4096, .i1⟩
  | 31 => ⟨S4096, .i1⟩
  | 32 => ⟨S4096, .i32⟩
  | 33 => ⟨S4096, .i32⟩
  | 34 => ⟨S4096, .i32⟩
  | 35 => ⟨S_, .i32⟩
  | 36 => ⟨S4096, .i32⟩
  | 37 => ⟨S4096, .i1⟩
  | 38 => ⟨S_, .i32⟩
  | 39 => ⟨S4096, .i32⟩
  | 40 => ⟨S4096, .i32⟩
  | 41 => ⟨S4096, .i32⟩
  | 42 => ⟨S_, .i32⟩
  | 43 => ⟨S4096, .i32⟩
  | 44 => ⟨S4096, .i1⟩
  | 45 => ⟨S_, .i32⟩
  | 46 => ⟨S4096, .i32⟩
  | 47 => ⟨S4096, .i32⟩
  | 48 => ⟨S4096, .i32⟩
  | 49 => ⟨S4096x1, .i32⟩
  | 50 => ⟨S4096x1, .i32⟩
  | 51 => ⟨S_, .i32⟩
  | 52 => ⟨S4096x1, .i32⟩
  | 53 => ⟨S4096x3, .i32⟩
  | 54 => ⟨S4096x512, .f32⟩
  | 55 => ⟨S_, .i32⟩
  | 56 => ⟨S4096, .i32⟩
  | 57 => ⟨S4096, .i1⟩
  | 58 => ⟨S_, .i32⟩
  | 59 => ⟨S4096, .i32⟩
  | 60 => ⟨S4096, .i32⟩
  | 61 => ⟨S4096, .i32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S4096x1, .i32⟩
  | 70 => ⟨S4096x1, .i32⟩
  | 71 => ⟨S_, .i32⟩
  | 72 => ⟨S4096x1, .i32⟩
  | 73 => ⟨S4096x3, .i32⟩
  | 74 => ⟨S4096x512, .f32⟩
  | 75 => ⟨S4096x1024, .f32⟩
  | 76 => ⟨S1024x256, .f32⟩
  | 77 => ⟨S4096x256, .f32⟩
  | 78 => ⟨S1x256, .f32⟩
  | 79 => ⟨S4096x256, .f32⟩
  | 80 => ⟨S4096x256, .f32⟩
  | 81 => ⟨S4096x256, .f32⟩
  | 82 => ⟨S4096x256, .bf16⟩
  | 83 => ⟨S1x50000, .f32⟩
  | 84 => ⟨S4096x1, .f32⟩
  | 85 => ⟨S_, .i32⟩
  | 86 => ⟨S8192, .i32⟩
  | 87 => ⟨S8192, .i1⟩
  | 88 => ⟨S_, .i32⟩
  | 89 => ⟨S8192, .i32⟩
  | 90 => ⟨S8192, .i32⟩
  | 91 => ⟨S8192, .i32⟩
  | 92 => ⟨S8192x1, .i32⟩
  | 93 => ⟨S8192x256, .bf16⟩
  | 94 => ⟨S_, .i32⟩
  | 95 => ⟨S8192, .i32⟩
  | 96 => ⟨S8192, .i1⟩
  | 97 => ⟨S_, .i32⟩
  | 98 => ⟨S8192, .i32⟩
  | 99 => ⟨S8192, .i32⟩
  | 100 => ⟨S8192, .i32⟩
  | 101 => ⟨S8192x1, .i32⟩
  | 102 => ⟨S8192x256, .f32⟩
  | 103 => ⟨S8192x256, .bf16⟩
  | 104 => ⟨S_, .i32⟩
  | 105 => ⟨S8192, .i32⟩
  | 106 => ⟨S8192, .i1⟩
  | 107 => ⟨S_, .i32⟩
  | 108 => ⟨S8192, .i32⟩
  | 109 => ⟨S8192, .i32⟩
  | 110 => ⟨S8192, .i32⟩
  | 111 => ⟨S8192x1, .i32⟩
  | 112 => ⟨S8192, .f32⟩
  | 113 => ⟨S8192x256, .f32⟩
  | 114 => ⟨S8192x256, .f32⟩
  | 115 => ⟨S8192x256, .f32⟩
  | 116 => ⟨S_, .f32⟩
  | 117 => ⟨S8192, .f32⟩
  | 118 => ⟨S8192, .f32⟩
  | 119 => ⟨S_, .i32⟩
  | 120 => ⟨S8192, .i32⟩
  | 121 => ⟨S8192, .i1⟩
  | 122 => ⟨S_, .i32⟩
  | 123 => ⟨S8192, .i32⟩
  | 124 => ⟨S8192, .i32⟩
  | 125 => ⟨S8192, .i32⟩
  | 126 => ⟨S_, .i32⟩
  | 127 => ⟨S8192, .i32⟩
  | _ => ⟨S2048x16x1024, .f32⟩

abbrev hbmTy0_1 (i : Nat) : BufTy := match i % 128 with
  | 0 => ⟨S8192, .i32⟩
  | 1 => ⟨S8192x1, .i32⟩
  | 2 => ⟨S8192x1, .i32⟩
  | 3 => ⟨S8192x2, .i32⟩
  | 4 => ⟨S8192, .f32⟩
  | 5 => ⟨S8192, .f32⟩
  | 6 => ⟨S_, .f32⟩
  | 7 => ⟨S8192, .f32⟩
  | 8 => ⟨S8192, .f32⟩
  | 9 => ⟨S8192, .f32⟩
  | 10 => ⟨S_, .f32⟩
  | 11 => ⟨S8192, .f32⟩
  | 12 => ⟨S8192, .f32⟩
  | 13 => ⟨S_, .f32⟩
  | 14 => ⟨S8192, .f32⟩
  | 15 => ⟨S8192, .f32⟩
  | 16 => ⟨S8192, .f32⟩
  | 17 => ⟨S8192, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S1, .f32⟩
  | _ => ⟨S2048x16x1024, .f32⟩

abbrev hbmTy (i : Nat) : BufTy := match i / 128 with
  | 0 => hbmTy0_0 i
  | 1 => hbmTy0_1 i
  | _ => ⟨S2048x16x1024, .f32⟩

abbrev bufTy : (tb : Table) → Fin (tcTables nBuf tb) → BufTy
  | .hbm, ⟨i, _⟩ => hbmTy i
  | .local _ .vmem, ⟨0, _⟩ => ⟨S2048x256, .bf16⟩
  | .local _ .vmem, ⟨1, _⟩ => ⟨S2048x256, .bf16⟩
  | .local _ .vmem, ⟨2, _⟩ => ⟨S10000x256, .f32⟩
  | .local _ .vmem, ⟨3, _⟩ => ⟨S10000x256, .f32⟩
  | .local _ .vmem, ⟨4, _⟩ => ⟨S1x50000, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | _, _ => ⟨S2048x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v2 : Ref sig .tc := ⟨.hbm, 34, rfl⟩
abbrev main_c_1 : Ref sig .tc := ⟨.hbm, 35, rfl⟩
abbrev main_v3 : Ref sig .tc := ⟨.hbm, 36, rfl⟩
abbrev main_v4 : Ref sig .tc := ⟨.hbm, 37, rfl⟩
abbrev main_c_2 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_c_3 : Ref sig .tc := ⟨.hbm, 42, rfl⟩
abbrev main_v8 : Ref sig .tc := ⟨.hbm, 43, rfl⟩
abbrev main_v9 : Ref sig .tc := ⟨.hbm, 44, rfl⟩
abbrev main_c_4 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_c_5 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_c_6 : Ref sig .tc := ⟨.hbm, 55, rfl⟩
abbrev main_v18 : Ref sig .tc := ⟨.hbm, 56, rfl⟩
abbrev main_v19 : Ref sig .tc := ⟨.hbm, 57, rfl⟩
abbrev main_c_7 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_c_8 : Ref sig .tc := ⟨.hbm, 62, rfl⟩
abbrev main_v23 : Ref sig .tc := ⟨.hbm, 63, rfl⟩
abbrev main_v24 : Ref sig .tc := ⟨.hbm, 64, rfl⟩
abbrev main_c_9 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_c_10 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_c_11 : Ref sig .tc := ⟨.hbm, 85, rfl⟩
abbrev main_v43 : Ref sig .tc := ⟨.hbm, 86, rfl⟩
abbrev main_v44 : Ref sig .tc := ⟨.hbm, 87, rfl⟩
abbrev main_c_12 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_c_13 : Ref sig .tc := ⟨.hbm, 94, rfl⟩
abbrev main_v50 : Ref sig .tc := ⟨.hbm, 95, rfl⟩
abbrev main_v51 : Ref sig .tc := ⟨.hbm, 96, rfl⟩
abbrev main_c_14 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_c_15 : Ref sig .tc := ⟨.hbm, 104, rfl⟩
abbrev main_v58 : Ref sig .tc := ⟨.hbm, 105, rfl⟩
abbrev main_v59 : Ref sig .tc := ⟨.hbm, 106, rfl⟩
abbrev main_c_16 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst : Ref sig .tc := ⟨.hbm, 116, rfl⟩
abbrev main_v68 : Ref sig .tc := ⟨.hbm, 117, rfl⟩
abbrev main_v69 : Ref sig .tc := ⟨.hbm, 118, rfl⟩
abbrev main_c_17 : Ref sig .tc := ⟨.hbm, 119, rfl⟩
abbrev main_v70 : Ref sig .tc := ⟨.hbm, 120, rfl⟩
abbrev main_v71 : Ref sig .tc := ⟨.hbm, 121, rfl⟩
abbrev main_c_18 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_c_19 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_cst_20 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_cst_21 : Ref sig .tc := ⟨.hbm, 138, rfl⟩
abbrev main_v85 : Ref sig .tc := ⟨.hbm, 139, rfl⟩
abbrev main_v86 : Ref sig .tc := ⟨.hbm, 140, rfl⟩
abbrev main_cst_22 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_cst_23 : Ref sig .tc := ⟨.hbm, 146, rfl⟩
abbrev main_v91 : Ref sig .tc := ⟨.hbm, 147, rfl⟩
abbrev main_cst_24 : Ref sig .tc := ⟨.hbm, 148, rfl⟩
abbrev main_cst_25 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 5], ![false, false]⟩

def k0_mult1 (i : grid0.Coords) : BitVec 32 :=
  let arg1 : BitVec 32 := BitVec.ofNat 32 (i 1).val
  let c10000_i32 : BitVec 32 := 10000#32
  let v8 : BitVec 32 := Scalar.muli arg1 c10000_i32
  v8
def k0_off1 (i : grid0.Coords) : Fin 2 → Nat :=
  let c0_4 : Index := 0#32
  let arg1 : BitVec 32 := BitVec.ofNat 32 (i 1).val
  let c10000_i32 : BitVec 32 := 10000#32
  let v8 : BitVec 32 := Scalar.muli arg1 c10000_i32
  let v9 : BitVec 32 := v8
  let v10 : Index := Scalar.indexCast v9
  ![0, v10.toNat]
def k0_cond2 (i : grid0.Coords) : BitVec 1 :=
  let arg1 : BitVec 32 := BitVec.ofNat 32 (i 1).val
  let c4_i32 : BitVec 32 := 4#32
  let v35 : BitVec 1 := Scalar.cmpi .eq arg1 c4_i32
  let v36 : BitVec 32 := Scalar.extui v35
  let c0_i32_15 : BitVec 32 := 0#32
  let v37 : BitVec 1 := Scalar.cmpi .ne v36 c0_i32_15
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S10000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x50000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  concatenates_S4096x1_S4096x1_S4096x1_S4096x3_d1 : Shape.Concatenates [S4096x1, S4096x1, S4096x1] S4096x3 1
  concatenates_S4096x512_S4096x512_S4096x1024_d1 : Shape.Concatenates [S4096x512, S4096x512] S4096x1024 1
  transposes_S256x1024_S1024x256_1_0 : S256x1024.Transposes [1, 0] S1024x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bitsLt_bf16_f32 : FTy.bits .bf16 < FTy.bits .f32
  shapeCasts_S50000_S1x50000 : S50000.ShapeCasts S1x50000
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S10000x256_S10000x256_0_0 : ∀ a, (![0, 0] : Fin 2 → Nat) a + S10000x256.size a ≤ S10000x256.size a
  h_S10000x256 : 0 < S10000x256.numel
  h_S1x10000 : 0 < S1x10000.numel
  shapeCasts_S1x10000_S1x10000 : S1x10000.ShapeCasts S1x10000
  broadcasts_S1x10000_S2048x10000 : S1x10000.Broadcasts S2048x10000
  reduces_S2048x10000_S2048 : S2048x10000.Reduces [1] S2048
  shapeCasts_S2048_S2048x1 : S2048.ShapeCasts S2048x1
  broadcasts_S2048x1_S2048x10000 : S2048x1.Broadcasts S2048x10000
  bcast_S_S8192 : S_.BroadcastsInDim S8192 (![] : Fin 0 → Fin S8192.rank)
  bcast_S8192_S8192x1_0 : S8192.BroadcastsInDim S8192x1 (![0] : Fin 1 → Fin S8192x1.rank)
  reducesTo_S8192x256_S8192_d1 : S8192x256.ReducesTo [1] S8192
  h_S_ : 0 < S_.numel
  concatenates_S8192x1_S8192x1_S8192x2_d1 : Shape.Concatenates [S8192x1, S8192x1] S8192x2 1
  reducesTo_S8192_S_d0 : S8192.ReducesTo [0] S_
  shapeCasts_S_S1 : S_.ShapeCasts S1
  gather_S2048x16x1024_S4096x3_S4096x512_1_01_n_n_012_1_11512_wf : GatherDims.WF S2048x16x1024 S4096x3 S4096x512 [1] [0, 1] [] [0, 1, 2] [] 1 ![1, 1, 512]
  dot_S4096x1024_S1024x256_S4096x256_1_0_0_1_n_n_wf : DotDims.WF S4096x1024 S1024x256 S4096x256 [1] [0] [0] [1] [] []
  dot_S2048x256_S10000x256_S2048x10000_1_1_0_0_n_n_wf : DotDims.WF S2048x256 S10000x256 S2048x10000 [1] [1] [0] [0] [] []
  gather_S4096x256_S8192x1_S8192x256_1_0_n_n_0_1_1256_wf : GatherDims.WF S4096x256 S8192x1 S8192x256 [1] [0] [] [0] [] 1 ![1, 256]
  gather_S50000x256_S8192x1_S8192x256_1_0_n_n_0_1_1256_wf : GatherDims.WF S50000x256 S8192x1 S8192x256 [1] [0] [] [0] [] 1 ![1, 256]
  gather_S50000_S8192x1_S8192_n_0_n_n_0_1_1_wf : GatherDims.WF S50000 S8192x1 S8192 [] [0] [] [0] [] 1 ![1]
  gather_S4096x1_S8192x2_S8192_n_01_n_n_01_1_11_wf : GatherDims.WF S4096x1 S8192x2 S8192 [] [0, 1] [] [0, 1] [] 1 ![1, 1]
  hrank0 : 0 < grid0.rank
  k0_mult1_dvd : ∀ i : grid0.Coords, 10000 ∣ (k0_mult1 i).toNat
  k0_off1_inb : ∀ i : grid0.Coords, ∀ a, (k0_off1 i) a + S1x10000.size a ≤ S1x50000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x256.size a
  hwx0_0 : ∀ i : grid0.Coords, EltTy.bits .bf16 = 32 ∨ (Rect.block (s := S4096x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S50000x256.size a
  hwx0_1 : ∀ i : grid0.Coords, EltTy.bits .f32 = 32 ∨ (Rect.block (s := S50000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x50000.size a ≤ S1x50000.size a
  hwx0_2 : ∀ i : grid0.Coords, EltTy.bits .f32 = 32 ∨ (Rect.block (s := S1x50000) S1x50000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S4096x1.size a
  hwx0_3 : ∀ i : grid0.Coords, EltTy.bits .f32 = 32 ∨ (Rect.block (s := S4096x1) S2048x1.size (cc0_transform_3 i) (hinb0_3 i)).WholeWords (EltTy.packing .f32)

variable [Facts₀]

def gather_S2048x16x1024_S4096x3_S4096x512_1_01_n_n_012_1_11512 : GatherDims S2048x16x1024 S4096x3 S4096x512 where
  offsetDims := [1]
  collapsedSliceDims := [0, 1]
  operandBatchingDims := []
  startIndicesBatchingDims := []
  startIndexMap := [0, 1, 2]
  indexVectorDim := 1
  sliceSizes := ![1, 1, 512]
  wf := gather_S2048x16x1024_S4096x3_S4096x512_1_01_n_n_012_1_11512_wf
def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S2048x256_S10000x256_S2048x10000_1_1_0_0_n_n : DotDims S2048x256 S10000x256 S2048x10000 where
  lhsContracting := [1]
  rhsContracting := [1]
  lhsNonContracting := [0]
  rhsNonContracting := [0]
  lhsBatch := []
  rhsBatch := []
  wf := dot_S2048x256_S10000x256_S2048x10000_1_1_0_0_n_n_wf
def gather_S4096x256_S8192x1_S8192x256_1_0_n_n_0_1_1256 : GatherDims S4096x256 S8192x1 S8192x256 where
  offsetDims := [1]
  collapsedSliceDims := [0]
  operandBatchingDims := []
  startIndicesBatchingDims := []
  startIndexMap := [0]
  indexVectorDim := 1
  sliceSizes := ![1, 256]
  wf := gather_S4096x256_S8192x1_S8192x256_1_0_n_n_0_1_1256_wf
def gather_S50000x256_S8192x1_S8192x256_1_0_n_n_0_1_1256 : GatherDims S50000x256 S8192x1 S8192x256 where
  offsetDims := [1]
  collapsedSliceDims := [0]
  operandBatchingDims := []
  startIndicesBatchingDims := []
  startIndexMap := [0]
  indexVectorDim := 1
  sliceSizes := ![1, 256]
  wf := gather_S50000x256_S8192x1_S8192x256_1_0_n_n_0_1_1256_wf
def gather_S50000_S8192x1_S8192_n_0_n_n_0_1_1 : GatherDims S50000 S8192x1 S8192 where
  offsetDims := []
  collapsedSliceDims := [0]
  operandBatchingDims := []
  startIndicesBatchingDims := []
  startIndexMap := [0]
  indexVectorDim := 1
  sliceSizes := ![1]
  wf := gather_S50000_S8192x1_S8192_n_0_n_n_0_1_1_wf
def gather_S4096x1_S8192x2_S8192_n_01_n_n_01_1_11 : GatherDims S4096x1 S8192x2 S8192 where
  offsetDims := []
  collapsedSliceDims := [0, 1]
  operandBatchingDims := []
  startIndicesBatchingDims := []
  startIndexMap := [0, 1]
  indexVectorDim := 1
  sliceSizes := ![1, 1]
  wf := gather_S4096x1_S8192x2_S8192_n_01_n_n_01_1_11_wf

abbrev win0_0 : Pipeline.Window sig grid0 :=
  Pipeline.Window.ofSpec (Memref.whole main_v40) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S10000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x50000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x16x1024 : Shape := ⟨3, ![2048, 16, 1024]⟩
abbrev S256x1024 : Shape := ⟨2, ![256, 1024]⟩
abbrev S256 : Shape := ⟨1, ![256]⟩
abbrev S50000x256 : Shape := ⟨2, ![50000, 256]⟩
abbrev S50000 : Shape := ⟨1, ![50000]⟩
abbrev S4096 : Shape := ⟨1, ![4096]⟩
abbrev S8192 : Shape := ⟨1, ![8192]⟩
abbrev S_ : Shape := ⟨0, ![]⟩
abbrev S4096x1 : Shape := ⟨2, ![4096, 1]⟩
abbrev S4096x3 : Shape := ⟨2, ![4096, 3]⟩
abbrev S4096x512 : Shape := ⟨2, ![4096, 512]⟩
abbrev S4096x1024 : Shape := ⟨2, ![4096, 1024]⟩
abbrev S1024x256 : Shape := ⟨2, ![1024, 256]⟩
abbrev S4096x256 : Shape := ⟨2, ![4096, 256]⟩
abbrev S1x256 : Shape := ⟨2, ![1, 256]⟩
abbrev S256x50000 : Shape := ⟨2, ![256, 50000]⟩
abbrev S4096x50000 : Shape := ⟨2, ![4096, 50000]⟩
abbrev S1x50000 : Shape := ⟨2, ![1, 50000]⟩
abbrev S8192x1 : Shape := ⟨2, ![8192, 1]⟩
abbrev S8192x2 : Shape := ⟨2, ![8192, 2]⟩
abbrev S1 : Shape := ⟨1, ![1]⟩

abbrev nBuf : Space → Nat
  | .hbm => 136
  | .vmem => 0
  | .smem => 0
  | _ => 0

abbrev hbmTy0_0 (i : Nat) : BufTy := match i % 128 with
  | 0 => ⟨S2048x16x1024, .f32⟩
  | 1 => ⟨S256x1024, .f32⟩
  | 2 => ⟨S256, .f32⟩
  | 3 => ⟨S50000x256, .f32⟩
  | 4 => ⟨S50000, .f32⟩
  | 5 => ⟨S4096, .i32⟩
  | 6 => ⟨S4096, .i32⟩
  | 7 => ⟨S4096, .i32⟩
  | 8 => ⟨S8192, .i32⟩
  | 9 => ⟨S8192, .i32⟩
  | 10 => ⟨S_, .i32⟩
  | 11 => ⟨S4096, .i32⟩
  | 12 => ⟨S4096, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S4096, .i32⟩
  | 20 => ⟨S4096, .i32⟩
  | 21 => ⟨S_, .i32⟩
  | 22 => ⟨S4096, .i32⟩
  | 23 => ⟨S4096, .i1⟩
  | 24 => ⟨S_, .i32⟩
  | 25 => ⟨S4096, .i32⟩
  | 26 => ⟨S4096, .i1⟩
  | 27 => ⟨S_, .i32⟩
  | 28 => ⟨S_, .i1⟩
  | 29 => ⟨S4096, .i1⟩
  | 30 => ⟨S4096, .i1⟩
  | 31 => ⟨S4096, .i1⟩
  | 32 => ⟨S4096, .i32⟩
  | 33 => ⟨S4096, .i32⟩
  | 34 => ⟨S4096, .i32⟩
  | 35 => ⟨S_, .i32⟩
  | 36 => ⟨S4096, .i32⟩
  | 37 => ⟨S4096, .i1⟩
  | 38 => ⟨S_, .i32⟩
  | 39 => ⟨S4096, .i32⟩
  | 40 => ⟨S4096, .i32⟩
  | 41 => ⟨S4096, .i32⟩
  | 42 => ⟨S_, .i32⟩
  | 43 => ⟨S4096, .i32⟩
  | 44 => ⟨S4096, .i1⟩
  | 45 => ⟨S_, .i32⟩
  | 46 => ⟨S4096, .i32⟩
  | 47 => ⟨S4096, .i32⟩
  | 48 => ⟨S4096, .i32⟩
  | 49 => ⟨S4096x1, .i32⟩
  | 50 => ⟨S4096x1, .i32⟩
  | 51 => ⟨S_, .i32⟩
  | 52 => ⟨S4096x1, .i32⟩
  | 53 => ⟨S4096x3, .i32⟩
  | 54 => ⟨S4096x512, .f32⟩
  | 55 => ⟨S_, .i32⟩
  | 56 => ⟨S4096, .i32⟩
  | 57 => ⟨S4096, .i1⟩
  | 58 => ⟨S_, .i32⟩
  | 59 => ⟨S4096, .i32⟩
  | 60 => ⟨S4096, .i32⟩
  | 61 => ⟨S4096, .i32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S4096x1, .i32⟩
  | 70 => ⟨S4096x1, .i32⟩
  | 71 => ⟨S_, .i32⟩
  | 72 => ⟨S4096x1, .i32⟩
  | 73 => ⟨S4096x3, .i32⟩
  | 74 => ⟨S4096x512, .f32⟩
  | 75 => ⟨S4096x1024, .f32⟩
  | 76 => ⟨S1024x256, .f32⟩
  | 77 => ⟨S4096x256, .f32⟩
  | 78 => ⟨S1x256, .f32⟩
  | 79 => ⟨S4096x256, .f32⟩
  | 80 => ⟨S4096x256, .f32⟩
  | 81 => ⟨S4096x256, .f32⟩
  | 82 => ⟨S256x50000, .f32⟩
  | 83 => ⟨S4096x50000, .f32⟩
  | 84 => ⟨S1x50000, .f32⟩
  | 85 => ⟨S4096x50000, .f32⟩
  | 86 => ⟨S4096x50000, .f32⟩
  | 87 => ⟨S_, .f32⟩
  | 88 => ⟨S4096, .f32⟩
  | 89 => ⟨S_, .f32⟩
  | 90 => ⟨S4096, .f32⟩
  | 91 => ⟨S4096, .f32⟩
  | 92 => ⟨S4096x1, .f32⟩
  | 93 => ⟨S4096x50000, .f32⟩
  | 94 => ⟨S4096x50000, .f32⟩
  | 95 => ⟨S4096x50000, .f32⟩
  | 96 => ⟨S_, .f32⟩
  | 97 => ⟨S4096, .f32⟩
  | 98 => ⟨S4096x1, .f32⟩
  | 99 => ⟨S4096x1, .f32⟩
  | 100 => ⟨S4096x50000, .f32⟩
  | 101 => ⟨S4096x50000, .f32⟩
  | 102 => ⟨S_, .i32⟩
  | 103 => ⟨S8192, .i32⟩
  | 104 => ⟨S8192, .i1⟩
  | 105 => ⟨S_, .i32⟩
  | 106 => ⟨S8192, .i32⟩
  | 107 => ⟨S8192, .i32⟩
  | 108 => ⟨S8192, .i32⟩
  | 109 => ⟨S_, .i32⟩
  | 110 => ⟨S8192, .i32⟩
  | 111 => ⟨S8192, .i1⟩
  | 112 => ⟨S_, .i32⟩
  | 113 => ⟨S8192, .i32⟩
  | 114 => ⟨S8192, .i32⟩
  | 115 => ⟨S8192, .i32⟩
  | 116 => ⟨S8192x1, .i32⟩
  | 117 => ⟨S8192x1, .i32⟩
  | 118 => ⟨S8192x2, .i32⟩
  | 119 => ⟨S8192, .f32⟩
  | 120 => ⟨S8192, .f32⟩
  | 121 => ⟨S_, .f32⟩
  | 122 => ⟨S8192, .f32⟩
  | 123 => ⟨S8192, .f32⟩
  | 124 => ⟨S_, .f32⟩
  | 125 => ⟨S8192, .f32⟩
  | 126 => ⟨S8192, .f32⟩
  | 127 => ⟨S8192, .f32⟩
  | _ => ⟨S2048x16x1024, .f32⟩

abbrev hbmTy0_1 (i : Nat) : BufTy := match i % 128 with
  | 0 => ⟨S8192, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S1, .f32⟩
  | _ => ⟨S2048x16x1024, .f32⟩

abbrev hbmTy (i : Nat) : BufTy := match i / 128 with
  | 0 => hbmTy0_0 i
  | 1 => hbmTy0_1 i
  | _ => ⟨S2048x16x1024, .f32⟩

abbrev bufTy : (tb : Table) → Fin (tcTables nBuf tb) → BufTy
  | .hbm, ⟨i, _⟩ => hbmTy i
  | _, _ => ⟨S2048x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v2 : Ref sig .tc := ⟨.hbm, 34, rfl⟩
abbrev main_c_1 : Ref sig .tc := ⟨.hbm, 35, rfl⟩
abbrev main_v3 : Ref sig .tc := ⟨.hbm, 36, rfl⟩
abbrev main_v4 : Ref sig .tc := ⟨.hbm, 37, rfl⟩
abbrev main_c_2 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_c_3 : Ref sig .tc := ⟨.hbm, 42, rfl⟩
abbrev main_v8 : Ref sig .tc := ⟨.hbm, 43, rfl⟩
abbrev main_v9 : Ref sig .tc := ⟨.hbm, 44, rfl⟩
abbrev main_c_4 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_c_5 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_c_6 : Ref sig .tc := ⟨.hbm, 55, rfl⟩
abbrev main_v18 : Ref sig .tc := ⟨.hbm, 56, rfl⟩
abbrev main_v19 : Ref sig .tc := ⟨.hbm, 57, rfl⟩
abbrev main_c_7 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_c_8 : Ref sig .tc := ⟨.hbm, 62, rfl⟩
abbrev main_v23 : Ref sig .tc := ⟨.hbm, 63, rfl⟩
abbrev main_v24 : Ref sig .tc := ⟨.hbm, 64, rfl⟩
abbrev main_c_9 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_c_10 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_call1_cst : Ref sig .tc := ⟨.hbm, 87, rfl⟩
abbrev main_call1_v0 : Ref sig .tc := ⟨.hbm, 88, rfl⟩
abbrev main_call1_cst_0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_v6 : Ref sig .tc := ⟨.hbm, 95, rfl⟩
abbrev main_call1_cst_1 : Ref sig .tc := ⟨.hbm, 96, rfl⟩
abbrev main_call1_v7 : Ref sig .tc := ⟨.hbm, 97, rfl⟩
abbrev main_call1_v8 : Ref sig .tc := ⟨.hbm, 98, rfl⟩
abbrev main_call1_v9 : Ref sig .tc := ⟨.hbm, 99, rfl⟩
abbrev main_call1_v10 : Ref sig .tc := ⟨.hbm, 100, rfl⟩
abbrev main_v45 : Ref sig .tc := ⟨.hbm, 101, rfl⟩
abbrev main_c_11 : Ref sig .tc := ⟨.hbm, 102, rfl⟩
abbrev main_v46 : Ref sig .tc := ⟨.hbm, 103, rfl⟩
abbrev main_v47 : Ref sig .tc := ⟨.hbm, 104, rfl⟩
abbrev main_c_12 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_c_13 : Ref sig .tc := ⟨.hbm, 109, rfl⟩
abbrev main_v51 : Ref sig .tc := ⟨.hbm, 110, rfl⟩
abbrev main_v52 : Ref sig .tc := ⟨.hbm, 111, rfl⟩
abbrev main_c_14 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_cst : Ref sig .tc := ⟨.hbm, 121, rfl⟩
abbrev main_v61 : Ref sig .tc := ⟨.hbm, 122, rfl⟩
abbrev main_v62 : Ref sig .tc := ⟨.hbm, 123, rfl⟩
abbrev main_cst_15 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_cst_16 : Ref sig .tc := ⟨.hbm, 129, rfl⟩
abbrev main_v67 : Ref sig .tc := ⟨.hbm, 130, rfl⟩
abbrev main_cst_17 : Ref sig .tc := ⟨.hbm, 131, rfl⟩
abbrev main_cst_18 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  concatenates_S4096x1_S4096x1_S4096x1_S4096x3_d1 : Shape.Concatenates [S4096x1, S4096x1, S4096x1] S4096x3 1
  concatenates_S4096x512_S4096x512_S4096x1024_d1 : Shape.Concatenates [S4096x512, S4096x512] S4096x1024 1
  transposes_S256x1024_S1024x256_1_0 : S256x1024.Transposes [1, 0] S1024x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  transposes_S50000x256_S256x50000_1_0 : S50000x256.Transposes [1, 0] S256x50000
  bcast_S50000_S1x50000_1 : S50000.BroadcastsInDim S1x50000 (![1] : Fin 1 → Fin S1x50000.rank)
  bcast_S1x50000_S4096x50000_0_1 : S1x50000.BroadcastsInDim S4096x50000 (![0, 1] : Fin 2 → Fin S4096x50000.rank)
  reducesTo_S4096x50000_S4096_d1 : S4096x50000.ReducesTo [1] S4096
  h_S_ : 0 < S_.numel
  bcast_S4096x1_S4096x50000_0_1 : S4096x1.BroadcastsInDim S4096x50000 (![0, 1] : Fin 2 → Fin S4096x50000.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192_S_d0 : S8192.ReducesTo [0] S_
  shapeCasts_S_S1 : S_.ShapeCasts S1
  gather_S2048x16x1024_S4096x3_S4096x512_1_01_n_n_012_1_11512_wf : GatherDims.WF S2048x16x1024 S4096x3 S4096x512 [1] [0, 1] [] [0, 1, 2] [] 1 ![1, 1, 512]
  dot_S4096x1024_S1024x256_S4096x256_1_0_0_1_n_n_wf : DotDims.WF S4096x1024 S1024x256 S4096x256 [1] [0] [0] [1] [] []
  dot_S4096x256_S256x50000_S4096x50000_1_0_0_1_n_n_wf : DotDims.WF S4096x256 S256x50000 S4096x50000 [1] [0] [0] [1] [] []
  gather_S4096x50000_S8192x2_S8192_n_01_n_n_01_1_11_wf : GatherDims.WF S4096x50000 S8192x2 S8192 [] [0, 1] [] [0, 1] [] 1 ![1, 1]

variable [Facts₀]

def gather_S2048x16x1024_S4096x3_S4096x512_1_01_n_n_012_1_11512 : GatherDims S2048x16x1024 S4096x3 S4096x512 where
  offsetDims := [1]
  collapsedSliceDims := [0, 1]
  operandBatchingDims := []
  startIndicesBatchingDims := []
  startIndexMap := [0, 1, 2]
  indexVectorDim := 1
  sliceSizes := ![1, 1, 512]
  wf := gather_S2048x16x1024_S4096x3_S4096x512_1_01_n_n_012_1_11512_wf
def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x50000_S4096x50000_1_0_0_1_n_n : DotDims S4096x256 S256x50000 S4096x50000 where
  lhsContracting := [1]
  rhsContracting := [0]
  lhsNonContracting := [0]
  rhsNonContracting := [1]
  lhsBatch := []
  rhsBatch := []
  wf := dot_S4096x256_S256x50000_S4096x50000_1_0_0_1_n_n_wf
def gather_S4096x50000_S8192x2_S8192_n_01_n_n_01_1_11 : GatherDims S4096x50000 S8192x2 S8192 where
  offsetDims := []
  collapsedSliceDims := [0, 1]
  operandBatchingDims := []
  startIndicesBatchingDims := []
  startIndexMap := [0, 1]
  indexVectorDim := 1
  sliceSizes := ![1, 1]
  wf := gather_S4096x50000_S8192x2_S8192_n_01_n_n_01_1_11_wf

class Facts : Prop extends Facts₀ where

variable [Facts]
-- ==== Proof.LibKeepAll.lean ====
/-
  A buffer that no operation of a list writes keeps its contents across the list — for lists that also hold
  operations of any number of operands.
-/
import Idealize.ShloMosaic.Lib.StableHlo.Run

namespace Cert.LibKeepAll

open Idealize.ShloMosaic

/-- Closes `after ops X (devRef b) = X (devRef b)` for a literal list `ops` (named by the identifier given) none of
    whose operations writes `b`: each operation writes one literal reference, and it differs from `b`. -/
macro "kept_all" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide))))

end Cert.LibKeepAll
-- ==== Proof.K.Runs.lean ====
/- The log-sum-exp kernel's frame, first part: @main around its one region (the host lines before it, the region, the
   host lines after it), the windows' blocks, the two conditions of the body decided over the grid (the first vocabulary
   tile of a row block: v = 0; the last: v = 4), where the output window is idle, and the staging and scratch memrefs
   the body's runs are stated over. -/
import proofs.«430166_j43576738185611_3_alg».proof.Proof.Gen.Kernel.Launch
import proofs.«430166_j43576738185611_3_alg».proof.Proof.Gen.Kernel.Skeleton
import proofs.«430166_j43576738185611_3_alg».proof.Proof.Gen.Kernel.Points
import proofs.«430166_j43576738185611_3_alg».proof.Proof.LibKeepAll
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: after the host lines before the
    region (index arithmetic, the two gathers, the projection, tanh, the cast to bf16, the bias row's reshape). -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the host lines before it, the region, the host lines after it; it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1] ⟨hostOps0_sub, hostOps0_1_sub, hostOps0_2_sub⟩
    ⟨hostOps0_fresh, hostOps0_1_fresh, hostOps0_2_fresh⟩ main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- Each line after the region writes its own result buffer, which is none of the four windows' arrays. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes,
    StableHlo.quaternary_writes, StableHlo.reshape_writes, StableHlo.binaryIndexed_writes, StableHlo.nary_writes,
    StableHlo.unaryIndexed_writes, Finset.mem_singleton]
  repeat' apply And.intro
  all_goals (intro w; fin_cases w <;> exact StableHlo.devRef_ne_of_ne (by decide))
/-- And so no array of the pipeline is written after the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- Closes `after (the lines before the region) X (devRef b) = X (devRef b)` for an argument `b`: each line writes one
    literal reference, its own result, and no argument is one. -/
local macro "kept_pre" : tactic => `(tactic|
  exact StableHlo.after_of_forall_not_mem _ _ (List.forall_iff_forall_mem.mp (by
    simp only [hostOps0, hostOps0_1, hostOps0_2, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide))))

/-- No line before the region writes an argument of @main: each argument is found by the region as the launch left it. -/
theorem V_main_arg0 (c : Dev nD) : V m c main_arg0 = m ((c : Thread nD τ).loc main_arg0) := by
  show StableHlo.after (List.flatten [hostOps0, hostOps0_1, hostOps0_2]) (fun b => m (c, b)) (Proc.devRef .tc main_arg0) = (fun b => m (c, b)) (Proc.devRef .tc main_arg0)
  kept_pre
theorem V_main_arg1 (c : Dev nD) : V m c main_arg1 = m ((c : Thread nD τ).loc main_arg1) := by
  show StableHlo.after (List.flatten [hostOps0, hostOps0_1, hostOps0_2]) (fun b => m (c, b)) (Proc.devRef .tc main_arg1) = (fun b => m (c, b)) (Proc.devRef .tc main_arg1)
  kept_pre
theorem V_main_arg2 (c : Dev nD) : V m c main_arg2 = m ((c : Thread nD τ).loc main_arg2) := by
  show StableHlo.after (List.flatten [hostOps0, hostOps0_1, hostOps0_2]) (fun b => m (c, b)) (Proc.devRef .tc main_arg2) = (fun b => m (c, b)) (Proc.devRef .tc main_arg2)
  kept_pre
theorem V_main_arg3 (c : Dev nD) : V m c main_arg3 = m ((c : Thread nD τ).loc main_arg3) := by
  show StableHlo.after (List.flatten [hostOps0, hostOps0_1, hostOps0_2]) (fun b => m (c, b)) (Proc.devRef .tc main_arg3) = (fun b => m (c, b)) (Proc.devRef .tc main_arg3)
  kept_pre
theorem V_main_arg4 (c : Dev nD) : V m c main_arg4 = m ((c : Thread nD τ).loc main_arg4) := by
  show StableHlo.after (List.flatten [hostOps0, hostOps0_1, hostOps0_2]) (fun b => m (c, b)) (Proc.devRef .tc main_arg4) = (fun b => m (c, b)) (Proc.devRef .tc main_arg4)
  kept_pre
theorem V_main_arg5 (c : Dev nD) : V m c main_arg5 = m ((c : Thread nD τ).loc main_arg5) := by
  show StableHlo.after (List.flatten [hostOps0, hostOps0_1, hostOps0_2]) (fun b => m (c, b)) (Proc.devRef .tc main_arg5) = (fun b => m (c, b)) (Proc.devRef .tc main_arg5)
  kept_pre
theorem V_main_arg6 (c : Dev nD) : V m c main_arg6 = m ((c : Thread nD τ).loc main_arg6) := by
  show StableHlo.after (List.flatten [hostOps0, hostOps0_1, hostOps0_2]) (fun b => m (c, b)) (Proc.devRef .tc main_arg6) = (fun b => m (c, b)) (Proc.devRef .tc main_arg6)
  kept_pre
theorem V_main_arg7 (c : Dev nD) : V m c main_arg7 = m ((c : Thread nD τ).loc main_arg7) := by
  show StableHlo.after (List.flatten [hostOps0, hostOps0_1, hostOps0_2]) (fun b => m (c, b)) (Proc.devRef .tc main_arg7) = (fun b => m (c, b)) (Proc.devRef .tc main_arg7)
  kept_pre
theorem V_main_arg8 (c : Dev nD) : V m c main_arg8 = m ((c : Thread nD τ).loc main_arg8) := by
  show StableHlo.after (List.flatten [hostOps0, hostOps0_1, hostOps0_2]) (fun b => m (c, b)) (Proc.devRef .tc main_arg8) = (fun b => m (c, b)) (Proc.devRef .tc main_arg8)
  kept_pre
theorem V_main_arg9 (c : Dev nD) : V m c main_arg9 = m ((c : Thread nD τ).loc main_arg9) := by
  show StableHlo.after (List.flatten [hostOps0, hostOps0_1, hostOps0_2]) (fun b => m (c, b)) (Proc.devRef .tc main_arg9) = (fun b => m (c, b)) (Proc.devRef .tc main_arg9)
  kept_pre

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (the row block of the activations: fetched when the row index moves), for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (the vocabulary tile of the weights: fetched at every point), for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (the whole bias row: fetched once), for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## An argument of @main that is no array of the pipeline, after the whole program -/

/-- After the host lines that follow the region, an argument that no window stages holds what the launch left in it: no
    line after the region writes it, the region's exit contents differ from the entry contents at the four arrays
    only, and no line before the region writes it. -/
theorem tail_keeps_arg {U' : Type} [URA U'] (dats : (p : Fin 1) → (c : Dev nD) → Dat τ (Elt F) Unit ℕ U' ℕ (cfgs p) c) (c : Dev nD) (b : Ref sig .tc)
    (hw : (hostOps1 : List (HloOp τ sig (Elt F))).Forall fun op => Proc.devRef .tc b ∉ op.writes)
    (hb : ∀ w, Pipeline.arrRef spec0 w ≠ b) (hV : V m c b = m ((c : Thread nD τ).loc b)) :
    Pipeline.afterTail₀ cfgs dats 0 (V0 m) [hostOps1] c b = m ((c : Thread nD τ).loc b) := by
  unfold Pipeline.afterTail₀
  rw [show ([hostOps1] : List (List (HloOp τ sig (Elt F)))).flatten = hostOps1 from by simp only [List.flatten_cons, List.flatten_nil, List.append_nil]]
  rw [StableHlo.after_of_forall_not_mem _ _ (List.forall_iff_forall_mem.mp hw)]
  rw [Pipeline.withArrays_of_ne _ c _ _ b hb]
  exact hV

/-- Closes: no line after the region writes the literal reference in the goal. -/
local macro "kept_post" : tactic => `(tactic|
  (simp only [hostOps1, List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
   repeat' apply And.intro
   all_goals exact StableHlo.devRef_ne_of_ne (by decide)))

theorem hostOps1_keeps_arg0 : (hostOps1 : List (HloOp τ sig (Elt F))).Forall fun op => Proc.devRef .tc main_arg0 ∉ op.writes := by kept_post
theorem hostOps1_keeps_arg1 : (hostOps1 : List (HloOp τ sig (Elt F))).Forall fun op => Proc.devRef .tc main_arg1 ∉ op.writes := by kept_post
theorem hostOps1_keeps_arg2 : (hostOps1 : List (HloOp τ sig (Elt F))).Forall fun op => Proc.devRef .tc main_arg2 ∉ op.writes := by kept_post
theorem hostOps1_keeps_arg4 : (hostOps1 : List (HloOp τ sig (Elt F))).Forall fun op => Proc.devRef .tc main_arg4 ∉ op.writes := by kept_post
theorem hostOps1_keeps_arg5 : (hostOps1 : List (HloOp τ sig (Elt F))).Forall fun op => Proc.devRef .tc main_arg5 ∉ op.writes := by kept_post
theorem hostOps1_keeps_arg6 : (hostOps1 : List (HloOp τ sig (Elt F))).Forall fun op => Proc.devRef .tc main_arg6 ∉ op.writes := by kept_post
theorem hostOps1_keeps_arg7 : (hostOps1 : List (HloOp τ sig (Elt F))).Forall fun op => Proc.devRef .tc main_arg7 ∉ op.writes := by kept_post
theorem hostOps1_keeps_arg8 : (hostOps1 : List (HloOp τ sig (Elt F))).Forall fun op => Proc.devRef .tc main_arg8 ∉ op.writes := by kept_post
theorem hostOps1_keeps_arg9 : (hostOps1 : List (HloOp τ sig (Elt F))).Forall fun op => Proc.devRef .tc main_arg9 ∉ op.writes := by kept_post

/-- An argument no window stages is among the buffers that bypass the region. -/
theorem arg_mem_rest (b : Ref sig .tc) (hs : b.isScoped = false) (hb : ∀ w, Pipeline.arrRef spec0 w ≠ b) : b ∈ Pipeline.restRefs sig spec0 :=
  Pipeline.mem_restRefs_of b hs hb

/-! ## The frame claim's post from the frame run's -/

/-- THE FRAME from a frame run: for any proof data whose arrays are the region-entry contents, a run to the library's
    frame post read at the ten argument arrays — the weights' array (window 1, an input the pipeline only reads) by
    the first clause, the nine others by the second and `tail_keeps_arg` — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    ((h c).2 main_arg0 (arg_mem_rest main_arg0 rfl (by decide))).trans (tail_keeps_arg m dats c main_arg0 hostOps1_keeps_arg0 (by decide) (V_main_arg0 m c)),
    ((h c).2 main_arg1 (arg_mem_rest main_arg1 rfl (by decide))).trans (tail_keeps_arg m dats c main_arg1 hostOps1_keeps_arg1 (by decide) (V_main_arg1 m c)),
    ((h c).2 main_arg2 (arg_mem_rest main_arg2 rfl (by decide))).trans (tail_keeps_arg m dats c main_arg2 hostOps1_keeps_arg2 (by decide) (V_main_arg2 m c)),
    ((h c).1 1).trans (((dats 0 c).arrAt_in 1 rfl _).trans ((hA c 1).trans (V_main_arg3 m c))),
    ((h c).2 main_arg4 (arg_mem_rest main_arg4 rfl (by decide))).trans (tail_keeps_arg m dats c main_arg4 hostOps1_keeps_arg4 (by decide) (V_main_arg4 m c)),
    ((h c).2 main_arg5 (arg_mem_rest main_arg5 rfl (by decide))).trans (tail_keeps_arg m dats c main_arg5 hostOps1_keeps_arg5 (by decide) (V_main_arg5 m c)),
    ((h c).2 main_arg6 (arg_mem_rest main_arg6 rfl (by decide))).trans (tail_keeps_arg m dats c main_arg6 hostOps1_keeps_arg6 (by decide) (V_main_arg6 m c)),
    ((h c).2 main_arg7 (arg_mem_rest main_arg7 rfl (by decide))).trans (tail_keeps_arg m dats c main_arg7 hostOps1_keeps_arg7 (by decide) (V_main_arg7 m c)),
    ((h c).2 main_arg8 (arg_mem_rest main_arg8 rfl (by decide))).trans (tail_keeps_arg m dats c main_arg8 hostOps1_keeps_arg8 (by decide) (V_main_arg8 m c)),
    ((h c).2 main_arg9 (arg_mem_rest main_arg9 rfl (by decide))).trans (tail_keeps_arg m dats c main_arg9 hostOps1_keeps_arg9 (by decide) (V_main_arg9 m c))⟩) h

/-! ## The body's branch conditions -/

/-- The condition of the body's first `scf.if` (the reset of the running maximum and the running sum): the vocabulary
    tile index is 0. -/
abbrev cond0_0 (i : grid0.Coords) : Prop := (Scalar.cmpi .ne (Scalar.extui (Scalar.cmpi .eq (BitVec.ofNat 32 (i 1).val) 0#32)) 0#32) = 1#1
/-- It holds at the points ≡ 0 (mod 5) — decided over the grid. -/
theorem hcond0_0 : ∀ t : Fin cfg0.N, cond0_0 (grid0.coords t) ↔ t.val % 5 = 0 :=
  (by decide +kernel : ∀ t : Fin grid0.N, cond0_0 (grid0.coords t) ↔ t.val % 5 = 0)

/-- The condition of the body's second `scf.if` (the output's store): the vocabulary tile index is 4, the last. -/
abbrev cond0_1 (i : grid0.Coords) : Prop := k0_cond2 i = 1#1
/-- It holds at the points ≡ 4 (mod 5) — decided over the grid. -/
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At the first tile of a row block the output window is idle: nothing is stored into it. -/
theorem idleAt0_3_A : ∀ t : Fin cfg0.N, cond0_0 (grid0.coords t) → ¬cond0_1 (grid0.coords t) → cfg0.idle 3 (grid0.coords t) = true := by decide +kernel
/-- And the pipeline does not write its block back there. -/
theorem noFlush0_3_A : ∀ t : Fin cfg0.N, cond0_0 (grid0.coords t) → ¬cond0_1 (grid0.coords t) → (cfg0.win 3).flush t = false := by decide +kernel
/-- At the middle tiles the output window is idle. -/
theorem idleAt0_3_B : ∀ t : Fin cfg0.N, ¬cond0_0 (grid0.coords t) → ¬cond0_1 (grid0.coords t) → cfg0.idle 3 (grid0.coords t) = true := by decide +kernel
/-- And not written back. -/
theorem noFlush0_3_B : ∀ t : Fin cfg0.N, ¬cond0_0 (grid0.coords t) → ¬cond0_1 (grid0.coords t) → (cfg0.win 3).flush t = false := by decide +kernel
/-- At the last tile of a row block the output window is live: the log-sum-exp is stored into it. -/
theorem liveAt0_3_C : ∀ t : Fin cfg0.N, ¬cond0_0 (grid0.coords t) → cond0_1 (grid0.coords t) → cfg0.idle 3 (grid0.coords t) = false := by decide +kernel

/-! ## The kernel body on its staging memrefs -/

/-- One staging buffer of the output window, through which its contents are stated (the choice does not matter). -/
abbrev VO0_3 : View sig .tc .vmem S2048x1 .f32 := (Memref.whole cc0_stg3_0 : Memref sig .tc .vmem S2048x1 .f32).view
/-- Each window's current staging memref at point `t`, spelled as the pipeline passes it, and its wholeness. -/
abbrev ms0_0 (t : Fin cfg0.N) : Memref sig .tc .vmem S2048x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x50000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .f32 := win0_3.stage (cfg0.slots t 3)
abbrev hs0_3 (t : Fin cfg0.N) : (ms0_3 t).IsWhole := hstage0_3 ((cfg0.slots t 3).cast nbuf0_3)
/-- The two scratch operands: whole scoped buffers of the kernel's own, passed beside the windows — the running maximum
    and the running sum of exponentials, both carried from one vocabulary tile to the next. -/
abbrev scM0_0 : Memref sig .tc .vmem S2048x1 .f32 := Memref.whole cc0_scratch0
abbrev scM0_1 : Memref sig .tc .vmem S2048x1 .f32 := Memref.whole cc0_scratch1
/-- The same as views: what they hold is stated through them. -/
abbrev VS0_0 : View sig .tc .vmem S2048x1 .f32 := scM0_0.view
abbrev VS0_1 : View sig .tc .vmem S2048x1 .f32 := scM0_1.view

/-- The region invariant of the class with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.HF

end
-- ==== Proof.K.RunA.lean ====
/- The log-sum-exp kernel's body run whole in case A of its two conditionals: the first vocabulary tile of a row block (the reset taken, the output's store not taken: points 0, 5). -/
import proofs.«430166_j43576738185611_3_alg».proof.Proof.K.Runs

set_option maxRecDepth 16384

noncomputable section

namespace Cert.Kernel.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output's staging memref and in the two scratch operands, as pieces (last first),
    IN CASE A, with the proof that on whole memrefs — the three inputs' at their blocks `x0 x1 x2`, the output's, which this case leaves untouched, at contents `xi3` handed back as found, the two scratch operands' at anything (both are stored whole before they are read) — the body
    runs to the continuation holding the inputs' as they were and each stored buffer with its pieces written. The pieces
    are the witness the run finds. -/
noncomputable def kernelRun0_A (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x256 .bf16) (x1 : Vec F S10000x256 .f32) (x2 : Vec F S1x50000 .f32) :
    Σ' (L3 : List (View.Piece (Elt F) S2048x1 .f32)) (LS0 : List (View.Piece (Elt F) S2048x1 .f32)), { LS1 : List (View.Piece (Elt F) S2048x1 .f32) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7) K } := by
  refine ⟨[], ?_, ?_, fun xi3 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.HF

end
-- ==== Proof.K.RunB.lean ====
/- The log-sum-exp kernel's body run whole in case B of its two conditionals: a middle vocabulary tile of a row block (neither conditional taken: points 1, 2, 3, 6, 7, 8). -/
import proofs.«430166_j43576738185611_3_alg».proof.Proof.K.RunA

set_option maxRecDepth 16384

noncomputable section

namespace Cert.Kernel.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output's staging memref and in the two scratch operands, as pieces (last first),
    IN CASE B, with the proof that on whole memrefs — the three inputs' at their blocks `x0 x1 x2`, the output's, which this case leaves untouched, at contents `xi3` handed back as found, the two scratch operands' at what the point before left (`xs0`: the running maximum, `xs1`: the running sum) — the body
    runs to the continuation holding the inputs' as they were and each stored buffer with its pieces written. The pieces
    are the witness the run finds. -/
noncomputable def kernelRun0_B (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x256 .bf16) (x1 : Vec F S10000x256 .f32) (x2 : Vec F S1x50000 .f32) (xs0 : Vec F S2048x1 .f32) (xs1 : Vec F S2048x1 .f32) :
    Σ' (L3 : List (View.Piece (Elt F) S2048x1 .f32)) (LS0 : List (View.Piece (Elt F) S2048x1 .f32)), { LS1 : List (View.Piece (Elt F) S2048x1 .f32) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7) K } := by
  refine ⟨[], ?_, ?_, fun xi3 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.HF

end
-- ==== Proof.K.RunC.lean ====
/- The log-sum-exp kernel's body run whole in case C of its two conditionals: the last vocabulary tile of a row block (the reset not taken, the output's store taken: points 4, 9). -/
import proofs.«430166_j43576738185611_3_alg».proof.Proof.K.RunB

set_option maxRecDepth 16384

noncomputable section

namespace Cert.Kernel.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output's staging memref and in the two scratch operands, as pieces (last first),
    IN CASE C, with the proof that on whole memrefs — the three inputs' at their blocks `x0 x1 x2`, the output's at anything, the two scratch operands' at what the point before left (`xs0`: the running maximum, `xs1`: the running sum) — the body
    runs to the continuation holding the inputs' as they were and each stored buffer with its pieces written. The pieces
    are the witness the run finds. -/
noncomputable def kernelRun0_C (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .bf16) (x1 : Vec F S10000x256 .f32) (x2 : Vec F S1x50000 .f32) (xs0 : Vec F S2048x1 .f32) (xs1 : Vec F S2048x1 .f32) :
    Σ' (L3 : List (View.Piece (Elt F) S2048x1 .f32)) (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7) K } := by
  refine ⟨?_, ?_, ?_, fun E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.HF

end
-- ==== Proof.K.Frame.lean ====
/- The log-sum-exp kernel's frame, last part: what the output window and the two carried scratch operands (the running
   maximum and the running sum of exponentials of a row block) hold after each of the ten grid points, case by case and by
   recursion on the point; the pipeline's proof data; the body obligation; the run of @main; and the frame: @main's ten
   argument arrays end unchanged. -/
import proofs.«430166_j43576738185611_3_alg».proof.Proof.K.RunC

set_option maxRecDepth 16384

noncomputable section

namespace Cert.Kernel.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first vocabulary tile of a row block nothing is stored into the output window (idle there, and not written back): no pieces — a
    placeholder (junk read back) that nothing consults. -/
def out0_A_3 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x256 .bf16) (x1 : Vec F S10000x256 .f32) (x2 : Vec F S1x50000 .f32) : Vec F S2048x1 .f32 :=
  VO0_3.read (Elt F) (VO0_3.writes (Elt F) VO0_3.junk (kernelRun0_A c i arg2 harg2 arg3 harg3 arg4 harg4 arg5 harg5 arg6 harg6 arg7 harg7 hc0 hc1 x0 x1 x2).1)

/-- The stores of the first vocabulary tile of a row block into scratch 0 (the running maximum) cover it. -/
theorem scover0_A_0 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x256 .bf16) (x1 : Vec F S10000x256 .f32) (x2 : Vec F S1x50000 .f32) (y : S2048x1.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S2048x1.size (by sl_kernel_rfl) y

/-- What the first vocabulary tile of a row block leaves in scratch 0 (the running maximum): its pieces read back over junk. -/
def sout0_A_0 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x256 .bf16) (x1 : Vec F S10000x256 .f32) (x2 : Vec F S1x50000 .f32) : Vec F S2048x1 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)

/-- The stores of the first vocabulary tile of a row block into scratch 1 (the running sum of exponentials) cover it. -/
theorem scover0_A_1 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x256 .bf16) (x1 : Vec F S10000x256 .f32) (x2 : Vec F S1x50000 .f32) (y : S2048x1.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S2048x1.size (by sl_kernel_rfl) y

/-- What the first vocabulary tile of a row block leaves in scratch 1 (the running sum of exponentials): its pieces read back over junk. -/
def sout0_A_1 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x256 .bf16) (x1 : Vec F S10000x256 .f32) (x2 : Vec F S1x50000 .f32) : Vec F S2048x1 .f32 :=
  VS0_1.read (Elt F) (VS0_1.writes (Elt F) VS0_1.junk (kernelRun0_A c i arg2 harg2 arg3 harg3 arg4 harg4 arg5 harg5 arg6 harg6 arg7 harg7 hc0 hc1 x0 x1 x2).2.2.1)

/-- At a middle vocabulary tile nothing is stored into the output window (idle there, and not written back): no pieces — a
    placeholder (junk read back) that nothing consults. -/
def out0_B_3 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x256 .bf16) (x1 : Vec F S10000x256 .f32) (x2 : Vec F S1x50000 .f32) (xs0 : Vec F S2048x1 .f32) (xs1 : Vec F S2048x1 .f32) : Vec F S2048x1 .f32 :=
  VO0_3.read (Elt F) (VO0_3.writes (Elt F) VO0_3.junk (kernelRun0_B c i arg2 harg2 arg3 harg3 arg4 harg4 arg5 harg5 arg6 harg6 arg7 harg7 hc0 hc1 x0 x1 x2 xs0 xs1).1)

/-- The stores of a middle vocabulary tile into scratch 0 (the running maximum) cover it. -/
theorem scover0_B_0 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x256 .bf16) (x1 : Vec F S10000x256 .f32) (x2 : Vec F S1x50000 .f32) (xs0 : Vec F S2048x1 .f32) (xs1 : Vec F S2048x1 .f32) (y : S2048x1.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S2048x1.size (by sl_kernel_rfl) y

/-- What a middle vocabulary tile leaves in scratch 0 (the running maximum): its pieces read back over junk. -/
def sout0_B_0 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x256 .bf16) (x1 : Vec F S10000x256 .f32) (x2 : Vec F S1x50000 .f32) (xs0 : Vec F S2048x1 .f32) (xs1 : Vec F S2048x1 .f32) : Vec F S2048x1 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).2.1)

/-- The stores of a middle vocabulary tile into scratch 1 (the running sum of exponentials) cover it. -/
theorem scover0_B_1 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x256 .bf16) (x1 : Vec F S10000x256 .f32) (x2 : Vec F S1x50000 .f32) (xs0 : Vec F S2048x1 .f32) (xs1 : Vec F S2048x1 .f32) (y : S2048x1.Idx) :
    ∃ pc ∈ (kernelRun0_B c i arg2 harg2 arg3 harg3 arg4 harg4 arg5 harg5 arg6 harg6 arg7 harg7 hc0 hc1 x0 x1 x2 xs0 xs1).2.2.1, y ∈ pc.1.set :=
  View.cover_of_tiledL (kernelRun0_B c i arg2 harg2 arg3 harg3 arg4 harg4 arg5 harg5 arg6 harg6 arg7 harg7 hc0 hc1 x0 x1 x2 xs0 xs1).2.2.1 S2048x1.size (by sl_kernel_rfl) y

/-- What a middle vocabulary tile leaves in scratch 1 (the running sum of exponentials): its pieces read back over junk. -/
def sout0_B_1 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x256 .bf16) (x1 : Vec F S10000x256 .f32) (x2 : Vec F S1x50000 .f32) (xs0 : Vec F S2048x1 .f32) (xs1 : Vec F S2048x1 .f32) : Vec F S2048x1 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.2.1)

/-- At the last vocabulary tile of a row block the one store into the output window covers its block. -/
theorem cover0_C_3 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .bf16) (x1 : Vec F S10000x256 .f32) (x2 : Vec F S1x50000 .f32) (xs0 : Vec F S2048x1 .f32) (xs1 : Vec F S2048x1 .f32) (y : S2048x1.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S2048x1.size (by sl_kernel_rfl) y

/-- What the last vocabulary tile of a row block leaves in the output window's staging buffer (the row block's log-sum-exp: the running maximum
    plus the logarithm of the running sum): its pieces read back over junk. -/
def out0_C_3 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .bf16) (x1 : Vec F S10000x256 .f32) (x2 : Vec F S1x50000 .f32) (xs0 : Vec F S2048x1 .f32) (xs1 : Vec F S2048x1 .f32) : Vec F S2048x1 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)

/-- The stores of the last vocabulary tile of a row block into scratch 0 (the running maximum) cover it. -/
theorem scover0_C_0 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .bf16) (x1 : Vec F S10000x256 .f32) (x2 : Vec F S1x50000 .f32) (xs0 : Vec F S2048x1 .f32) (xs1 : Vec F S2048x1 .f32) (y : S2048x1.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S2048x1.size (by sl_kernel_rfl) y

/-- What the last vocabulary tile of a row block leaves in scratch 0 (the running maximum): its pieces read back over junk. -/
def sout0_C_0 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .bf16) (x1 : Vec F S10000x256 .f32) (x2 : Vec F S1x50000 .f32) (xs0 : Vec F S2048x1 .f32) (xs1 : Vec F S2048x1 .f32) : Vec F S2048x1 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)

/-- The stores of the last vocabulary tile of a row block into scratch 1 (the running sum of exponentials) cover it. -/
theorem scover0_C_1 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .bf16) (x1 : Vec F S10000x256 .f32) (x2 : Vec F S1x50000 .f32) (xs0 : Vec F S2048x1 .f32) (xs1 : Vec F S2048x1 .f32) (y : S2048x1.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S2048x1.size (by sl_kernel_rfl) y

/-- What the last vocabulary tile of a row block leaves in scratch 1 (the running sum of exponentials): its pieces read back over junk. -/
def sout0_C_1 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .bf16) (x1 : Vec F S10000x256 .f32) (x2 : Vec F S1x50000 .f32) (xs0 : Vec F S2048x1 .f32) (xs1 : Vec F S2048x1 .f32) : Vec F S2048x1 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-! ## What the output window and the two scratch operands hold after each point -/

/-- THE ACCUMULATION. What the output window's staging buffer, the running maximum (scratch 0) and the running sum
    (scratch 1) hold after the body at position `n`: the case the closed forms select at `n`, run at the point's memrefs
    and input blocks, the two scratch operands at what this leaves at `n - 1`. Both conditions at once is no case. -/
def outsAt0 (c : Dev nD) : (n : ℕ) → n < cfg0.N → Vec F S2048x1 .f32 × Vec F S2048x1 .f32 × Vec F S2048x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 5 = 0 then
      if h1 : (n + 1) % 5 = 4 then
        False.elim (by have hN : n + 1 < 10 := lt_of_lt_of_eq hn (show cfg0.N = 10 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 5 = 4 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)

/-- `outsAt0` at a first tile: that case's contents. -/
theorem outsAt0_A (c : Dev nD) (t : Fin cfg0.N) (h0 : t.val % 5 = 0) (h1 : ¬t.val % 5 = 4) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a middle tile: that case's contents, over what the point before left. -/
theorem outsAt0_B (c : Dev nD) (t : Fin cfg0.N) (h0 : ¬t.val % 5 = 0) (h1 : ¬t.val % 5 = 4) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last tile: that case's contents, over what the point before left. -/
theorem outsAt0_C (c : Dev nD) (t : Fin cfg0.N) (h0 : ¬t.val % 5 = 0) (h1 : t.val % 5 = 4) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with the two scratch operands CARRIED between points: before the first
    point the class's (every scratch at anything); afterwards each scratch at what the point before left in it, and
    the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch operands at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: the carried scratch operands at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at point
    `t` each input's buffer at its block and the output's at `outsAt0`'s first component; the invariant `PhiS`; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the closed forms say which case the point is in; the
    invariant hands the body the two carried scratch operands at what the point before left (at anything at the first
    point) and the generator register at some state, and takes the scratch operands back at this point's contents; the
    output window's buffer is handed back untouched where the case stores nothing into it, and at the log-sum-exp at
    the last tile of a row block; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 10 := lt_of_lt_of_eq t.isLt (show cfg0.N = 10 from N_0)
  by_cases h0 : t.val % 5 = 0
  · by_cases h1 : t.val % 5 = 4
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 5 = 4
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_3 sout0_C_0 sout0_C_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) _ _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0 sout0_B_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the carried contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 10 := N_0; omega)

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- info: 'Cert.Kernel.HF.run_main' depends on axioms: [propext, Classical.choice, Quot.sound] -/
#guard_msgs in #print axioms run_main

/-- THE FRAME: @main runs and its ten argument arrays end as the launch left them, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.HF

end
-- ==== Proof.R.Stages.lean ====
/-
  The reference program's value as five pure stages: the span features through the first linear layer and tanh,
  the vocabulary logits, the row-wise log-softmax, the gathered target log-probabilities, and the focal-loss
  reduction. Each stage is the composition, in program order, of the functions of the operations it covers.
-/
import proofs.«430166_j43576738185611_3_alg».proof.ReferenceIdeal
import proofs.«430166_j43576738185611_3_alg».proof.Proof.Gen.ReferenceIdeal

noncomputable section

namespace Cert.ReferenceIdeal.HR

open Cert.ReferenceIdeal Cert.ReferenceIdeal.Gen Idealize.ShloMosaic

variable {F : FTy → Type} [FloatOps F]

/-- A tensor value of shape `s` and element type `e`. -/
abbrev Ten (F : FTy → Type) (s : Shape) (e : EltTy) : Type := (⟨s, e⟩ : BufTy).Contents (Elt F)

/-- The scalar `k` at every one of 4096 positions. -/
def splat4096 (k : BitVec 32) : Ten F S4096 .i32 := broadcastInDim S4096 ![] bcast_S_S4096 (constantI S_ 32 k)

/-- The scalar `k` at every one of 8192 positions. -/
def splat8192 (k : BitVec 32) : Ten F S8192 .i32 := broadcastInDim S8192 ![] bcast_S_S8192 (constantI S_ 32 k)

/-- A negative index counted from the end of an axis of length `k`: `v + k` where `v < 0`, else `v`. -/
def wrap4096 (k : BitVec 32) (v : Ten F S4096 .i32) : Ten F S4096 .i32 :=
  select (cmpi .slt v (splat4096 (F := F) 0#32)) (addi v (splat4096 (F := F) k)) v

/-- The same over 8192 positions. -/
def wrap8192 (k : BitVec 32) (v : Ten F S8192 .i32) : Ten F S8192 .i32 :=
  select (cmpi .slt v (splat8192 (F := F) 0#32)) (addi v (splat8192 (F := F) k)) v

/-- The divisor of the floor-modulo: the scalar 2048, replaced by 1 were it 0. -/
def remDivisor : Ten F S_ .i32 :=
  select (cmpi .eq (id (constantI S_ 32 2048#32 : Ten F S_ .i32)) (constantI S_ 32 0#32)) (constantI S_ 32 1#32)
    (id (constantI S_ 32 2048#32 : Ten F S_ .i32))

/-- The truncated remainder of `span_begin - 1` by the divisor. -/
def remTrunc (a6 : Ten F S4096 .i32) : Ten F S4096 .i32 :=
  Host.remsi (subi a6 (splat4096 (F := F) 1#32)) (broadcastInDim S4096 ![] bcast_S_S4096 (remDivisor (F := F)))

/-- `(span_begin - 1) mod 2048` with the sign of the divisor: the truncated remainder, plus the divisor where the
    remainder is nonzero and of the other sign. -/
def remFloor (a6 : Ten F S4096 .i32) : Ten F S4096 .i32 :=
  select
    (andi
      (cmpi .ne (cmpi .slt (remTrunc a6) (splat4096 (F := F) 0#32))
        (broadcastInDim S4096 ![] bcast_S_S4096 (cmpi .slt (remDivisor (F := F)) (constantI S_ 32 0#32))))
      (cmpi .ne (remTrunc a6) (splat4096 (F := F) 0#32)))
    (addi (remTrunc a6) (broadcastInDim S4096 ![] bcast_S_S4096 (remDivisor (F := F))))
    (remTrunc a6)

/-- The three start indices of one half's slice, per span: the row, the batch entry, the first column `k`. -/
def startIdx (row bid : Ten F S4096 .i32) (k : BitVec 32) : Ten F S4096x3 .i32 :=
  concatenate S4096x3 1
    [⟨S4096x1, broadcastInDim S4096x1 ![0] bcast_S4096_S4096x1_0 row⟩,
     ⟨S4096x1, broadcastInDim S4096x1 ![0] bcast_S4096_S4096x1_0 bid⟩,
     ⟨S4096x1, broadcastInDim S4096x1 ![] bcast_S_S4096x1 (constantI S_ 32 k)⟩]
    concatenates_S4096x1_S4096x1_S4096x1_S4096x3_d1

/-- The forward half: 512 columns from column 0 of `hidden` at row `(span_begin - 1) mod 2048`. -/
def fwdHalf (a0 : Ten F S2048x16x1024 .f32) (a5 a6 : Ten F S4096 .i32) : Ten F S4096x512 .f32 :=
  Host.gather gather_S2048x16x1024_S4096x3_S4096x512_1_01_n_n_012_1_11512 a0
    (startIdx (wrap4096 2048#32 (remFloor a6)) (wrap4096 16#32 a5) 0#32)

/-- The backward half: 512 columns from column 512 of `hidden` at row `span_end`. -/
def bwdHalf (a0 : Ten F S2048x16x1024 .f32) (a5 a7 : Ten F S4096 .i32) : Ten F S4096x512 .f32 :=
  Host.gather gather_S2048x16x1024_S4096x3_S4096x512_1_01_n_n_012_1_11512 a0
    (startIdx (wrap4096 2048#32 a7) (wrap4096 16#32 a5) 512#32)

/-- Stage one: the span features times `W1ᵀ`, plus `b1`, through tanh. -/
def xval (a0 : Ten F S2048x16x1024 .f32) (a1 : Ten F S256x1024 .f32) (a2 : Ten F S256 .f32)
    (a5 a6 a7 : Ten F S4096 .i32) : Ten F S4096x256 .f32 :=
  Host.tanh
    (addf
      (Host.dotGeneral dot_S4096x1024_S1024x256_S4096x256_1_0_0_1_n_n none
        (concatenate S4096x1024 1 [⟨S4096x512, fwdHalf a0 a5 a6⟩, ⟨S4096x512, bwdHalf a0 a5 a7⟩]
          concatenates_S4096x512_S4096x512_S4096x1024_d1)
        (transpose S1024x256 [1, 0] a1 transposes_S256x1024_S1024x256_1_0))
      (broadcastInDim S4096x256 ![0, 1] bcast_S1x256_S4096x256_0_1
        (broadcastInDim S1x256 ![1] bcast_S256_S1x256_1 a2)))

/-- Stage two: `x` times `W2ᵀ`, plus `b2`. -/
def logits (x : Ten F S4096x256 .f32) (a3 : Ten F S50000x256 .f32) (a4 : Ten F S50000 .f32) :
    Ten F S4096x50000 .f32 :=
  addf
    (Host.dotGeneral dot_S4096x256_S256x50000_S4096x50000_1_0_0_1_n_n none x
      (transpose S256x50000 [1, 0] a3 transposes_S50000x256_S256x50000_1_0))
    (broadcastInDim S4096x50000 ![0, 1] bcast_S1x50000_S4096x50000_0_1
      (broadcastInDim S1x50000 ![1] bcast_S50000_S1x50000_1 a4))

/-- Each row's maximum (against minus infinity). -/
def rowMax (z : Ten F S4096x50000 .f32) : Ten F S4096 .f32 :=
  maximumf (broadcastInDim S4096 ![] bcast_S_S4096 (constant S_ .f32 0xFF800000#32))
    (Host.reduce FloatOps.maximumf z (constant S_ .f32 0xFF800000#32) reducesTo_S4096x50000_S4096_d1 h_S_)

/-- Each row shifted by its maximum. -/
def shifted (z : Ten F S4096x50000 .f32) : Ten F S4096x50000 .f32 :=
  subf z (broadcastInDim S4096x50000 ![0, 1] bcast_S4096x1_S4096x50000_0_1
    (broadcastInDim S4096x1 ![0] bcast_S4096_S4096x1_0 (rowMax z)))

/-- Stage three: the row-wise log-softmax: the shifted row minus the logarithm of the sum of its exponentials. -/
def logp (z : Ten F S4096x50000 .f32) : Ten F S4096x50000 .f32 :=
  subf (shifted z)
    (broadcastInDim S4096x50000 ![0, 1] bcast_S4096x1_S4096x50000_0_1
      (Host.log (broadcastInDim S4096x1 ![0] bcast_S4096_S4096x1_0
        (Host.reduceAdd (Host.exp (shifted z)) (constant S_ .f32 0x00000000#32) reducesTo_S4096x50000_S4096_d1 h_S_))))

/-- Stage four: per target tag, the log-probability at (its span, its tag). -/
def posVec (lp : Ten F S4096x50000 .f32) (a8 a9 : Ten F S8192 .i32) : Ten F S8192 .f32 :=
  Host.gather gather_S4096x50000_S8192x2_S8192_n_01_n_n_01_1_11 lp
    (concatenate S8192x2 1
      [⟨S8192x1, broadcastInDim S8192x1 ![0] bcast_S8192_S8192x1_0 (wrap8192 4096#32 a8)⟩,
       ⟨S8192x1, broadcastInDim S8192x1 ![0] bcast_S8192_S8192x1_0 (wrap8192 50000#32 a9)⟩]
      concatenates_S8192x1_S8192x1_S8192x2_d1)

/-- Stage five: the focal loss at exponent one, summed over the tags and divided by their count plus 1e-5. -/
def tail (p : Ten F S8192 .f32) : Ten F S1 .f32 :=
  fun i => shapeCast S1
    (Host.divf
      (Host.reduceAdd
        (mulf
          (Host.negf
            (Host.powf
              (subf (broadcastInDim S8192 ![] bcast_S_S8192 (constant S_ .f32 0x3F800000#32)) (Host.exp p))
              (broadcastInDim S8192 ![] bcast_S_S8192 (constant S_ .f32 0x3F800000#32))))
          p)
        (constant S_ .f32 0x00000000#32) reducesTo_S8192_S_d0 h_S_)
      (addf (constant S_ .f32 0x46000000#32) (constant S_ .f32 0x3727C5AC#32)))
    shapeCasts_S_S1 i

/-- The reference's value: the five stages composed. -/
def res (a0 : Ten F S2048x16x1024 .f32) (a1 : Ten F S256x1024 .f32) (a2 : Ten F S256 .f32)
    (a3 : Ten F S50000x256 .f32) (a4 : Ten F S50000 .f32) (a5 a6 a7 : Ten F S4096 .i32)
    (a8 a9 : Ten F S8192 .i32) : Ten F S1 .f32 :=
  tail (posVec (logp (logits (xval a0 a1 a2 a5 a6 a7) a3 a4)) a8 a9)

end Cert.ReferenceIdeal.HR

end
-- ==== Proof.R.Ops.lean ====
/-
  The reference program as a list of its 126 host operations, in order, the two outlined functions' bodies listed at
  their call sites over the call's buffers; the list is cut into eleven stretches, one before every join of columns.
-/
import proofs.«430166_j43576738185611_3_alg».proof.Proof.Gen.ReferenceIdeal
import Idealize.ShloMosaic.Lib.StableHlo.Run
import Idealize.ShloMosaic.Lib.Pipeline.Regions

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 1 … 4: `span_begin - 1` and the modulus 2048. -/
abbrev opsBegin : List (HloOp τ sig (Elt F)) :=
  [ nullary main_c (constantI S_ 32 1#32),
    unary main_c main_v0 (broadcastInDim S4096 ![] bcast_S_S4096 : (⟨S_, .i32⟩ : BufTy).Contents (Elt F) → (⟨S4096, .i32⟩ : BufTy).Contents (Elt F)),
    binary main_arg6 main_v0 main_v1 (subi : (⟨S4096, .i32⟩ : BufTy).Contents (Elt F) → (⟨S4096, .i32⟩ : BufTy).Contents (Elt F) → (⟨S4096, .i32⟩ : BufTy).Contents (Elt F)),
    nullary main_c_0 (constantI S_ 32 2048#32) ]

theorem opsBegin_sub : (opsBegin : List (HloOp τ sig (Elt F))).Forall fun op => op.bufs ⊆ tcRefs τ sig :=
  ⟨nullary_bufs_sub .., unary_bufs_sub .., binary_bufs_sub .., nullary_bufs_sub ..⟩

set_option maxHeartbeats 4000000 in
/-- Operations 5 … 25: the floor-modulo by 2048 (the outlined remainder, its select inlined). -/
abbrev opsRem : List (HloOp τ sig (Elt F)) :=
  [ TRef.unary (.of main_c_0 : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S4096 ![] bcast_S_S4096),
    TRef.binary (.of main_v1 : TRef sig ⟨S4096, .i32⟩) main_call0.v3 main_call0.v4 Host.remsi,
    TRef.nullary main_call0.c_1 (constantI S_ 32 0#32),
    TRef.unary main_call0.c_1 main_call0.v5 (broadcastInDim S4096 ![] bcast_S_S4096),
    TRef.binary main_call0.v4 main_call0.v5 main_call0.v6 (cmpi .ne),
    TRef.nullary main_call0.c_2 (constantI S_ 32 0#32),
    TRef.unary main_call0.c_2 main_call0.v7 (broadcastInDim S4096 ![] bcast_S_S4096),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S4096 ![] bcast_S_S4096),
    TRef.binary main_call0.v8 main_call0.v10 main_call0.v11 (cmpi .ne),
    TRef.binary main_call0.v11 main_call0.v6 main_call0.v12 andi,
    TRef.unary main_call0.call0.v0 main_call0.v13 (broadcastInDim S4096 ![] bcast_S_S4096),
    TRef.binary main_call0.v4 main_call0.v13 main_call0.v14 addi,
    TRef.ternary main_call0.v12 main_call0.v14 main_call0.v4 main_call0.v15 select ]

theorem opsRem_sub : (opsRem : List (HloOp τ sig (Elt F))).Forall fun op => op.bufs ⊆ tcRefs τ sig :=
  ⟨unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

set_option maxHeartbeats 4000000 in
/-- Operations 26 … 43: the forward row wrapped, the batch entry wrapped, the column 0: the three index columns. -/
abbrev opsFwdIdx : List (HloOp τ sig (Elt F)) :=
  [ nullary main_c_1 (constantI S_ 32 0#32),
    unary main_c_1 main_v3 (broadcastInDim S4096 ![] bcast_S_S4096 : (⟨S_, .i32⟩ : BufTy).Contents (Elt F) → (⟨S4096, .i32⟩ : BufTy).Contents (Elt F)),
    binary main_v2 main_v3 main_v4 (cmpi .slt : (⟨S4096, .i32⟩ : BufTy).Contents (Elt F) → (⟨S4096, .i32⟩ : BufTy).Contents (Elt F) → (⟨S4096, .i1⟩ : BufTy).Contents (Elt F)),
    nullary main_c_2 (constantI S_ 32 2048#32),
    unary main_c_2 main_v5 (broadcastInDim S4096 ![] bcast_S_S4096 : (⟨S_, .i32⟩ : BufTy).Contents (Elt F) → (⟨S4096, .i32⟩ : BufTy).Contents (Elt F)),
    binary main_v2 main_v5 main_v6 (addi : (⟨S4096, .i32⟩ : BufTy).Contents (Elt F) → (⟨S4096, .i32⟩ : BufTy).Contents (Elt F) → (⟨S4096, .i32⟩ : BufTy).Contents (Elt F)),
    ternary main_v4 main_v6 main_v2 main_v7 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_3 (constantI S_ 32 0#32),
    unary main_c_3 main_v8 (broadcastInDim S4096 ![] bcast_S_S4096 : (⟨S_, .i32⟩ : BufTy).Contents (Elt F) → (⟨S4096, .i32⟩ : BufTy).Contents (Elt F)),
    binary main_arg5 main_v8 main_v9 (cmpi .slt : (⟨S4096, .i32⟩ : BufTy).Contents (Elt F) → (⟨S4096, .i32⟩ : BufTy).Contents (Elt F) → (⟨S4096, .i1⟩ : BufTy).Contents (Elt F)),
    nullary main_c_4 (constantI S_ 32 16#32),
    unary main_c_4 main_v10 (broadcastInDim S4096 ![] bcast_S_S4096 : (⟨S_, .i32⟩ : BufTy).Contents (Elt F) → (⟨S4096, .i32⟩ : BufTy).Contents (Elt F)),
    binary main_arg5 main_v10 main_v11 (addi : (⟨S4096, .i32⟩ : BufTy).Contents (Elt F) → (⟨S4096, .i32⟩ : BufTy).Contents (Elt F) → (⟨S4096, .i32⟩ : BufTy).Contents (Elt F)),
    ternary main_v9 main_v11 main_arg5 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v7 main_v13 (broadcastInDim S4096x1 ![0] bcast_S4096_S4096x1_0 : (⟨S4096, .i32⟩ : BufTy).Contents (Elt F) → (⟨S4096x1, .i32⟩ : BufTy).Contents (Elt F)),
    unary main_v12 main_v14 (broadcastInDim S4096x1 ![0] bcast_S4096_S4096x1_0 : (⟨S4096, .i32⟩ : BufTy).Contents (Elt F) → (⟨S4096x1, .i32⟩ : BufTy).Contents (Elt F)),
    nullary main_c_5 (constantI S_ 32 0#32),
    unary main_c_5 main_v15 (broadcastInDim S4096x1 ![] bcast_S_S4096x1 : (⟨S_, .i32⟩ : BufTy).Contents (Elt F) → (⟨S4096x1, .i32⟩ : BufTy).Contents (Elt F)) ]

theorem opsFwdIdx_sub : (opsFwdIdx : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., nullary_bufs_sub .., unary_bufs_sub ..⟩

set_option maxHeartbeats 4000000 in
/-- Operations 44 … 63: the forward start indices joined and the forward half gathered; then the backward row and batch entry wrapped, the column 512. -/
abbrev opsFwdGather : List (HloOp τ sig (Elt F)) :=
  [ nary ![main_v13, main_v14, main_v15] main_v16 (fun u => concatenate S4096x3 1 [⟨S4096x1, u 0⟩, ⟨S4096x1, u 1⟩, ⟨S4096x1, u 2⟩] concatenates_S4096x1_S4096x1_S4096x1_S4096x3_d1),
    binary main_arg0 main_v16 main_v17 ((fun x i => Host.gather gather_S2048x16x1024_S4096x3_S4096x512_1_01_n_n_012_1_11512 x i) : (⟨S2048x16x1024, .f32⟩ : BufTy).Contents (Elt F) → (⟨S4096x3, .i32⟩ : BufTy).Contents (Elt F) → (⟨S4096x512, .f32⟩ : BufTy).Contents (Elt F)),
    nullary main_c_6 (constantI S_ 32 0#32),
    unary main_c_6 main_v18 (broadcastInDim S4096 ![] bcast_S_S4096 : (⟨S_, .i32⟩ : BufTy).Contents (Elt F) → (⟨S4096, .i32⟩ : BufTy).Contents (Elt F)),
    binary main_arg7 main_v18 main_v19 (cmpi .slt : (⟨S4096, .i32⟩ : BufTy).Contents (Elt F) → (⟨S4096, .i32⟩ : BufTy).Contents (Elt F) → (⟨S4096, .i1⟩ : BufTy).Contents (Elt F)),
    nullary main_c_7 (constantI S_ 32 2048#32),
    unary main_c_7 main_v20 (broadcastInDim S4096 ![] bcast_S_S4096 : (⟨S_, .i32⟩ : BufTy).Contents (Elt F) → (⟨S4096, .i32⟩ : BufTy).Contents (Elt F)),
    binary main_arg7 main_v20 main_v21 (addi : (⟨S4096, .i32⟩ : BufTy).Contents (Elt F) → (⟨S4096, .i32⟩ : BufTy).Contents (Elt F) → (⟨S4096, .i32⟩ : BufTy).Contents (Elt F)),
    ternary main_v19 main_v21 main_arg7 main_v22 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_8 (constantI S_ 32 0#32),
    unary main_c_8 main_v23 (broadcastInDim S4096 ![] bcast_S_S4096 : (⟨S_, .i32⟩ : BufTy).Contents (Elt F) → (⟨S4096, .i32⟩ : BufTy).Contents (Elt F)),
    binary main_arg5 main_v23 main_v24 (cmpi .slt : (⟨S4096, .i32⟩ : BufTy).Contents (Elt F) → (⟨S4096, .i32⟩ : BufTy).Contents (Elt F) → (⟨S4096, .i1⟩ : BufTy).Contents (Elt F)),
    nullary main_c_9 (constantI S_ 32 16#32),
    unary main_c_9 main_v25 (broadcastInDim S4096 ![] bcast_S_S4096 : (⟨S_, .i32⟩ : BufTy).Contents (Elt F) → (⟨S4096, .i32⟩ : BufTy).Contents (Elt F)),
    binary main_arg5 main_v25 main_v26 (addi : (⟨S4096, .i32⟩ : BufTy).Contents (Elt F) → (⟨S4096, .i32⟩ : BufTy).Contents (Elt F) → (⟨S4096, .i32⟩ : BufTy).Contents (Elt F)),
    ternary main_v24 main_v26 main_arg5 main_v27 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v22 main_v28 (broadcastInDim S4096x1 ![0] bcast_S4096_S4096x1_0 : (⟨S4096, .i32⟩ : BufTy).Contents (Elt F) → (⟨S4096x1, .i32⟩ : BufTy).Contents (Elt F)),
    unary main_v27 main_v29 (broadcastInDim S4096x1 ![0] bcast_S4096_S4096x1_0 : (⟨S4096, .i32⟩ : BufTy).Contents (Elt F) → (⟨S4096x1, .i32⟩ : BufTy).Contents (Elt F)),
    nullary main_c_10 (constantI S_ 32 512#32),
    unary main_c_10 main_v30 (broadcastInDim S4096x1 ![] bcast_S_S4096x1 : (⟨S_, .i32⟩ : BufTy).Contents (Elt F) → (⟨S4096x1, .i32⟩ : BufTy).Contents (Elt F)) ]

theorem opsFwdGather_sub : (opsFwdGather : List (HloOp τ sig (Elt F))).Forall fun op => op.bufs ⊆ tcRefs τ sig :=
  ⟨nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., nullary_bufs_sub .., unary_bufs_sub ..⟩

set_option maxHeartbeats 4000000 in
/-- Operations 64 … 65: the backward start indices joined and the backward half gathered. -/
abbrev opsBwdGather : List (HloOp τ sig (Elt F)) :=
  [ nary ![main_v28, main_v29, main_v30] main_v31 (fun u => concatenate S4096x3 1 [⟨S4096x1, u 0⟩, ⟨S4096x1, u 1⟩, ⟨S4096x1, u 2⟩] concatenates_S4096x1_S4096x1_S4096x1_S4096x3_d1),
    binary main_arg0 main_v31 main_v32 ((fun x i => Host.gather gather_S2048x16x1024_S4096x3_S4096x512_1_01_n_n_012_1_11512 x i) : (⟨S2048x16x1024, .f32⟩ : BufTy).Contents (Elt F) → (⟨S4096x3, .i32⟩ : BufTy).Contents (Elt F) → (⟨S4096x512, .f32⟩ : BufTy).Contents (Elt F)) ]

theorem opsBwdGather_sub : (opsBwdGather : List (HloOp τ sig (Elt F))).Forall fun op => op.bufs ⊆ tcRefs τ sig :=
  ⟨nary_bufs_sub .., binary_bufs_sub ..⟩

set_option maxHeartbeats 4000000 in
/-- Operations 66 … 72: the halves joined, times `W1ᵀ`, plus `b1`, through tanh. -/
abbrev opsHidden : List (HloOp τ sig (Elt F)) :=
  [ binary main_v17 main_v32 main_v33 ((fun a b => concatenate S4096x1024 1 [⟨S4096x512, a⟩, ⟨S4096x512, b⟩] concatenates_S4096x512_S4096x512_S4096x1024_d1) : (⟨S4096x512, .f32⟩ : BufTy).Contents (Elt F) → (⟨S4096x512, .f32⟩ : BufTy).Contents (Elt F) → (⟨S4096x1024, .f32⟩ : BufTy).Contents (Elt F)),
    unary main_arg1 main_v34 ((transpose S1024x256 [1, 0] · transposes_S256x1024_S1024x256_1_0) : (⟨S256x1024, .f32⟩ : BufTy).Contents (Elt F) → (⟨S1024x256, .f32⟩ : BufTy).Contents (Elt F)),
    binary main_v33 main_v34 main_v35 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    unary main_arg2 main_v36 (broadcastInDim S1x256 ![1] bcast_S256_S1x256_1 : (⟨S256, .f32⟩ : BufTy).Contents (Elt F) → (⟨S1x256, .f32⟩ : BufTy).Contents (Elt F)),
    unary main_v36 main_v37 (broadcastInDim S4096x256 ![0, 1] bcast_S1x256_S4096x256_0_1 : (⟨S1x256, .f32⟩ : BufTy).Contents (Elt F) → (⟨S4096x256, .f32⟩ : BufTy).Contents (Elt F)),
    binary main_v35 main_v37 main_v38 (addf : (⟨S4096x256, .f32⟩ : BufTy).Contents (Elt F) → (⟨S4096x256, .f32⟩ : BufTy).Contents (Elt F) → (⟨S4096x256, .f32⟩ : BufTy).Contents (Elt F)),
    unary main_v38 main_v39 (Host.tanh : (⟨S4096x256, .f32⟩ : BufTy).Contents (Elt F) → (⟨S4096x256, .f32⟩ : BufTy).Contents (Elt F)) ]

theorem opsHidden_sub : (opsHidden : List (HloOp τ sig (Elt F))).Forall fun op => op.bufs ⊆ tcRefs τ sig :=
  ⟨binary_bufs_sub .., unary_bufs_sub .., binary_bufs_sub .., unary_bufs_sub .., unary_bufs_sub .., binary_bufs_sub .., unary_bufs_sub ..⟩

set_option maxHeartbeats 4000000 in
/-- Operations 73 … 77: times `W2ᵀ`, plus `b2`. -/
abbrev opsLogits : List (HloOp τ sig (Elt F)) :=
  [ unary main_arg3 main_v40 ((transpose S256x50000 [1, 0] · transposes_S50000x256_S256x50000_1_0) : (⟨S50000x256, .f32⟩ : BufTy).Contents (Elt F) → (⟨S256x50000, .f32⟩ : BufTy).Contents (Elt F)),
    binary main_v39 main_v40 main_v41 ((fun l r => Host.dotGeneral dot_S4096x256_S256x50000_S4096x50000_1_0_0_1_n_n none l r) : (⟨S4096x256, .f32⟩ : BufTy).Contents (Elt F) → (⟨S256x50000, .f32⟩ : BufTy).Contents (Elt F) → (⟨S4096x50000, .f32⟩ : BufTy).Contents (Elt F)),
    unary main_arg4 main_v42 (broadcastInDim S1x50000 ![1] bcast_S50000_S1x50000_1 : (⟨S50000, .f32⟩ : BufTy).Contents (Elt F) → (⟨S1x50000, .f32⟩ : BufTy).Contents (Elt F)),
    unary main_v42 main_v43 (broadcastInDim S4096x50000 ![0, 1] bcast_S1x50000_S4096x50000_0_1 : (⟨S1x50000, .f32⟩ : BufTy).Contents (Elt F) → (⟨S4096x50000, .f32⟩ : BufTy).Contents (Elt F)),
    binary main_v41 main_v43 main_v44 (addf : (⟨S4096x50000, .f32⟩ : BufTy).Contents (Elt F) → (⟨S4096x50000, .f32⟩ : BufTy).Contents (Elt F) → (⟨S4096x50000, .f32⟩ : BufTy).Contents (Elt F)) ]

theorem opsLogits_sub : (opsLogits : List (HloOp τ sig (Elt F))).Forall fun op => op.bufs ⊆ tcRefs τ sig :=
  ⟨unary_bufs_sub .., binary_bufs_sub .., unary_bufs_sub .., unary_bufs_sub .., binary_bufs_sub ..⟩

set_option maxHeartbeats 4000000 in
/-- Operations 78 … 92: the row-wise log-softmax (the outlined function inlined). -/
abbrev opsLsm : List (HloOp τ sig (Elt F)) :=
  [ TRef.nullary main_call1.cst (constant S_ .f32 0xFF800000#32),
    TRef.binary (.of main_v44 : TRef sig ⟨S4096x50000, .f32⟩) main_call1.cst main_call1.v0 (fun x v => Host.reduce FloatOps.maximumf x v reducesTo_S4096x50000_S4096_d1 h_S_),
    TRef.nullary main_call1.cst_0 (constant S_ .f32 0xFF800000#32),
    TRef.unary main_call1.cst_0 main_call1.v1 (broadcastInDim S4096 ![] bcast_S_S4096),
    TRef.binary main_call1.v1 main_call1.v0 main_call1.v2 maximumf,
    TRef.unary main_call1.v2 main_call1.v3 (broadcastInDim S4096x1 ![0] bcast_S4096_S4096x1_0),
    TRef.unary main_call1.v3 main_call1.v4 (broadcastInDim S4096x50000 ![0, 1] bcast_S4096x1_S4096x50000_0_1),
    TRef.binary (.of main_v44 : TRef sig ⟨S4096x50000, .f32⟩) main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S4096x50000_S4096_d1 h_S_),
    TRef.unary main_call1.v7 main_call1.v8 (broadcastInDim S4096x1 ![0] bcast_S4096_S4096x1_0),
    TRef.unary main_call1.v8 main_call1.v9 Host.log,
    TRef.unary main_call1.v9 main_call1.v10 (broadcastInDim S4096x50000 ![0, 1] bcast_S4096x1_S4096x50000_0_1),
    TRef.binary main_call1.v5 main_call1.v10 main_call1.v11 subf ]

theorem opsLsm_sub : (opsLsm : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxHeartbeats 4000000 in
/-- Operations 93 … 108: the tag's span and the tag wrapped: the two index columns. -/
abbrev opsTagIdx : List (HloOp τ sig (Elt F)) :=
  [ nullary main_c_11 (constantI S_ 32 0#32),
    unary main_c_11 main_v46 (broadcastInDim S8192 ![] bcast_S_S8192 : (⟨S_, .i32⟩ : BufTy).Contents (Elt F) → (⟨S8192, .i32⟩ : BufTy).Contents (Elt F)),
    binary main_arg8 main_v46 main_v47 (cmpi .slt : (⟨S8192, .i32⟩ : BufTy).Contents (Elt F) → (⟨S8192, .i32⟩ : BufTy).Contents (Elt F) → (⟨S8192, .i1⟩ : BufTy).Contents (Elt F)),
    nullary main_c_12 (constantI S_ 32 4096#32),
    unary main_c_12 main_v48 (broadcastInDim S8192 ![] bcast_S_S8192 : (⟨S_, .i32⟩ : BufTy).Contents (Elt F) → (⟨S8192, .i32⟩ : BufTy).Contents (Elt F)),
    binary main_arg8 main_v48 main_v49 (addi : (⟨S8192, .i32⟩ : BufTy).Contents (Elt F) → (⟨S8192, .i32⟩ : BufTy).Contents (Elt F) → (⟨S8192, .i32⟩ : BufTy).Contents (Elt F)),
    ternary main_v47 main_v49 main_arg8 main_v50 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_13 (constantI S_ 32 0#32),
    unary main_c_13 main_v51 (broadcastInDim S8192 ![] bcast_S_S8192 : (⟨S_, .i32⟩ : BufTy).Contents (Elt F) → (⟨S8192, .i32⟩ : BufTy).Contents (Elt F)),
    binary main_arg9 main_v51 main_v52 (cmpi .slt : (⟨S8192, .i32⟩ : BufTy).Contents (Elt F) → (⟨S8192, .i32⟩ : BufTy).Contents (Elt F) → (⟨S8192, .i1⟩ : BufTy).Contents (Elt F)),
    nullary main_c_14 (constantI S_ 32 50000#32),
    unary main_c_14 main_v53 (broadcastInDim S8192 ![] bcast_S_S8192 : (⟨S_, .i32⟩ : BufTy).Contents (Elt F) → (⟨S8192, .i32⟩ : BufTy).Contents (Elt F)),
    binary main_arg9 main_v53 main_v54 (addi : (⟨S8192, .i32⟩ : BufTy).Contents (Elt F) → (⟨S8192, .i32⟩ : BufTy).Contents (Elt F) → (⟨S8192, .i32⟩ : BufTy).Contents (Elt F)),
    ternary main_v52 main_v54 main_arg9 main_v55 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v50 main_v56 (broadcastInDim S8192x1 ![0] bcast_S8192_S8192x1_0 : (⟨S8192, .i32⟩ : BufTy).Contents (Elt F) → (⟨S8192x1, .i32⟩ : BufTy).Contents (Elt F)),
    unary main_v55 main_v57 (broadcastInDim S8192x1 ![0] bcast_S8192_S8192x1_0 : (⟨S8192, .i32⟩ : BufTy).Contents (Elt F) → (⟨S8192x1, .i32⟩ : BufTy).Contents (Elt F)) ]

theorem opsTagIdx_sub : (opsTagIdx : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

set_option maxHeartbeats 4000000 in
/-- Operations 109 … 110: the two columns joined and the target log-probabilities gathered. -/
abbrev opsPick : List (HloOp τ sig (Elt F)) :=
  [ binary main_v56 main_v57 main_v58 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v45 main_v58 main_v59 ((fun x i => Host.gather gather_S4096x50000_S8192x2_S8192_n_01_n_n_01_1_11 x i) : (⟨S4096x50000, .f32⟩ : BufTy).Contents (Elt F) → (⟨S8192x2, .i32⟩ : BufTy).Contents (Elt F) → (⟨S8192, .f32⟩ : BufTy).Contents (Elt F)) ]

theorem opsPick_sub : (opsPick : List (HloOp τ sig (Elt F))).Forall fun op => op.bufs ⊆ tcRefs τ sig :=
  ⟨binary_bufs_sub .., binary_bufs_sub ..⟩

set_option maxHeartbeats 4000000 in
/-- Operations 111 … 126: the focal loss summed and divided. -/
abbrev opsLoss : List (HloOp τ sig (Elt F)) :=
  [ unary main_v59 main_v60 (Host.exp : (⟨S8192, .f32⟩ : BufTy).Contents (Elt F) → (⟨S8192, .f32⟩ : BufTy).Contents (Elt F)),
    nullary main_cst (constant S_ .f32 0x3F800000#32),
    unary main_cst main_v61 (broadcastInDim S8192 ![] bcast_S_S8192 : (⟨S_, .f32⟩ : BufTy).Contents (Elt F) → (⟨S8192, .f32⟩ : BufTy).Contents (Elt F)),
    binary main_v61 main_v60 main_v62 (subf : (⟨S8192, .f32⟩ : BufTy).Contents (Elt F) → (⟨S8192, .f32⟩ : BufTy).Contents (Elt F) → (⟨S8192, .f32⟩ : BufTy).Contents (Elt F)),
    nullary main_cst_15 (constant S_ .f32 0x3F800000#32),
    unary main_cst_15 main_v63 (broadcastInDim S8192 ![] bcast_S_S8192 : (⟨S_, .f32⟩ : BufTy).Contents (Elt F) → (⟨S8192, .f32⟩ : BufTy).Contents (Elt F)),
    binary main_v62 main_v63 main_v64 (Host.powf : (⟨S8192, .f32⟩ : BufTy).Contents (Elt F) → (⟨S8192, .f32⟩ : BufTy).Contents (Elt F) → (⟨S8192, .f32⟩ : BufTy).Contents (Elt F)),
    unary main_v64 main_v65 (Host.negf : (⟨S8192, .f32⟩ : BufTy).Contents (Elt F) → (⟨S8192, .f32⟩ : BufTy).Contents (Elt F)),
    binary main_v65 main_v59 main_v66 (mulf : (⟨S8192, .f32⟩ : BufTy).Contents (Elt F) → (⟨S8192, .f32⟩ : BufTy).Contents (Elt F) → (⟨S8192, .f32⟩ : BufTy).Contents (Elt F)),
    nullary main_cst_16 (constant S_ .f32 0x00000000#32),
    binary main_v66 main_cst_16 main_v67 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_17 (constant S_ .f32 0x46000000#32),
    nullary main_cst_18 (constant S_ .f32 0x3727C5AC#32),
    binary main_cst_17 main_cst_18 main_v68 (addf : (⟨S_, .f32⟩ : BufTy).Contents (Elt F) → (⟨S_, .f32⟩ : BufTy).Contents (Elt F) → (⟨S_, .f32⟩ : BufTy).Contents (Elt F)),
    binary main_v67 main_v68 main_v69 (Host.divf : (⟨S_, .f32⟩ : BufTy).Contents (Elt F) → (⟨S_, .f32⟩ : BufTy).Contents (Elt F) → (⟨S_, .f32⟩ : BufTy).Contents (Elt F)),
    reshape main_v69 main_v70 rfl shapeCasts_S_S1 ]

theorem opsLoss_sub : (opsLoss : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., unary_bufs_sub .., binary_bufs_sub .., nullary_bufs_sub .., binary_bufs_sub .., nullary_bufs_sub .., nullary_bufs_sub .., binary_bufs_sub .., binary_bufs_sub .., reshape_bufs_sub ..⟩

/-- The stretches, in order. -/
abbrev stretches : List (List (HloOp τ sig (Elt F))) :=
  [opsBegin, opsRem, opsFwdIdx, opsFwdGather, opsBwdGather, opsHidden, opsLogits, opsLsm, opsTagIdx, opsPick, opsLoss]

/-- The program's operations, in order. -/
abbrev ops : List (HloOp τ sig (Elt F)) := (stretches (F := F)).flatten

end Cert.ReferenceIdeal.HR

end
-- ==== Proof.LibTypedRef.lean ====
/-
  Typed references to host buffers: contents moved to a reference's own buffer type and back are unchanged.
-/
import Idealize.ShloMosaic.Lib.StableHlo

noncomputable section

namespace Cert.LibTypedRef

open Idealize.ShloMosaic

/-- Contents at a value's type, moved to the typed reference's buffer type and back, are the contents: the two moves
    are transports along one equation and its inverse. -/
theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

end Cert.LibTypedRef

end
-- ==== Proof.LibNary3.lean ====
/-
  An operation of three operands given as a literal family: its result with each operand's contents at its own
  reference.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- The result of an operation over the literal family of three references `![x, a, b]`: its function at the
    three operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for rewriting by simplification. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

end
-- ==== Proof.R.Results.lean ====
/-
  What each stretch of the reference's operations leaves in the buffers the later stretches read: the result of the
  stretch's last operations as the composed functions of the contents the stretch starts from.
-/
import proofs.«430166_j43576738185611_3_alg».proof.Proof.R.Stages
import proofs.«430166_j43576738185611_3_alg».proof.Proof.R.Ops
import proofs.«430166_j43576738185611_3_alg».proof.Proof.LibTypedRef
import proofs.«430166_j43576738185611_3_alg».proof.Proof.LibNary3
import Idealize.ShloMosaic.Lib.Pipeline.Frame

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

/-- The contents of one buffer after a literal stretch of operations, in one simplification pass: each operation's
    result at its own buffer is its function's value, at any other buffer what was there. -/
macro "stretch_results" : tactic =>
  `(tactic| (simp (disch := decide) only [after_cons, after_nil,
      nullary_result', unary_result', binary_result', ternary_result', reshape_result', Cert.LibNary3.nary3_result',
      nullary_result_ne', unary_result_ne', binary_result_ne', ternary_result_ne', reshape_result_ne', nary_result_ne']))

/-- The floor-modulo's result after the first two stretches: `(span_begin - 1) mod 2048`. -/
theorem rem_eq (V : Valuation τ sig (Elt F)) :
    after opsRem (after opsBegin V) (main_v2 : DevRef τ sig) = remFloor (V (main_arg6 : DevRef τ sig)) := by
  stretch_results
  simp only [Cert.LibTypedRef.ofBuf_toBuf]
  simp only [TRef.toBuf, TRef.ofBuf, cast_eq]
  unfold remFloor remTrunc remDivisor splat4096
  rfl

/-- The forward row index as a column. -/
theorem fwdIdx_v13 (W : Valuation τ sig (Elt F)) :
    after opsFwdIdx W (main_v13 : DevRef τ sig)
      = broadcastInDim S4096x1 ![0] bcast_S4096_S4096x1_0 (wrap4096 (F := F) 2048#32 (W (main_v2 : DevRef τ sig))) := by
  stretch_results
  unfold wrap4096 splat4096
  rfl

/-- The batch entry as a column. -/
theorem fwdIdx_v14 (W : Valuation τ sig (Elt F)) :
    after opsFwdIdx W (main_v14 : DevRef τ sig)
      = broadcastInDim S4096x1 ![0] bcast_S4096_S4096x1_0 (wrap4096 (F := F) 16#32 (W (main_arg5 : DevRef τ sig))) := by
  stretch_results
  unfold wrap4096 splat4096
  rfl

/-- The column 0 as a column. -/
theorem fwdIdx_v15 (W : Valuation τ sig (Elt F)) :
    after opsFwdIdx W (main_v15 : DevRef τ sig)
      = (broadcastInDim S4096x1 ![] bcast_S_S4096x1 (constantI S_ 32 0#32) : Ten F S4096x1 .i32) := by
  stretch_results

/-- The forward half gathered at the three joined columns. -/
theorem fwdGather_v17 (W : Valuation τ sig (Elt F)) :
    after opsFwdGather W (main_v17 : DevRef τ sig)
      = Host.gather gather_S2048x16x1024_S4096x3_S4096x512_1_01_n_n_012_1_11512 (W (main_arg0 : DevRef τ sig))
          (concatenate S4096x3 1
            [⟨S4096x1, W (main_v13 : DevRef τ sig)⟩, ⟨S4096x1, W (main_v14 : DevRef τ sig)⟩, ⟨S4096x1, W (main_v15 : DevRef τ sig)⟩]
            concatenates_S4096x1_S4096x1_S4096x1_S4096x3_d1) := by
  stretch_results
  rfl

/-- The backward row index as a column. -/
theorem fwdGather_v28 (W : Valuation τ sig (Elt F)) :
    after opsFwdGather W (main_v28 : DevRef τ sig)
      = broadcastInDim S4096x1 ![0] bcast_S4096_S4096x1_0 (wrap4096 (F := F) 2048#32 (W (main_arg7 : DevRef τ sig))) := by
  stretch_results
  unfold wrap4096 splat4096
  rfl

/-- The batch entry as a column, again. -/
theorem fwdGather_v29 (W : Valuation τ sig (Elt F)) :
    after opsFwdGather W (main_v29 : DevRef τ sig)
      = broadcastInDim S4096x1 ![0] bcast_S4096_S4096x1_0 (wrap4096 (F := F) 16#32 (W (main_arg5 : DevRef τ sig))) := by
  stretch_results
  unfold wrap4096 splat4096
  rfl

/-- The column 512 as a column. -/
theorem fwdGather_v30 (W : Valuation τ sig (Elt F)) :
    after opsFwdGather W (main_v30 : DevRef τ sig)
      = (broadcastInDim S4096x1 ![] bcast_S_S4096x1 (constantI S_ 32 512#32) : Ten F S4096x1 .i32) := by
  stretch_results

/-- The backward half gathered at the three joined columns. -/
theorem bwdGather_v32 (W : Valuation τ sig (Elt F)) :
    after opsBwdGather W (main_v32 : DevRef τ sig)
      = Host.gather gather_S2048x16x1024_S4096x3_S4096x512_1_01_n_n_012_1_11512 (W (main_arg0 : DevRef τ sig))
          (concatenate S4096x3 1
            [⟨S4096x1, W (main_v28 : DevRef τ sig)⟩, ⟨S4096x1, W (main_v29 : DevRef τ sig)⟩, ⟨S4096x1, W (main_v30 : DevRef τ sig)⟩]
            concatenates_S4096x1_S4096x1_S4096x1_S4096x3_d1) := by
  stretch_results
  rfl

/-- The hidden layer: the joined halves times `W1ᵀ`, plus `b1`, through tanh. -/
theorem hidden_eq (W : Valuation τ sig (Elt F)) :
    after opsHidden W (main_v39 : DevRef τ sig)
      = Host.tanh
          (addf
            (Host.dotGeneral dot_S4096x1024_S1024x256_S4096x256_1_0_0_1_n_n none
              (concatenate S4096x1024 1 [⟨S4096x512, W (main_v17 : DevRef τ sig)⟩, ⟨S4096x512, W (main_v32 : DevRef τ sig)⟩]
                concatenates_S4096x512_S4096x512_S4096x1024_d1)
              (transpose S1024x256 [1, 0] (W (main_arg1 : DevRef τ sig)) transposes_S256x1024_S1024x256_1_0))
            (broadcastInDim S4096x256 ![0, 1] bcast_S1x256_S4096x256_0_1
              (broadcastInDim S1x256 ![1] bcast_S256_S1x256_1 (W (main_arg2 : DevRef τ sig))))) := by
  stretch_results

/-- The logits. -/
theorem logits_eq (W : Valuation τ sig (Elt F)) :
    after opsLogits W (main_v44 : DevRef τ sig)
      = logits (W (main_v39 : DevRef τ sig)) (W (main_arg3 : DevRef τ sig)) (W (main_arg4 : DevRef τ sig)) := by
  stretch_results
  rfl

/-- The log-softmax. -/
theorem lsm_eq (W : Valuation τ sig (Elt F)) :
    after opsLsm W (main_v45 : DevRef τ sig) = logp (W (main_v44 : DevRef τ sig)) := by
  stretch_results
  simp only [Cert.LibTypedRef.ofBuf_toBuf]
  simp only [TRef.toBuf, TRef.ofBuf, cast_eq]
  unfold logp shifted rowMax
  rfl

/-- The tag's span index as a column. -/
theorem tagIdx_v56 (W : Valuation τ sig (Elt F)) :
    after opsTagIdx W (main_v56 : DevRef τ sig)
      = broadcastInDim S8192x1 ![0] bcast_S8192_S8192x1_0 (wrap8192 (F := F) 4096#32 (W (main_arg8 : DevRef τ sig))) := by
  stretch_results
  unfold wrap8192 splat8192
  rfl

/-- The tag as a column. -/
theorem tagIdx_v57 (W : Valuation τ sig (Elt F)) :
    after opsTagIdx W (main_v57 : DevRef τ sig)
      = broadcastInDim S8192x1 ![0] bcast_S8192_S8192x1_0 (wrap8192 (F := F) 50000#32 (W (main_arg9 : DevRef τ sig))) := by
  stretch_results
  unfold wrap8192 splat8192
  rfl

/-- The target log-probabilities gathered at the two joined columns. -/
theorem pick_eq (W : Valuation τ sig (Elt F)) :
    after opsPick W (main_v59 : DevRef τ sig)
      = Host.gather gather_S4096x50000_S8192x2_S8192_n_01_n_n_01_1_11 (W (main_v45 : DevRef τ sig))
          (concatenate S8192x2 1 [⟨S8192x1, W (main_v56 : DevRef τ sig)⟩, ⟨S8192x1, W (main_v57 : DevRef τ sig)⟩]
            concatenates_S8192x1_S8192x1_S8192x2_d1) := by
  stretch_results

/-- The loss. -/
theorem loss_eq (W : Valuation τ sig (Elt F)) :
    after opsLoss W (main_v70 : DevRef τ sig) = tail (W (main_v59 : DevRef τ sig)) := by
  stretch_results
  rfl

end Cert.ReferenceIdeal.HR

end
-- ==== Proof.R.Keep.lean ====
/-
  What the reference program's operations leave alone. No operation writes an argument array, so each of the eleven
  stretches, and with them the whole list, keeps all ten arguments; the forward half survives the stretch that gathers
  the backward half, and the log-probabilities survive the stretch that prepares the tag indices.
-/
import proofs.«430166_j43576738185611_3_alg».proof.Proof.R.Ops
import proofs.«430166_j43576738185611_3_alg».proof.Proof.LibKeepAll
import Idealize.ShloMosaic.Lib.Pipeline.Frame

noncomputable section

namespace Cert.ReferenceIdeal.HR

open Cert.ReferenceIdeal Cert.ReferenceIdeal.Gen Idealize.ShloMosaic Idealize.ShloMosaic.TcCoe Idealize.SL.Sem Idealize.ShloMosaic.StableHlo
open Cert.LibKeepAll

variable {F : FTy → Type} [FloatOps F] (W : Valuation τ sig (Elt F))

/-! ## Operations 1 … 4 keep the arguments -/

theorem keep_opsBegin_arg0 : after opsBegin W (main_arg0 : DevRef τ sig) = W (main_arg0 : DevRef τ sig) := by kept_all opsBegin
theorem keep_opsBegin_arg1 : after opsBegin W (main_arg1 : DevRef τ sig) = W (main_arg1 : DevRef τ sig) := by kept_all opsBegin
theorem keep_opsBegin_arg2 : after opsBegin W (main_arg2 : DevRef τ sig) = W (main_arg2 : DevRef τ sig) := by kept_all opsBegin
theorem keep_opsBegin_arg3 : after opsBegin W (main_arg3 : DevRef τ sig) = W (main_arg3 : DevRef τ sig) := by kept_all opsBegin
theorem keep_opsBegin_arg4 : after opsBegin W (main_arg4 : DevRef τ sig) = W (main_arg4 : DevRef τ sig) := by kept_all opsBegin
theorem keep_opsBegin_arg5 : after opsBegin W (main_arg5 : DevRef τ sig) = W (main_arg5 : DevRef τ sig) := by kept_all opsBegin
theorem keep_opsBegin_arg6 : after opsBegin W (main_arg6 : DevRef τ sig) = W (main_arg6 : DevRef τ sig) := by kept_all opsBegin
theorem keep_opsBegin_arg7 : after opsBegin W (main_arg7 : DevRef τ sig) = W (main_arg7 : DevRef τ sig) := by kept_all opsBegin
theorem keep_opsBegin_arg8 : after opsBegin W (main_arg8 : DevRef τ sig) = W (main_arg8 : DevRef τ sig) := by kept_all opsBegin
theorem keep_opsBegin_arg9 : after opsBegin W (main_arg9 : DevRef τ sig) = W (main_arg9 : DevRef τ sig) := by kept_all opsBegin

/-! ## Operations 5 … 25 (the floor-modulo) keep the arguments -/

theorem keep_opsRem_arg0 : after opsRem W (main_arg0 : DevRef τ sig) = W (main_arg0 : DevRef τ sig) := by kept_all opsRem
theorem keep_opsRem_arg1 : after opsRem W (main_arg1 : DevRef τ sig) = W (main_arg1 : DevRef τ sig) := by kept_all opsRem
theorem keep_opsRem_arg2 : after opsRem W (main_arg2 : DevRef τ sig) = W (main_arg2 : DevRef τ sig) := by kept_all opsRem
theorem keep_opsRem_arg3 : after opsRem W (main_arg3 : DevRef τ sig) = W (main_arg3 : DevRef τ sig) := by kept_all opsRem
theorem keep_opsRem_arg4 : after opsRem W (main_arg4 : DevRef τ sig) = W (main_arg4 : DevRef τ sig) := by kept_all opsRem
theorem keep_opsRem_arg5 : after opsRem W (main_arg5 : DevRef τ sig) = W (main_arg5 : DevRef τ sig) := by kept_all opsRem
theorem keep_opsRem_arg6 : after opsRem W (main_arg6 : DevRef τ sig) = W (main_arg6 : DevRef τ sig) := by kept_all opsRem
theorem keep_opsRem_arg7 : after opsRem W (main_arg7 : DevRef τ sig) = W (main_arg7 : DevRef τ sig) := by kept_all opsRem
theorem keep_opsRem_arg8 : after opsRem W (main_arg8 : DevRef τ sig) = W (main_arg8 : DevRef τ sig) := by kept_all opsRem
theorem keep_opsRem_arg9 : after opsRem W (main_arg9 : DevRef τ sig) = W (main_arg9 : DevRef τ sig) := by kept_all opsRem

/-! ## Operations 26 … 43 (the forward index columns) keep the arguments -/

theorem keep_opsFwdIdx_arg0 : after opsFwdIdx W (main_arg0 : DevRef τ sig) = W (main_arg0 : DevRef τ sig) := by kept_all opsFwdIdx
theorem keep_opsFwdIdx_arg1 : after opsFwdIdx W (main_arg1 : DevRef τ sig) = W (main_arg1 : DevRef τ sig) := by kept_all opsFwdIdx
theorem keep_opsFwdIdx_arg2 : after opsFwdIdx W (main_arg2 : DevRef τ sig) = W (main_arg2 : DevRef τ sig) := by kept_all opsFwdIdx
theorem keep_opsFwdIdx_arg3 : after opsFwdIdx W (main_arg3 : DevRef τ sig) = W (main_arg3 : DevRef τ sig) := by kept_all opsFwdIdx
theorem keep_opsFwdIdx_arg4 : after opsFwdIdx W (main_arg4 : DevRef τ sig) = W (main_arg4 : DevRef τ sig) := by kept_all opsFwdIdx
theorem keep_opsFwdIdx_arg5 : after opsFwdIdx W (main_arg5 : DevRef τ sig) = W (main_arg5 : DevRef τ sig) := by kept_all opsFwdIdx
theorem keep_opsFwdIdx_arg6 : after opsFwdIdx W (main_arg6 : DevRef τ sig) = W (main_arg6 : DevRef τ sig) := by kept_all opsFwdIdx
theorem keep_opsFwdIdx_arg7 : after opsFwdIdx W (main_arg7 : DevRef τ sig) = W (main_arg7 : DevRef τ sig) := by kept_all opsFwdIdx
theorem keep_opsFwdIdx_arg8 : after opsFwdIdx W (main_arg8 : DevRef τ sig) = W (main_arg8 : DevRef τ sig) := by kept_all opsFwdIdx
theorem keep_opsFwdIdx_arg9 : after opsFwdIdx W (main_arg9 : DevRef τ sig) = W (main_arg9 : DevRef τ sig) := by kept_all opsFwdIdx

/-! ## Operations 44 … 63 (the forward gather, the backward index columns) keep the arguments -/

theorem keep_opsFwdGather_arg0 : after opsFwdGather W (main_arg0 : DevRef τ sig) = W (main_arg0 : DevRef τ sig) := by kept_all opsFwdGather
theorem keep_opsFwdGather_arg1 : after opsFwdGather W (main_arg1 : DevRef τ sig) = W (main_arg1 : DevRef τ sig) := by kept_all opsFwdGather
theorem keep_opsFwdGather_arg2 : after opsFwdGather W (main_arg2 : DevRef τ sig) = W (main_arg2 : DevRef τ sig) := by kept_all opsFwdGather
theorem keep_opsFwdGather_arg3 : after opsFwdGather W (main_arg3 : DevRef τ sig) = W (main_arg3 : DevRef τ sig) := by kept_all opsFwdGather
theorem keep_opsFwdGather_arg4 : after opsFwdGather W (main_arg4 : DevRef τ sig) = W (main_arg4 : DevRef τ sig) := by kept_all opsFwdGather
theorem keep_opsFwdGather_arg5 : after opsFwdGather W (main_arg5 : DevRef τ sig) = W (main_arg5 : DevRef τ sig) := by kept_all opsFwdGather
theorem keep_opsFwdGather_arg6 : after opsFwdGather W (main_arg6 : DevRef τ sig) = W (main_arg6 : DevRef τ sig) := by kept_all opsFwdGather
theorem keep_opsFwdGather_arg7 : after opsFwdGather W (main_arg7 : DevRef τ sig) = W (main_arg7 : DevRef τ sig) := by kept_all opsFwdGather
theorem keep_opsFwdGather_arg8 : after opsFwdGather W (main_arg8 : DevRef τ sig) = W (main_arg8 : DevRef τ sig) := by kept_all opsFwdGather
theorem keep_opsFwdGather_arg9 : after opsFwdGather W (main_arg9 : DevRef τ sig) = W (main_arg9 : DevRef τ sig) := by kept_all opsFwdGather

/-! ## Operations 64 … 65 (the backward gather) keep the arguments and the forward half -/

theorem keep_opsBwdGather_arg0 : after opsBwdGather W (main_arg0 : DevRef τ sig) = W (main_arg0 : DevRef τ sig) := by kept_all opsBwdGather
theorem keep_opsBwdGather_arg1 : after opsBwdGather W (main_arg1 : DevRef τ sig) = W (main_arg1 : DevRef τ sig) := by kept_all opsBwdGather
theorem keep_opsBwdGather_arg2 : after opsBwdGather W (main_arg2 : DevRef τ sig) = W (main_arg2 : DevRef τ sig) := by kept_all opsBwdGather
theorem keep_opsBwdGather_arg3 : after opsBwdGather W (main_arg3 : DevRef τ sig) = W (main_arg3 : DevRef τ sig) := by kept_all opsBwdGather
theorem keep_opsBwdGather_arg4 : after opsBwdGather W (main_arg4 : DevRef τ sig) = W (main_arg4 : DevRef τ sig) := by kept_all opsBwdGather
theorem keep_opsBwdGather_arg5 : after opsBwdGather W (main_arg5 : DevRef τ sig) = W (main_arg5 : DevRef τ sig) := by kept_all opsBwdGather
theorem keep_opsBwdGather_arg6 : after opsBwdGather W (main_arg6 : DevRef τ sig) = W (main_arg6 : DevRef τ sig) := by kept_all opsBwdGather
theorem keep_opsBwdGather_arg7 : after opsBwdGather W (main_arg7 : DevRef τ sig) = W (main_arg7 : DevRef τ sig) := by kept_all opsBwdGather
theorem keep_opsBwdGather_arg8 : after opsBwdGather W (main_arg8 : DevRef τ sig) = W (main_arg8 : DevRef τ sig) := by kept_all opsBwdGather
theorem keep_opsBwdGather_arg9 : after opsBwdGather W (main_arg9 : DevRef τ sig) = W (main_arg9 : DevRef τ sig) := by kept_all opsBwdGather
/-- The backward gather writes the joined indices and the backward half, not the forward half. -/
theorem keep_opsBwdGather_v17 : after opsBwdGather W (main_v17 : DevRef τ sig) = W (main_v17 : DevRef τ sig) := by kept_all opsBwdGather

/-! ## Operations 66 … 72 (the first linear layer and tanh) keep the arguments -/

theorem keep_opsHidden_arg0 : after opsHidden W (main_arg0 : DevRef τ sig) = W (main_arg0 : DevRef τ sig) := by kept_all opsHidden
theorem keep_opsHidden_arg1 : after opsHidden W (main_arg1 : DevRef τ sig) = W (main_arg1 : DevRef τ sig) := by kept_all opsHidden
theorem keep_opsHidden_arg2 : after opsHidden W (main_arg2 : DevRef τ sig) = W (main_arg2 : DevRef τ sig) := by kept_all opsHidden
theorem keep_opsHidden_arg3 : after opsHidden W (main_arg3 : DevRef τ sig) = W (main_arg3 : DevRef τ sig) := by kept_all opsHidden
theorem keep_opsHidden_arg4 : after opsHidden W (main_arg4 : DevRef τ sig) = W (main_arg4 : DevRef τ sig) := by kept_all opsHidden
theorem keep_opsHidden_arg5 : after opsHidden W (main_arg5 : DevRef τ sig) = W (main_arg5 : DevRef τ sig) := by kept_all opsHidden
theorem keep_opsHidden_arg6 : after opsHidden W (main_arg6 : DevRef τ sig) = W (main_arg6 : DevRef τ sig) := by kept_all opsHidden
theorem keep_opsHidden_arg7 : after opsHidden W (main_arg7 : DevRef τ sig) = W (main_arg7 : DevRef τ sig) := by kept_all opsHidden
theorem keep_opsHidden_arg8 : after opsHidden W (main_arg8 : DevRef τ sig) = W (main_arg8 : DevRef τ sig) := by kept_all opsHidden
theorem keep_opsHidden_arg9 : after opsHidden W (main_arg9 : DevRef τ sig) = W (main_arg9 : DevRef τ sig) := by kept_all opsHidden

/-! ## Operations 73 … 77 (the vocabulary logits) keep the arguments -/

theorem keep_opsLogits_arg0 : after opsLogits W (main_arg0 : DevRef τ sig) = W (main_arg0 : DevRef τ sig) := by kept_all opsLogits
theorem keep_opsLogits_arg1 : after opsLogits W (main_arg1 : DevRef τ sig) = W (main_arg1 : DevRef τ sig) := by kept_all opsLogits
theorem keep_opsLogits_arg2 : after opsLogits W (main_arg2 : DevRef τ sig) = W (main_arg2 : DevRef τ sig) := by kept_all opsLogits
theorem keep_opsLogits_arg3 : after opsLogits W (main_arg3 : DevRef τ sig) = W (main_arg3 : DevRef τ sig) := by kept_all opsLogits
theorem keep_opsLogits_arg4 : after opsLogits W (main_arg4 : DevRef τ sig) = W (main_arg4 : DevRef τ sig) := by kept_all opsLogits
theorem keep_opsLogits_arg5 : after opsLogits W (main_arg5 : DevRef τ sig) = W (main_arg5 : DevRef τ sig) := by kept_all opsLogits
theorem keep_opsLogits_arg6 : after opsLogits W (main_arg6 : DevRef τ sig) = W (main_arg6 : DevRef τ sig) := by kept_all opsLogits
theorem keep_opsLogits_arg7 : after opsLogits W (main_arg7 : DevRef τ sig) = W (main_arg7 : DevRef τ sig) := by kept_all opsLogits
theorem keep_opsLogits_arg8 : after opsLogits W (main_arg8 : DevRef τ sig) = W (main_arg8 : DevRef τ sig) := by kept_all opsLogits
theorem keep_opsLogits_arg9 : after opsLogits W (main_arg9 : DevRef τ sig) = W (main_arg9 : DevRef τ sig) := by kept_all opsLogits

/-! ## Operations 78 … 92 (the row-wise log-softmax) keep the arguments -/

theorem keep_opsLsm_arg0 : after opsLsm W (main_arg0 : DevRef τ sig) = W (main_arg0 : DevRef τ sig) := by kept_all opsLsm
theorem keep_opsLsm_arg1 : after opsLsm W (main_arg1 : DevRef τ sig) = W (main_arg1 : DevRef τ sig) := by kept_all opsLsm
theorem keep_opsLsm_arg2 : after opsLsm W (main_arg2 : DevRef τ sig) = W (main_arg2 : DevRef τ sig) := by kept_all opsLsm
theorem keep_opsLsm_arg3 : after opsLsm W (main_arg3 : DevRef τ sig) = W (main_arg3 : DevRef τ sig) := by kept_all opsLsm
theorem keep_opsLsm_arg4 : after opsLsm W (main_arg4 : DevRef τ sig) = W (main_arg4 : DevRef τ sig) := by kept_all opsLsm
theorem keep_opsLsm_arg5 : after opsLsm W (main_arg5 : DevRef τ sig) = W (main_arg5 : DevRef τ sig) := by kept_all opsLsm
theorem keep_opsLsm_arg6 : after opsLsm W (main_arg6 : DevRef τ sig) = W (main_arg6 : DevRef τ sig) := by kept_all opsLsm
theorem keep_opsLsm_arg7 : after opsLsm W (main_arg7 : DevRef τ sig) = W (main_arg7 : DevRef τ sig) := by kept_all opsLsm
theorem keep_opsLsm_arg8 : after opsLsm W (main_arg8 : DevRef τ sig) = W (main_arg8 : DevRef τ sig) := by kept_all opsLsm
theorem keep_opsLsm_arg9 : after opsLsm W (main_arg9 : DevRef τ sig) = W (main_arg9 : DevRef τ sig) := by kept_all opsLsm

/-! ## Operations 93 … 108 (the tag index columns) keep the arguments and the log-probabilities -/

theorem keep_opsTagIdx_arg0 : after opsTagIdx W (main_arg0 : DevRef τ sig) = W (main_arg0 : DevRef τ sig) := by kept_all opsTagIdx
theorem keep_opsTagIdx_arg1 : after opsTagIdx W (main_arg1 : DevRef τ sig) = W (main_arg1 : DevRef τ sig) := by kept_all opsTagIdx
theorem keep_opsTagIdx_arg2 : after opsTagIdx W (main_arg2 : DevRef τ sig) = W (main_arg2 : DevRef τ sig) := by kept_all opsTagIdx
theorem keep_opsTagIdx_arg3 : after opsTagIdx W (main_arg3 : DevRef τ sig) = W (main_arg3 : DevRef τ sig) := by kept_all opsTagIdx
theorem keep_opsTagIdx_arg4 : after opsTagIdx W (main_arg4 : DevRef τ sig) = W (main_arg4 : DevRef τ sig) := by kept_all opsTagIdx
theorem keep_opsTagIdx_arg5 : after opsTagIdx W (main_arg5 : DevRef τ sig) = W (main_arg5 : DevRef τ sig) := by kept_all opsTagIdx
theorem keep_opsTagIdx_arg6 : after opsTagIdx W (main_arg6 : DevRef τ sig) = W (main_arg6 : DevRef τ sig) := by kept_all opsTagIdx
theorem keep_opsTagIdx_arg7 : after opsTagIdx W (main_arg7 : DevRef τ sig) = W (main_arg7 : DevRef τ sig) := by kept_all opsTagIdx
theorem keep_opsTagIdx_arg8 : after opsTagIdx W (main_arg8 : DevRef τ sig) = W (main_arg8 : DevRef τ sig) := by kept_all opsTagIdx
theorem keep_opsTagIdx_arg9 : after opsTagIdx W (main_arg9 : DevRef τ sig) = W (main_arg9 : DevRef τ sig) := by kept_all opsTagIdx
/-- The tag index columns are built beside the log-probabilities, which stay as they were. -/
theorem keep_opsTagIdx_v45 : after opsTagIdx W (main_v45 : DevRef τ sig) = W (main_v45 : DevRef τ sig) := by kept_all opsTagIdx

/-! ## Operations 109 … 110 (the target log-probabilities gathered) keep the arguments -/

theorem keep_opsPick_arg0 : after opsPick W (main_arg0 : DevRef τ sig) = W (main_arg0 : DevRef τ sig) := by kept_all opsPick
theorem keep_opsPick_arg1 : after opsPick W (main_arg1 : DevRef τ sig) = W (main_arg1 : DevRef τ sig) := by kept_all opsPick
theorem keep_opsPick_arg2 : after opsPick W (main_arg2 : DevRef τ sig) = W (main_arg2 : DevRef τ sig) := by kept_all opsPick
theorem keep_opsPick_arg3 : after opsPick W (main_arg3 : DevRef τ sig) = W (main_arg3 : DevRef τ sig) := by kept_all opsPick
theorem keep_opsPick_arg4 : after opsPick W (main_arg4 : DevRef τ sig) = W (main_arg4 : DevRef τ sig) := by kept_all opsPick
theorem keep_opsPick_arg5 : after opsPick W (main_arg5 : DevRef τ sig) = W (main_arg5 : DevRef τ sig) := by kept_all opsPick
theorem keep_opsPick_arg6 : after opsPick W (main_arg6 : DevRef τ sig) = W (main_arg6 : DevRef τ sig) := by kept_all opsPick
theorem keep_opsPick_arg7 : after opsPick W (main_arg7 : DevRef τ sig) = W (main_arg7 : DevRef τ sig) := by kept_all opsPick
theorem keep_opsPick_arg8 : after opsPick W (main_arg8 : DevRef τ sig) = W (main_arg8 : DevRef τ sig) := by kept_all opsPick
theorem keep_opsPick_arg9 : after opsPick W (main_arg9 : DevRef τ sig) = W (main_arg9 : DevRef τ sig) := by kept_all opsPick

/-! ## Operations 111 … 126 (the focal loss) keep the arguments -/

theorem keep_opsLoss_arg0 : after opsLoss W (main_arg0 : DevRef τ sig) = W (main_arg0 : DevRef τ sig) := by kept_all opsLoss
theorem keep_opsLoss_arg1 : after opsLoss W (main_arg1 : DevRef τ sig) = W (main_arg1 : DevRef τ sig) := by kept_all opsLoss
theorem keep_opsLoss_arg2 : after opsLoss W (main_arg2 : DevRef τ sig) = W (main_arg2 : DevRef τ sig) := by kept_all opsLoss
theorem keep_opsLoss_arg3 : after opsLoss W (main_arg3 : DevRef τ sig) = W (main_arg3 : DevRef τ sig) := by kept_all opsLoss
theorem keep_opsLoss_arg4 : after opsLoss W (main_arg4 : DevRef τ sig) = W (main_arg4 : DevRef τ sig) := by kept_all opsLoss
theorem keep_opsLoss_arg5 : after opsLoss W (main_arg5 : DevRef τ sig) = W (main_arg5 : DevRef τ sig) := by kept_all opsLoss
theorem keep_opsLoss_arg6 : after opsLoss W (main_arg6 : DevRef τ sig) = W (main_arg6 : DevRef τ sig) := by kept_all opsLoss
theorem keep_opsLoss_arg7 : after opsLoss W (main_arg7 : DevRef τ sig) = W (main_arg7 : DevRef τ sig) := by kept_all opsLoss
theorem keep_opsLoss_arg8 : after opsLoss W (main_arg8 : DevRef τ sig) = W (main_arg8 : DevRef τ sig) := by kept_all opsLoss
theorem keep_opsLoss_arg9 : after opsLoss W (main_arg9 : DevRef τ sig) = W (main_arg9 : DevRef τ sig) := by kept_all opsLoss

/-! ## The whole list keeps the arguments: the eleven stretches one after the other -/

variable (V : Valuation τ sig (Elt F))

theorem args_kept_0 : after ops V (main_arg0 : DevRef τ sig) = V (main_arg0 : DevRef τ sig) := by
  simp only [ops, stretches, List.flatten_cons, List.flatten_nil, List.append_nil, StableHlo.after_append]
  rw [keep_opsLoss_arg0, keep_opsPick_arg0, keep_opsTagIdx_arg0, keep_opsLsm_arg0, keep_opsLogits_arg0, keep_opsHidden_arg0,
    keep_opsBwdGather_arg0, keep_opsFwdGather_arg0, keep_opsFwdIdx_arg0, keep_opsRem_arg0, keep_opsBegin_arg0]

theorem args_kept_1 : after ops V (main_arg1 : DevRef τ sig) = V (main_arg1 : DevRef τ sig) := by
  simp only [ops, stretches, List.flatten_cons, List.flatten_nil, List.append_nil, StableHlo.after_append]
  rw [keep_opsLoss_arg1, keep_opsPick_arg1, keep_opsTagIdx_arg1, keep_opsLsm_arg1, keep_opsLogits_arg1, keep_opsHidden_arg1,
    keep_opsBwdGather_arg1, keep_opsFwdGather_arg1, keep_opsFwdIdx_arg1, keep_opsRem_arg1, keep_opsBegin_arg1]

theorem args_kept_2 : after ops V (main_arg2 : DevRef τ sig) = V (main_arg2 : DevRef τ sig) := by
  simp only [ops, stretches, List.flatten_cons, List.flatten_nil, List.append_nil, StableHlo.after_append]
  rw [keep_opsLoss_arg2, keep_opsPick_arg2, keep_opsTagIdx_arg2, keep_opsLsm_arg2, keep_opsLogits_arg2, keep_opsHidden_arg2,
    keep_opsBwdGather_arg2, keep_opsFwdGather_arg2, keep_opsFwdIdx_arg2, keep_opsRem_arg2, keep_opsBegin_arg2]

theorem args_kept_3 : after ops V (main_arg3 : DevRef τ sig) = V (main_arg3 : DevRef τ sig) := by
  simp only [ops, stretches, List.flatten_cons, List.flatten_nil, List.append_nil, StableHlo.after_append]
  rw [keep_opsLoss_arg3, keep_opsPick_arg3, keep_opsTagIdx_arg3, keep_opsLsm_arg3, keep_opsLogits_arg3, keep_opsHidden_arg3,
    keep_opsBwdGather_arg3, keep_opsFwdGather_arg3, keep_opsFwdIdx_arg3, keep_opsRem_arg3, keep_opsBegin_arg3]

theorem args_kept_4 : after ops V (main_arg4 : DevRef τ sig) = V (main_arg4 : DevRef τ sig) := by
  simp only [ops, stretches, List.flatten_cons, List.flatten_nil, List.append_nil, StableHlo.after_append]
  rw [keep_opsLoss_arg4, keep_opsPick_arg4, keep_opsTagIdx_arg4, keep_opsLsm_arg4, keep_opsLogits_arg4, keep_opsHidden_arg4,
    keep_opsBwdGather_arg4, keep_opsFwdGather_arg4, keep_opsFwdIdx_arg4, keep_opsRem_arg4, keep_opsBegin_arg4]

theorem args_kept_5 : after ops V (main_arg5 : DevRef τ sig) = V (main_arg5 : DevRef τ sig) := by
  simp only [ops, stretches, List.flatten_cons, List.flatten_nil, List.append_nil, StableHlo.after_append]
  rw [keep_opsLoss_arg5, keep_opsPick_arg5, keep_opsTagIdx_arg5, keep_opsLsm_arg5, keep_opsLogits_arg5, keep_opsHidden_arg5,
    keep_opsBwdGather_arg5, keep_opsFwdGather_arg5, keep_opsFwdIdx_arg5, keep_opsRem_arg5, keep_opsBegin_arg5]

theorem args_kept_6 : after ops V (main_arg6 : DevRef τ sig) = V (main_arg6 : DevRef τ sig) := by
  simp only [ops, stretches, List.flatten_cons, List.flatten_nil, List.append_nil, StableHlo.after_append]
  rw [keep_opsLoss_arg6, keep_opsPick_arg6, keep_opsTagIdx_arg6, keep_opsLsm_arg6, keep_opsLogits_arg6, keep_opsHidden_arg6,
    keep_opsBwdGather_arg6, keep_opsFwdGather_arg6, keep_opsFwdIdx_arg6, keep_opsRem_arg6, keep_opsBegin_arg6]

theorem args_kept_7 : after ops V (main_arg7 : DevRef τ sig) = V (main_arg7 : DevRef τ sig) := by
  simp only [ops, stretches, List.flatten_cons, List.flatten_nil, List.append_nil, StableHlo.after_append]
  rw [keep_opsLoss_arg7, keep_opsPick_arg7, keep_opsTagIdx_arg7, keep_opsLsm_arg7, keep_opsLogits_arg7, keep_opsHidden_arg7,
    keep_opsBwdGather_arg7, keep_opsFwdGather_arg7, keep_opsFwdIdx_arg7, keep_opsRem_arg7, keep_opsBegin_arg7]

theorem args_kept_8 : after ops V (main_arg8 : DevRef τ sig) = V (main_arg8 : DevRef τ sig) := by
  simp only [ops, stretches, List.flatten_cons, List.flatten_nil, List.append_nil, StableHlo.after_append]
  rw [keep_opsLoss_arg8, keep_opsPick_arg8, keep_opsTagIdx_arg8, keep_opsLsm_arg8, keep_opsLogits_arg8, keep_opsHidden_arg8,
    keep_opsBwdGather_arg8, keep_opsFwdGather_arg8, keep_opsFwdIdx_arg8, keep_opsRem_arg8, keep_opsBegin_arg8]

theorem args_kept_9 : after ops V (main_arg9 : DevRef τ sig) = V (main_arg9 : DevRef τ sig) := by
  simp only [ops, stretches, List.flatten_cons, List.flatten_nil, List.append_nil, StableHlo.after_append]
  rw [keep_opsLoss_arg9, keep_opsPick_arg9, keep_opsTagIdx_arg9, keep_opsLsm_arg9, keep_opsLogits_arg9, keep_opsHidden_arg9,
    keep_opsBwdGather_arg9, keep_opsFwdGather_arg9, keep_opsFwdIdx_arg9, keep_opsRem_arg9, keep_opsBegin_arg9]

end Cert.ReferenceIdeal.HR

end
-- ==== Proof.R.Run.lean ====
/-
  The run of the reference program: it is the straight line of its 126 operations, so every weakly fair execution
  terminates; the result buffer then holds the five stages composed over the arguments' launch contents, stretch by
  stretch, and no operation writes an argument.
-/
import proofs.«430166_j43576738185611_3_alg».proof.Proof.R.Stages
import proofs.«430166_j43576738185611_3_alg».proof.Proof.R.Ops
import proofs.«430166_j43576738185611_3_alg».proof.Proof.R.Results
import proofs.«430166_j43576738185611_3_alg».proof.Proof.R.Keep
import Idealize.ShloMosaic.Lib.Pipeline.Frame

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

/-- The result buffer after all the operations: the five stages composed, at the arguments' contents. -/
theorem value_eq (V : Valuation τ sig (Elt F)) :
    after ops V (main_v70 : DevRef τ sig)
      = res (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  simp only [ops, stretches, List.flatten_cons, List.flatten_nil, List.append_nil, StableHlo.after_append]
  rw [loss_eq, pick_eq, tagIdx_v56, tagIdx_v57, keep_opsTagIdx_v45, lsm_eq, logits_eq, hidden_eq, bwdGather_v32,
    keep_opsBwdGather_v17, fwdGather_v17, fwdGather_v28, fwdGather_v29, fwdGather_v30, fwdIdx_v13, fwdIdx_v14, fwdIdx_v15,
    rem_eq]
  simp only [keep_opsBegin_arg0, keep_opsBegin_arg1, keep_opsBegin_arg2, keep_opsBegin_arg3, keep_opsBegin_arg4, keep_opsBegin_arg5, keep_opsBegin_arg6, keep_opsBegin_arg7, keep_opsBegin_arg8, keep_opsBegin_arg9, keep_opsRem_arg0, keep_opsRem_arg1, keep_opsRem_arg2, keep_opsRem_arg3, keep_opsRem_arg4, keep_opsRem_arg5, keep_opsRem_arg6, keep_opsRem_arg7, keep_opsRem_arg8, keep_opsRem_arg9, keep_opsFwdIdx_arg0, keep_opsFwdIdx_arg1, keep_opsFwdIdx_arg2, keep_opsFwdIdx_arg3, keep_opsFwdIdx_arg4, keep_opsFwdIdx_arg5, keep_opsFwdIdx_arg6, keep_opsFwdIdx_arg7, keep_opsFwdIdx_arg8, keep_opsFwdIdx_arg9, keep_opsFwdGather_arg0, keep_opsFwdGather_arg1, keep_opsFwdGather_arg2, keep_opsFwdGather_arg3, keep_opsFwdGather_arg4, keep_opsFwdGather_arg5, keep_opsFwdGather_arg6, keep_opsFwdGather_arg7, keep_opsFwdGather_arg8, keep_opsFwdGather_arg9, keep_opsBwdGather_arg0, keep_opsBwdGather_arg1, keep_opsBwdGather_arg2, keep_opsBwdGather_arg3, keep_opsBwdGather_arg4, keep_opsBwdGather_arg5, keep_opsBwdGather_arg6, keep_opsBwdGather_arg7, keep_opsBwdGather_arg8, keep_opsBwdGather_arg9, keep_opsHidden_arg0, keep_opsHidden_arg1, keep_opsHidden_arg2, keep_opsHidden_arg3, keep_opsHidden_arg4, keep_opsHidden_arg5, keep_opsHidden_arg6, keep_opsHidden_arg7, keep_opsHidden_arg8, keep_opsHidden_arg9, keep_opsLogits_arg0, keep_opsLogits_arg1, keep_opsLogits_arg2, keep_opsLogits_arg3, keep_opsLogits_arg4, keep_opsLogits_arg5, keep_opsLogits_arg6, keep_opsLogits_arg7, keep_opsLogits_arg8, keep_opsLogits_arg9, keep_opsLsm_arg0, keep_opsLsm_arg1, keep_opsLsm_arg2, keep_opsLsm_arg3, keep_opsLsm_arg4, keep_opsLsm_arg5, keep_opsLsm_arg6, keep_opsLsm_arg7, keep_opsLsm_arg8, keep_opsLsm_arg9, keep_opsTagIdx_arg0, keep_opsTagIdx_arg1, keep_opsTagIdx_arg2, keep_opsTagIdx_arg3, keep_opsTagIdx_arg4, keep_opsTagIdx_arg5, keep_opsTagIdx_arg6, keep_opsTagIdx_arg7, keep_opsTagIdx_arg8, keep_opsTagIdx_arg9, keep_opsPick_arg0, keep_opsPick_arg1, keep_opsPick_arg2, keep_opsPick_arg3, keep_opsPick_arg4, keep_opsPick_arg5, keep_opsPick_arg6, keep_opsPick_arg7, keep_opsPick_arg8, keep_opsPick_arg9, keep_opsLoss_arg0, keep_opsLoss_arg1, keep_opsLoss_arg2, keep_opsLoss_arg3, keep_opsLoss_arg4, keep_opsLoss_arg5, keep_opsLoss_arg6, keep_opsLoss_arg7, keep_opsLoss_arg8, keep_opsLoss_arg9]
  rfl

/-- The reference is the straight line of its operations. -/
theorem main_eq (c : Dev nD) : main (F := F) c = seq (ops (F := F)) := by chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [ops, stretches, List.flatten_cons, List.flatten_nil, List.append_nil, List.forall_append]
  exact ⟨opsBegin_sub, opsRem_sub, opsFwdIdx_sub, opsFwdGather_sub, opsBwdGather_sub, opsHidden_sub, opsLogits_sub, opsLsm_sub, opsTagIdx_sub, opsPick_sub, opsLoss_sub⟩

/-- Every operation determines its results. -/
theorem ops_fresh : ∀ op ∈ (ops : List (HloOp τ sig (Elt F))), op.fresh = ∅ := by
  intro op h
  simp only [ops, stretches, List.flatten_cons, List.flatten_nil, List.append_nil, List.mem_append] at h
  rcases h with h | h | h | h | h | h | h | h | h | h | h <;>
    ((repeat (cases h with | head => rfl | tail _ h => ?_)); exact nomatch h)

/-- On every device, for any float values, from any memory with zero counters: every weakly fair execution of the
    reference terminates with its result at the five stages composed over the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70)
          = res (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v70).trans (value_eq _),
      (h c main_arg0).trans (args_kept_0 _),
      (h c main_arg1).trans (args_kept_1 _),
      (h c main_arg2).trans (args_kept_2 _),
      (h c main_arg3).trans (args_kept_3 _),
      (h c main_arg4).trans (args_kept_4 _),
      (h c main_arg5).trans (args_kept_5 _),
      (h c main_arg6).trans (args_kept_6 _),
      (h c main_arg7).trans (args_kept_7 _),
      (h c main_arg8).trans (args_kept_8 _),
      (h c main_arg9).trans (args_kept_9 _)⟩)
    (run_seq scopedRefs_eq scopedSems_eq defs main (fun _ => ops) main_eq (fun _ => ops_sub) m ρ (fun _ => ops_fresh))

end Cert.ReferenceIdeal.HR

end
-- ==== Proof.KV.Stages.lean ====
/-
  The kernel program's host side as pure stages: the span features through the first linear layer and tanh, their
  rounding to bf16, the bias as a row, the per-tag positive log-probability (the tag's logit less its span's
  log-sum-exp, capped at zero), and the focal-loss reduction. Each stage is the composition, in program order, of the
  functions of the operations it covers.
-/
import proofs.«430166_j43576738185611_3_alg».proof.KernelIdeal
import proofs.«430166_j43576738185611_3_alg».proof.Proof.Gen.KernelIdeal

noncomputable section

namespace Cert.KernelIdeal.KV

open Cert.KernelIdeal Cert.KernelIdeal.Gen Idealize.ShloMosaic

variable {F : FTy → Type} [FloatOps F]

/-- A tensor value of shape `s` and element type `e`. -/
abbrev Ten (F : FTy → Type) (s : Shape) (e : EltTy) : Type := (⟨s, e⟩ : BufTy).Contents (Elt F)

/-- The scalar `k` at every one of 4096 positions. -/
def splat4096 (k : BitVec 32) : Ten F S4096 .i32 := broadcastInDim S4096 ![] bcast_S_S4096 (constantI S_ 32 k)

/-- The scalar `k` at every one of 8192 positions. -/
def splat8192 (k : BitVec 32) : Ten F S8192 .i32 := broadcastInDim S8192 ![] bcast_S_S8192 (constantI S_ 32 k)

/-- A negative index counted from the end of an axis of length `k`: `v + k` where `v < 0`, else `v`. -/
def wrap4096 (k : BitVec 32) (v : Ten F S4096 .i32) : Ten F S4096 .i32 :=
  select (cmpi .slt v (splat4096 (F := F) 0#32)) (addi v (splat4096 (F := F) k)) v

/-- The same over 8192 positions. -/
def wrap8192 (k : BitVec 32) (v : Ten F S8192 .i32) : Ten F S8192 .i32 :=
  select (cmpi .slt v (splat8192 (F := F) 0#32)) (addi v (splat8192 (F := F) k)) v

/-- The divisor of the floor-modulo: the scalar 2048, replaced by 1 were it 0. -/
def remDivisor : Ten F S_ .i32 :=
  select (cmpi .eq (id (constantI S_ 32 2048#32 : Ten F S_ .i32)) (constantI S_ 32 0#32)) (constantI S_ 32 1#32)
    (id (constantI S_ 32 2048#32 : Ten F S_ .i32))

/-- The truncated remainder of `span_begin - 1` by the divisor. -/
def remTrunc (a6 : Ten F S4096 .i32) : Ten F S4096 .i32 :=
  Host.remsi (subi a6 (splat4096 (F := F) 1#32)) (broadcastInDim S4096 ![] bcast_S_S4096 (remDivisor (F := F)))

/-- `(span_begin - 1) mod 2048` with the sign of the divisor: the truncated remainder, plus the divisor where the
    remainder is nonzero and of the other sign. -/
def remFloor (a6 : Ten F S4096 .i32) : Ten F S4096 .i32 :=
  select
    (andi
      (cmpi .ne (cmpi .slt (remTrunc a6) (splat4096 (F := F) 0#32))
        (broadcastInDim S4096 ![] bcast_S_S4096 (cmpi .slt (remDivisor (F := F)) (constantI S_ 32 0#32))))
      (cmpi .ne (remTrunc a6) (splat4096 (F := F) 0#32)))
    (addi (remTrunc a6) (broadcastInDim S4096 ![] bcast_S_S4096 (remDivisor (F := F))))
    (remTrunc a6)

/-- The three start indices of one half's slice, per span: the row, the batch entry, the first column `k`. -/
def startIdx (row bid : Ten F S4096 .i32) (k : BitVec 32) : Ten F S4096x3 .i32 :=
  concatenate S4096x3 1
    [⟨S4096x1, broadcastInDim S4096x1 ![0] bcast_S4096_S4096x1_0 row⟩,
     ⟨S4096x1, broadcastInDim S4096x1 ![0] bcast_S4096_S4096x1_0 bid⟩,
     ⟨S4096x1, broadcastInDim S4096x1 ![] bcast_S_S4096x1 (constantI S_ 32 k)⟩]
    concatenates_S4096x1_S4096x1_S4096x1_S4096x3_d1

/-- The forward half: 512 columns from column 0 of `hidden` at row `(span_begin - 1) mod 2048`. -/
def fwdHalf (a0 : Ten F S2048x16x1024 .f32) (a5 a6 : Ten F S4096 .i32) : Ten F S4096x512 .f32 :=
  Host.gather gather_S2048x16x1024_S4096x3_S4096x512_1_01_n_n_012_1_11512 a0
    (startIdx (wrap4096 2048#32 (remFloor a6)) (wrap4096 16#32 a5) 0#32)

/-- The backward half: 512 columns from column 512 of `hidden` at row `span_end`. -/
def bwdHalf (a0 : Ten F S2048x16x1024 .f32) (a5 a7 : Ten F S4096 .i32) : Ten F S4096x512 .f32 :=
  Host.gather gather_S2048x16x1024_S4096x3_S4096x512_1_01_n_n_012_1_11512 a0
    (startIdx (wrap4096 2048#32 a7) (wrap4096 16#32 a5) 512#32)

/-- Stage one: the span features times `W1ᵀ`, plus `b1`, through tanh. -/
def xval (a0 : Ten F S2048x16x1024 .f32) (a1 : Ten F S256x1024 .f32) (a2 : Ten F S256 .f32)
    (a5 a6 a7 : Ten F S4096 .i32) : Ten F S4096x256 .f32 :=
  Host.tanh
    (addf
      (Host.dotGeneral dot_S4096x1024_S1024x256_S4096x256_1_0_0_1_n_n none
        (concatenate S4096x1024 1 [⟨S4096x512, fwdHalf a0 a5 a6⟩, ⟨S4096x512, bwdHalf a0 a5 a7⟩]
          concatenates_S4096x512_S4096x512_S4096x1024_d1)
        (transpose S1024x256 [1, 0] a1 transposes_S256x1024_S1024x256_1_0))
      (broadcastInDim S4096x256 ![0, 1] bcast_S1x256_S4096x256_0_1
        (broadcastInDim S1x256 ![1] bcast_S256_S1x256_1 a2)))

/-- The features rounded to bf16: what the tiled log-sum-exp and the positive logits both read. -/
def xbf (x : Ten F S4096x256 .f32) : Ten F S4096x256 .bf16 := truncf .bf16 x bitsLt_bf16_f32

/-- The bias as one row of 50000 entries. -/
def brow (a4 : Ten F S50000 .f32) : Ten F S1x50000 .f32 :=
  fun i => shapeCast S1x50000 a4 shapeCasts_S50000_S1x50000 i

/-- The logit of each tag at its own span: the rounded features' row at the tag's span times the rounded row of
    `W2` at the tag, summed over the 256 columns, plus the bias at the tag. -/
def posLogit (xb : Ten F S4096x256 .bf16) (a3 : Ten F S50000x256 .f32) (a4 : Ten F S50000 .f32)
    (a8 a9 : Ten F S8192 .i32) : Ten F S8192 .f32 :=
  addf
    (Host.reduceAdd
      (mulf
        (extf .f32
          (Host.gather gather_S4096x256_S8192x1_S8192x256_1_0_n_n_0_1_1256 xb
            (broadcastInDim S8192x1 ![0] bcast_S8192_S8192x1_0 (wrap8192 4096#32 a8)))
          bitsLt_bf16_f32)
        (extf .f32
          (truncf .bf16
            (Host.gather gather_S50000x256_S8192x1_S8192x256_1_0_n_n_0_1_1256 a3
              (broadcastInDim S8192x1 ![0] bcast_S8192_S8192x1_0 (wrap8192 50000#32 a9)))
            bitsLt_bf16_f32)
          bitsLt_bf16_f32))
      (constant S_ .f32 0x00000000#32) reducesTo_S8192x256_S8192_d1 h_S_)
    (Host.gather gather_S50000_S8192x1_S8192_n_0_n_n_0_1_1 a4
      (broadcastInDim S8192x1 ![0] bcast_S8192_S8192x1_0 (wrap8192 50000#32 a9)))

/-- Each tag's span's log-sum-exp: the entry (span, 0) of the column of row values. -/
def posLse (a8 : Ten F S8192 .i32) (lse : Ten F S4096x1 .f32) : Ten F S8192 .f32 :=
  Host.gather gather_S4096x1_S8192x2_S8192_n_01_n_n_01_1_11 lse
    (concatenate S8192x2 1
      [⟨S8192x1, broadcastInDim S8192x1 ![0] bcast_S8192_S8192x1_0 (wrap8192 4096#32 a8)⟩,
       ⟨S8192x1, broadcastInDim S8192x1 ![0] bcast_S8192_S8192x1_0 (id (splat8192 (F := F) 0#32))⟩]
      concatenates_S8192x1_S8192x1_S8192x2_d1)

/-- Stage four: per target tag, the logit at (its span, its tag) less the span's log-sum-exp, capped at zero. -/
def posVec (xb : Ten F S4096x256 .bf16) (a3 : Ten F S50000x256 .f32) (a4 : Ten F S50000 .f32)
    (a8 a9 : Ten F S8192 .i32) (lse : Ten F S4096x1 .f32) : Ten F S8192 .f32 :=
  minimumf (subf (posLogit xb a3 a4 a8 a9) (posLse a8 lse))
    (broadcastInDim S8192 ![] bcast_S_S8192 (constant S_ .f32 0x00000000#32))

/-- Stage five: the focal loss at exponent one, summed over the tags and divided by their count plus 1e-5. -/
def tail (p : Ten F S8192 .f32) : Ten F S1 .f32 :=
  fun i => shapeCast S1
    (Host.divf
      (Host.reduceAdd
        (mulf
          (Host.negf
            (Host.powf
              (subf (broadcastInDim S8192 ![] bcast_S_S8192 (constant S_ .f32 0x3F800000#32)) (Host.exp p))
              (broadcastInDim S8192 ![] bcast_S_S8192 (constant S_ .f32 0x3F800000#32))))
          p)
        (constant S_ .f32 0x00000000#32) reducesTo_S8192_S_d0 h_S_)
      (addf (constant S_ .f32 0x46000000#32) (constant S_ .f32 0x3727C5AC#32)))
    shapeCasts_S_S1 i

end Cert.KernelIdeal.KV

end
-- ==== Proof.KI.Runs.lean ====
/- The log-sum-exp kernel's frame, first part: @main around its one region (the host lines before it, the region, the
   host lines after it), the windows' blocks, the two conditions of the body decided over the grid (the first vocabulary
   tile of a row block: v = 0; the last: v = 4), where the output window is idle, and the staging and scratch memrefs
   the body's runs are stated over. -/
import proofs.«430166_j43576738185611_3_alg».proof.Proof.Gen.KernelIdeal.Launch
import proofs.«430166_j43576738185611_3_alg».proof.Proof.Gen.KernelIdeal.Skeleton
import proofs.«430166_j43576738185611_3_alg».proof.Proof.Gen.KernelIdeal.Points
import proofs.«430166_j43576738185611_3_alg».proof.Proof.LibKeepAll
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: after the host lines before the
    region (index arithmetic, the two gathers, the projection, tanh, the cast to bf16, the bias row's reshape). -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the host lines before it, the region, the host lines after it; it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1] ⟨hostOps0_sub, hostOps0_1_sub, hostOps0_2_sub⟩
    ⟨hostOps0_fresh, hostOps0_1_fresh, hostOps0_2_fresh⟩ main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- Each line after the region writes its own result buffer, which is none of the four windows' arrays. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes,
    StableHlo.quaternary_writes, StableHlo.reshape_writes, StableHlo.binaryIndexed_writes, StableHlo.nary_writes,
    StableHlo.unaryIndexed_writes, Finset.mem_singleton]
  repeat' apply And.intro
  all_goals (intro w; fin_cases w <;> exact StableHlo.devRef_ne_of_ne (by decide))
/-- And so no array of the pipeline is written after the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- Closes `after (the lines before the region) X (devRef b) = X (devRef b)` for an argument `b`: each line writes one
    literal reference, its own result, and no argument is one. -/
local macro "kept_pre" : tactic => `(tactic|
  exact StableHlo.after_of_forall_not_mem _ _ (List.forall_iff_forall_mem.mp (by
    simp only [hostOps0, hostOps0_1, hostOps0_2, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide))))

/-- No line before the region writes an argument of @main: each argument is found by the region as the launch left it. -/
theorem V_main_arg0 (c : Dev nD) : V m c main_arg0 = m ((c : Thread nD τ).loc main_arg0) := by
  show StableHlo.after (List.flatten [hostOps0, hostOps0_1, hostOps0_2]) (fun b => m (c, b)) (Proc.devRef .tc main_arg0) = (fun b => m (c, b)) (Proc.devRef .tc main_arg0)
  kept_pre
theorem V_main_arg1 (c : Dev nD) : V m c main_arg1 = m ((c : Thread nD τ).loc main_arg1) := by
  show StableHlo.after (List.flatten [hostOps0, hostOps0_1, hostOps0_2]) (fun b => m (c, b)) (Proc.devRef .tc main_arg1) = (fun b => m (c, b)) (Proc.devRef .tc main_arg1)
  kept_pre
theorem V_main_arg2 (c : Dev nD) : V m c main_arg2 = m ((c : Thread nD τ).loc main_arg2) := by
  show StableHlo.after (List.flatten [hostOps0, hostOps0_1, hostOps0_2]) (fun b => m (c, b)) (Proc.devRef .tc main_arg2) = (fun b => m (c, b)) (Proc.devRef .tc main_arg2)
  kept_pre
theorem V_main_arg3 (c : Dev nD) : V m c main_arg3 = m ((c : Thread nD τ).loc main_arg3) := by
  show StableHlo.after (List.flatten [hostOps0, hostOps0_1, hostOps0_2]) (fun b => m (c, b)) (Proc.devRef .tc main_arg3) = (fun b => m (c, b)) (Proc.devRef .tc main_arg3)
  kept_pre
theorem V_main_arg4 (c : Dev nD) : V m c main_arg4 = m ((c : Thread nD τ).loc main_arg4) := by
  show StableHlo.after (List.flatten [hostOps0, hostOps0_1, hostOps0_2]) (fun b => m (c, b)) (Proc.devRef .tc main_arg4) = (fun b => m (c, b)) (Proc.devRef .tc main_arg4)
  kept_pre
theorem V_main_arg5 (c : Dev nD) : V m c main_arg5 = m ((c : Thread nD τ).loc main_arg5) := by
  show StableHlo.after (List.flatten [hostOps0, hostOps0_1, hostOps0_2]) (fun b => m (c, b)) (Proc.devRef .tc main_arg5) = (fun b => m (c, b)) (Proc.devRef .tc main_arg5)
  kept_pre
theorem V_main_arg6 (c : Dev nD) : V m c main_arg6 = m ((c : Thread nD τ).loc main_arg6) := by
  show StableHlo.after (List.flatten [hostOps0, hostOps0_1, hostOps0_2]) (fun b => m (c, b)) (Proc.devRef .tc main_arg6) = (fun b => m (c, b)) (Proc.devRef .tc main_arg6)
  kept_pre
theorem V_main_arg7 (c : Dev nD) : V m c main_arg7 = m ((c : Thread nD τ).loc main_arg7) := by
  show StableHlo.after (List.flatten [hostOps0, hostOps0_1, hostOps0_2]) (fun b => m (c, b)) (Proc.devRef .tc main_arg7) = (fun b => m (c, b)) (Proc.devRef .tc main_arg7)
  kept_pre
theorem V_main_arg8 (c : Dev nD) : V m c main_arg8 = m ((c : Thread nD τ).loc main_arg8) := by
  show StableHlo.after (List.flatten [hostOps0, hostOps0_1, hostOps0_2]) (fun b => m (c, b)) (Proc.devRef .tc main_arg8) = (fun b => m (c, b)) (Proc.devRef .tc main_arg8)
  kept_pre
theorem V_main_arg9 (c : Dev nD) : V m c main_arg9 = m ((c : Thread nD τ).loc main_arg9) := by
  show StableHlo.after (List.flatten [hostOps0, hostOps0_1, hostOps0_2]) (fun b => m (c, b)) (Proc.devRef .tc main_arg9) = (fun b => m (c, b)) (Proc.devRef .tc main_arg9)
  kept_pre

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (the row block of the activations: fetched when the row index moves), for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (the vocabulary tile of the weights: fetched at every point), for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (the whole bias row: fetched once), for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## An argument of @main that is no array of the pipeline, after the whole program -/

/-- After the host lines that follow the region, an argument that no window stages holds what the launch left in it: no
    line after the region writes it, the region's exit contents differ from the entry contents at the four arrays
    only, and no line before the region writes it. -/
theorem tail_keeps_arg {U' : Type} [URA U'] (dats : (p : Fin 1) → (c : Dev nD) → Dat τ (Elt F) Unit ℕ U' ℕ (cfgs p) c) (c : Dev nD) (b : Ref sig .tc)
    (hw : (hostOps1 : List (HloOp τ sig (Elt F))).Forall fun op => Proc.devRef .tc b ∉ op.writes)
    (hb : ∀ w, Pipeline.arrRef spec0 w ≠ b) (hV : V m c b = m ((c : Thread nD τ).loc b)) :
    Pipeline.afterTail₀ cfgs dats 0 (V0 m) [hostOps1] c b = m ((c : Thread nD τ).loc b) := by
  unfold Pipeline.afterTail₀
  rw [show ([hostOps1] : List (List (HloOp τ sig (Elt F)))).flatten = hostOps1 from by simp only [List.flatten_cons, List.flatten_nil, List.append_nil]]
  rw [StableHlo.after_of_forall_not_mem _ _ (List.forall_iff_forall_mem.mp hw)]
  rw [Pipeline.withArrays_of_ne _ c _ _ b hb]
  exact hV

/-- Closes: no line after the region writes the literal reference in the goal. -/
local macro "kept_post" : tactic => `(tactic|
  (simp only [hostOps1, List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
   repeat' apply And.intro
   all_goals exact StableHlo.devRef_ne_of_ne (by decide)))

theorem hostOps1_keeps_arg0 : (hostOps1 : List (HloOp τ sig (Elt F))).Forall fun op => Proc.devRef .tc main_arg0 ∉ op.writes := by kept_post
theorem hostOps1_keeps_arg1 : (hostOps1 : List (HloOp τ sig (Elt F))).Forall fun op => Proc.devRef .tc main_arg1 ∉ op.writes := by kept_post
theorem hostOps1_keeps_arg2 : (hostOps1 : List (HloOp τ sig (Elt F))).Forall fun op => Proc.devRef .tc main_arg2 ∉ op.writes := by kept_post
theorem hostOps1_keeps_arg4 : (hostOps1 : List (HloOp τ sig (Elt F))).Forall fun op => Proc.devRef .tc main_arg4 ∉ op.writes := by kept_post
theorem hostOps1_keeps_arg5 : (hostOps1 : List (HloOp τ sig (Elt F))).Forall fun op => Proc.devRef .tc main_arg5 ∉ op.writes := by kept_post
theorem hostOps1_keeps_arg6 : (hostOps1 : List (HloOp τ sig (Elt F))).Forall fun op => Proc.devRef .tc main_arg6 ∉ op.writes := by kept_post
theorem hostOps1_keeps_arg7 : (hostOps1 : List (HloOp τ sig (Elt F))).Forall fun op => Proc.devRef .tc main_arg7 ∉ op.writes := by kept_post
theorem hostOps1_keeps_arg8 : (hostOps1 : List (HloOp τ sig (Elt F))).Forall fun op => Proc.devRef .tc main_arg8 ∉ op.writes := by kept_post
theorem hostOps1_keeps_arg9 : (hostOps1 : List (HloOp τ sig (Elt F))).Forall fun op => Proc.devRef .tc main_arg9 ∉ op.writes := by kept_post

/-- An argument no window stages is among the buffers that bypass the region. -/
theorem arg_mem_rest (b : Ref sig .tc) (hs : b.isScoped = false) (hb : ∀ w, Pipeline.arrRef spec0 w ≠ b) : b ∈ Pipeline.restRefs sig spec0 :=
  Pipeline.mem_restRefs_of b hs hb

/-! ## The frame claim's post from the frame run's -/

/-- THE FRAME from a frame run: for any proof data whose arrays are the region-entry contents, a run to the library's
    frame post read at the ten argument arrays — the weights' array (window 1, an input the pipeline only reads) by
    the first clause, the nine others by the second and `tail_keeps_arg` — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    ((h c).2 main_arg0 (arg_mem_rest main_arg0 rfl (by decide))).trans (tail_keeps_arg m dats c main_arg0 hostOps1_keeps_arg0 (by decide) (V_main_arg0 m c)),
    ((h c).2 main_arg1 (arg_mem_rest main_arg1 rfl (by decide))).trans (tail_keeps_arg m dats c main_arg1 hostOps1_keeps_arg1 (by decide) (V_main_arg1 m c)),
    ((h c).2 main_arg2 (arg_mem_rest main_arg2 rfl (by decide))).trans (tail_keeps_arg m dats c main_arg2 hostOps1_keeps_arg2 (by decide) (V_main_arg2 m c)),
    ((h c).1 1).trans (((dats 0 c).arrAt_in 1 rfl _).trans ((hA c 1).trans (V_main_arg3 m c))),
    ((h c).2 main_arg4 (arg_mem_rest main_arg4 rfl (by decide))).trans (tail_keeps_arg m dats c main_arg4 hostOps1_keeps_arg4 (by decide) (V_main_arg4 m c)),
    ((h c).2 main_arg5 (arg_mem_rest main_arg5 rfl (by decide))).trans (tail_keeps_arg m dats c main_arg5 hostOps1_keeps_arg5 (by decide) (V_main_arg5 m c)),
    ((h c).2 main_arg6 (arg_mem_rest main_arg6 rfl (by decide))).trans (tail_keeps_arg m dats c main_arg6 hostOps1_keeps_arg6 (by decide) (V_main_arg6 m c)),
    ((h c).2 main_arg7 (arg_mem_rest main_arg7 rfl (by decide))).trans (tail_keeps_arg m dats c main_arg7 hostOps1_keeps_arg7 (by decide) (V_main_arg7 m c)),
    ((h c).2 main_arg8 (arg_mem_rest main_arg8 rfl (by decide))).trans (tail_keeps_arg m dats c main_arg8 hostOps1_keeps_arg8 (by decide) (V_main_arg8 m c)),
    ((h c).2 main_arg9 (arg_mem_rest main_arg9 rfl (by decide))).trans (tail_keeps_arg m dats c main_arg9 hostOps1_keeps_arg9 (by decide) (V_main_arg9 m c))⟩) h

/-! ## The body's branch conditions -/

/-- The condition of the body's first `scf.if` (the reset of the running maximum and the running sum): the vocabulary
    tile index is 0. -/
abbrev cond0_0 (i : grid0.Coords) : Prop := (Scalar.cmpi .ne (Scalar.extui (Scalar.cmpi .eq (BitVec.ofNat 32 (i 1).val) 0#32)) 0#32) = 1#1
/-- It holds at the points ≡ 0 (mod 5) — decided over the grid. -/
theorem hcond0_0 : ∀ t : Fin cfg0.N, cond0_0 (grid0.coords t) ↔ t.val % 5 = 0 :=
  (by decide +kernel : ∀ t : Fin grid0.N, cond0_0 (grid0.coords t) ↔ t.val % 5 = 0)

/-- The condition of the body's second `scf.if` (the output's store): the vocabulary tile index is 4, the last. -/
abbrev cond0_1 (i : grid0.Coords) : Prop := k0_cond2 i = 1#1
/-- It holds at the points ≡ 4 (mod 5) — decided over the grid. -/
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At the first tile of a row block the output window is idle: nothing is stored into it. -/
theorem idleAt0_3_A : ∀ t : Fin cfg0.N, cond0_0 (grid0.coords t) → ¬cond0_1 (grid0.coords t) → cfg0.idle 3 (grid0.coords t) = true := by decide +kernel
/-- And the pipeline does not write its block back there. -/
theorem noFlush0_3_A : ∀ t : Fin cfg0.N, cond0_0 (grid0.coords t) → ¬cond0_1 (grid0.coords t) → (cfg0.win 3).flush t = false := by decide +kernel
/-- At the middle tiles the output window is idle. -/
theorem idleAt0_3_B : ∀ t : Fin cfg0.N, ¬cond0_0 (grid0.coords t) → ¬cond0_1 (grid0.coords t) → cfg0.idle 3 (grid0.coords t) = true := by decide +kernel
/-- And not written back. -/
theorem noFlush0_3_B : ∀ t : Fin cfg0.N, ¬cond0_0 (grid0.coords t) → ¬cond0_1 (grid0.coords t) → (cfg0.win 3).flush t = false := by decide +kernel
/-- At the last tile of a row block the output window is live: the log-sum-exp is stored into it. -/
theorem liveAt0_3_C : ∀ t : Fin cfg0.N, ¬cond0_0 (grid0.coords t) → cond0_1 (grid0.coords t) → cfg0.idle 3 (grid0.coords t) = false := by decide +kernel

/-! ## The kernel body on its staging memrefs -/

/-- One staging buffer of the output window, through which its contents are stated (the choice does not matter). -/
abbrev VO0_3 : View sig .tc .vmem S2048x1 .f32 := (Memref.whole cc0_stg3_0 : Memref sig .tc .vmem S2048x1 .f32).view
/-- Each window's current staging memref at point `t`, spelled as the pipeline passes it, and its wholeness. -/
abbrev ms0_0 (t : Fin cfg0.N) : Memref sig .tc .vmem S2048x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x50000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .f32 := win0_3.stage (cfg0.slots t 3)
abbrev hs0_3 (t : Fin cfg0.N) : (ms0_3 t).IsWhole := hstage0_3 ((cfg0.slots t 3).cast nbuf0_3)
/-- The two scratch operands: whole scoped buffers of the kernel's own, passed beside the windows — the running maximum
    and the running sum of exponentials, both carried from one vocabulary tile to the next. -/
abbrev scM0_0 : Memref sig .tc .vmem S2048x1 .f32 := Memref.whole cc0_scratch0
abbrev scM0_1 : Memref sig .tc .vmem S2048x1 .f32 := Memref.whole cc0_scratch1
/-- The same as views: what they hold is stated through them. -/
abbrev VS0_0 : View sig .tc .vmem S2048x1 .f32 := scM0_0.view
abbrev VS0_1 : View sig .tc .vmem S2048x1 .f32 := scM0_1.view

/-- The region invariant of the class with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.HF

end
-- ==== Proof.KI.RunA.lean ====
/- The log-sum-exp kernel's body run whole in case A of its two conditionals: the first vocabulary tile of a row block (the reset taken, the output's store not taken: points 0, 5). -/
import proofs.«430166_j43576738185611_3_alg».proof.Proof.KI.Runs

set_option maxRecDepth 16384

noncomputable section

namespace Cert.KernelIdeal.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output's staging memref and in the two scratch operands, as pieces (last first),
    IN CASE A, with the proof that on whole memrefs — the three inputs' at their blocks `x0 x1 x2`, the output's, which this case leaves untouched, at contents `xi3` handed back as found, the two scratch operands' at anything (both are stored whole before they are read) — the body
    runs to the continuation holding the inputs' as they were and each stored buffer with its pieces written. The pieces
    are the witness the run finds. -/
noncomputable def kernelRun0_A (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x256 .bf16) (x1 : Vec F S10000x256 .f32) (x2 : Vec F S1x50000 .f32) :
    Σ' (L3 : List (View.Piece (Elt F) S2048x1 .f32)) (LS0 : List (View.Piece (Elt F) S2048x1 .f32)), { LS1 : List (View.Piece (Elt F) S2048x1 .f32) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7) K } := by
  refine ⟨[], ?_, ?_, fun xi3 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.HF

end
-- ==== Proof.KI.RunB.lean ====
/- The log-sum-exp kernel's body run whole in case B of its two conditionals: a middle vocabulary tile of a row block (neither conditional taken: points 1, 2, 3, 6, 7, 8). -/
import proofs.«430166_j43576738185611_3_alg».proof.Proof.KI.RunA

set_option maxRecDepth 16384

noncomputable section

namespace Cert.KernelIdeal.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output's staging memref and in the two scratch operands, as pieces (last first),
    IN CASE B, with the proof that on whole memrefs — the three inputs' at their blocks `x0 x1 x2`, the output's, which this case leaves untouched, at contents `xi3` handed back as found, the two scratch operands' at what the point before left (`xs0`: the running maximum, `xs1`: the running sum) — the body
    runs to the continuation holding the inputs' as they were and each stored buffer with its pieces written. The pieces
    are the witness the run finds. -/
noncomputable def kernelRun0_B (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x256 .bf16) (x1 : Vec F S10000x256 .f32) (x2 : Vec F S1x50000 .f32) (xs0 : Vec F S2048x1 .f32) (xs1 : Vec F S2048x1 .f32) :
    Σ' (L3 : List (View.Piece (Elt F) S2048x1 .f32)) (LS0 : List (View.Piece (Elt F) S2048x1 .f32)), { LS1 : List (View.Piece (Elt F) S2048x1 .f32) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7) K } := by
  refine ⟨[], ?_, ?_, fun xi3 E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.HF

end
-- ==== Proof.KI.RunC.lean ====
/- The log-sum-exp kernel's body run whole in case C of its two conditionals: the last vocabulary tile of a row block (the reset not taken, the output's store taken: points 4, 9). -/
import proofs.«430166_j43576738185611_3_alg».proof.Proof.KI.RunB

set_option maxRecDepth 16384

noncomputable section

namespace Cert.KernelIdeal.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output's staging memref and in the two scratch operands, as pieces (last first),
    IN CASE C, with the proof that on whole memrefs — the three inputs' at their blocks `x0 x1 x2`, the output's at anything, the two scratch operands' at what the point before left (`xs0`: the running maximum, `xs1`: the running sum) — the body
    runs to the continuation holding the inputs' as they were and each stored buffer with its pieces written. The pieces
    are the witness the run finds. -/
noncomputable def kernelRun0_C (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .bf16) (x1 : Vec F S10000x256 .f32) (x2 : Vec F S1x50000 .f32) (xs0 : Vec F S2048x1 .f32) (xs1 : Vec F S2048x1 .f32) :
    Σ' (L3 : List (View.Piece (Elt F) S2048x1 .f32)) (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7) K } := by
  refine ⟨?_, ?_, ?_, fun E K => ?run⟩
  case run =>
    simp only [cc0__lse_kernel_eq_skeleton]; unfold cc0__lse_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.HF

end
-- ==== Proof.KI.Frame.lean ====
/- The log-sum-exp kernel's frame, last part: what the output window and the two carried scratch operands (the running
   maximum and the running sum of exponentials of a row block) hold after each of the ten grid points, case by case and by
   recursion on the point; the pipeline's proof data; the body obligation; the run of @main; and the frame: @main's ten
   argument arrays end unchanged. -/
import proofs.«430166_j43576738185611_3_alg».proof.Proof.KI.RunC

set_option maxRecDepth 16384

noncomputable section

namespace Cert.KernelIdeal.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first vocabulary tile of a row block nothing is stored into the output window (idle there, and not written back): no pieces — a
    placeholder (junk read back) that nothing consults. -/
def out0_A_3 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x256 .bf16) (x1 : Vec F S10000x256 .f32) (x2 : Vec F S1x50000 .f32) : Vec F S2048x1 .f32 :=
  VO0_3.read (Elt F) (VO0_3.writes (Elt F) VO0_3.junk (kernelRun0_A c i arg2 harg2 arg3 harg3 arg4 harg4 arg5 harg5 arg6 harg6 arg7 harg7 hc0 hc1 x0 x1 x2).1)

/-- The stores of the first vocabulary tile of a row block into scratch 0 (the running maximum) cover it. -/
theorem scover0_A_0 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x256 .bf16) (x1 : Vec F S10000x256 .f32) (x2 : Vec F S1x50000 .f32) (y : S2048x1.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S2048x1.size (by sl_kernel_rfl) y

/-- What the first vocabulary tile of a row block leaves in scratch 0 (the running maximum): its pieces read back over junk. -/
def sout0_A_0 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x256 .bf16) (x1 : Vec F S10000x256 .f32) (x2 : Vec F S1x50000 .f32) : Vec F S2048x1 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)

/-- The stores of the first vocabulary tile of a row block into scratch 1 (the running sum of exponentials) cover it. -/
theorem scover0_A_1 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x256 .bf16) (x1 : Vec F S10000x256 .f32) (x2 : Vec F S1x50000 .f32) (y : S2048x1.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S2048x1.size (by sl_kernel_rfl) y

/-- What the first vocabulary tile of a row block leaves in scratch 1 (the running sum of exponentials): its pieces read back over junk. -/
def sout0_A_1 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x256 .bf16) (x1 : Vec F S10000x256 .f32) (x2 : Vec F S1x50000 .f32) : Vec F S2048x1 .f32 :=
  VS0_1.read (Elt F) (VS0_1.writes (Elt F) VS0_1.junk (kernelRun0_A c i arg2 harg2 arg3 harg3 arg4 harg4 arg5 harg5 arg6 harg6 arg7 harg7 hc0 hc1 x0 x1 x2).2.2.1)

/-- At a middle vocabulary tile nothing is stored into the output window (idle there, and not written back): no pieces — a
    placeholder (junk read back) that nothing consults. -/
def out0_B_3 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x256 .bf16) (x1 : Vec F S10000x256 .f32) (x2 : Vec F S1x50000 .f32) (xs0 : Vec F S2048x1 .f32) (xs1 : Vec F S2048x1 .f32) : Vec F S2048x1 .f32 :=
  VO0_3.read (Elt F) (VO0_3.writes (Elt F) VO0_3.junk (kernelRun0_B c i arg2 harg2 arg3 harg3 arg4 harg4 arg5 harg5 arg6 harg6 arg7 harg7 hc0 hc1 x0 x1 x2 xs0 xs1).1)

/-- The stores of a middle vocabulary tile into scratch 0 (the running maximum) cover it. -/
theorem scover0_B_0 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x256 .bf16) (x1 : Vec F S10000x256 .f32) (x2 : Vec F S1x50000 .f32) (xs0 : Vec F S2048x1 .f32) (xs1 : Vec F S2048x1 .f32) (y : S2048x1.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S2048x1.size (by sl_kernel_rfl) y

/-- What a middle vocabulary tile leaves in scratch 0 (the running maximum): its pieces read back over junk. -/
def sout0_B_0 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x256 .bf16) (x1 : Vec F S10000x256 .f32) (x2 : Vec F S1x50000 .f32) (xs0 : Vec F S2048x1 .f32) (xs1 : Vec F S2048x1 .f32) : Vec F S2048x1 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).2.1)

/-- The stores of a middle vocabulary tile into scratch 1 (the running sum of exponentials) cover it. -/
theorem scover0_B_1 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x256 .bf16) (x1 : Vec F S10000x256 .f32) (x2 : Vec F S1x50000 .f32) (xs0 : Vec F S2048x1 .f32) (xs1 : Vec F S2048x1 .f32) (y : S2048x1.Idx) :
    ∃ pc ∈ (kernelRun0_B c i arg2 harg2 arg3 harg3 arg4 harg4 arg5 harg5 arg6 harg6 arg7 harg7 hc0 hc1 x0 x1 x2 xs0 xs1).2.2.1, y ∈ pc.1.set :=
  View.cover_of_tiledL (kernelRun0_B c i arg2 harg2 arg3 harg3 arg4 harg4 arg5 harg5 arg6 harg6 arg7 harg7 hc0 hc1 x0 x1 x2 xs0 xs1).2.2.1 S2048x1.size (by sl_kernel_rfl) y

/-- What a middle vocabulary tile leaves in scratch 1 (the running sum of exponentials): its pieces read back over junk. -/
def sout0_B_1 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x256 .bf16) (x1 : Vec F S10000x256 .f32) (x2 : Vec F S1x50000 .f32) (xs0 : Vec F S2048x1 .f32) (xs1 : Vec F S2048x1 .f32) : Vec F S2048x1 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.2.1)

/-- At the last vocabulary tile of a row block the one store into the output window covers its block. -/
theorem cover0_C_3 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .bf16) (x1 : Vec F S10000x256 .f32) (x2 : Vec F S1x50000 .f32) (xs0 : Vec F S2048x1 .f32) (xs1 : Vec F S2048x1 .f32) (y : S2048x1.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S2048x1.size (by sl_kernel_rfl) y

/-- What the last vocabulary tile of a row block leaves in the output window's staging buffer (the row block's log-sum-exp: the running maximum
    plus the logarithm of the running sum): its pieces read back over junk. -/
def out0_C_3 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .bf16) (x1 : Vec F S10000x256 .f32) (x2 : Vec F S1x50000 .f32) (xs0 : Vec F S2048x1 .f32) (xs1 : Vec F S2048x1 .f32) : Vec F S2048x1 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)

/-- The stores of the last vocabulary tile of a row block into scratch 0 (the running maximum) cover it. -/
theorem scover0_C_0 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .bf16) (x1 : Vec F S10000x256 .f32) (x2 : Vec F S1x50000 .f32) (xs0 : Vec F S2048x1 .f32) (xs1 : Vec F S2048x1 .f32) (y : S2048x1.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S2048x1.size (by sl_kernel_rfl) y

/-- What the last vocabulary tile of a row block leaves in scratch 0 (the running maximum): its pieces read back over junk. -/
def sout0_C_0 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .bf16) (x1 : Vec F S10000x256 .f32) (x2 : Vec F S1x50000 .f32) (xs0 : Vec F S2048x1 .f32) (xs1 : Vec F S2048x1 .f32) : Vec F S2048x1 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)

/-- The stores of the last vocabulary tile of a row block into scratch 1 (the running sum of exponentials) cover it. -/
theorem scover0_C_1 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .bf16) (x1 : Vec F S10000x256 .f32) (x2 : Vec F S1x50000 .f32) (xs0 : Vec F S2048x1 .f32) (xs1 : Vec F S2048x1 .f32) (y : S2048x1.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S2048x1.size (by sl_kernel_rfl) y

/-- What the last vocabulary tile of a row block leaves in scratch 1 (the running sum of exponentials): its pieces read back over junk. -/
def sout0_C_1 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .bf16) (x1 : Vec F S10000x256 .f32) (x2 : Vec F S1x50000 .f32) (xs0 : Vec F S2048x1 .f32) (xs1 : Vec F S2048x1 .f32) : Vec F S2048x1 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-! ## What the output window and the two scratch operands hold after each point -/

/-- THE ACCUMULATION. What the output window's staging buffer, the running maximum (scratch 0) and the running sum
    (scratch 1) hold after the body at position `n`: the case the closed forms select at `n`, run at the point's memrefs
    and input blocks, the two scratch operands at what this leaves at `n - 1`. Both conditions at once is no case. -/
def outsAt0 (c : Dev nD) : (n : ℕ) → n < cfg0.N → Vec F S2048x1 .f32 × Vec F S2048x1 .f32 × Vec F S2048x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 5 = 0 then
      if h1 : (n + 1) % 5 = 4 then
        False.elim (by have hN : n + 1 < 10 := lt_of_lt_of_eq hn (show cfg0.N = 10 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 5 = 4 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)

/-- `outsAt0` at a first tile: that case's contents. -/
theorem outsAt0_A (c : Dev nD) (t : Fin cfg0.N) (h0 : t.val % 5 = 0) (h1 : ¬t.val % 5 = 4) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a middle tile: that case's contents, over what the point before left. -/
theorem outsAt0_B (c : Dev nD) (t : Fin cfg0.N) (h0 : ¬t.val % 5 = 0) (h1 : ¬t.val % 5 = 4) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last tile: that case's contents, over what the point before left. -/
theorem outsAt0_C (c : Dev nD) (t : Fin cfg0.N) (h0 : ¬t.val % 5 = 0) (h1 : t.val % 5 = 4) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with the two scratch operands CARRIED between points: before the first
    point the class's (every scratch at anything); afterwards each scratch at what the point before left in it, and
    the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch operands at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: the carried scratch operands at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at point
    `t` each input's buffer at its block and the output's at `outsAt0`'s first component; the invariant `PhiS`; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the closed forms say which case the point is in; the
    invariant hands the body the two carried scratch operands at what the point before left (at anything at the first
    point) and the generator register at some state, and takes the scratch operands back at this point's contents; the
    output window's buffer is handed back untouched where the case stores nothing into it, and at the log-sum-exp at
    the last tile of a row block; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 10 := lt_of_lt_of_eq t.isLt (show cfg0.N = 10 from N_0)
  by_cases h0 : t.val % 5 = 0
  · by_cases h1 : t.val % 5 = 4
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_A t ((hcond0_0 t).mpr h0) (fun h => h1 ((hcond0_1 t).mp h))) (noFlush0_3_A t ((hcond0_0 t).mpr h0) (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 5 = 4
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3_C t (fun h => h0 ((hcond0_0 t).mp h)) ((hcond0_1 t).mpr h1)], after0_3]
      rw [outsAt0_C m c t h0 h1]
      unfold out0_C_3 sout0_C_0 sout0_C_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) _ _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B m c t h0 h1]
      unfold sout0_B_0 sout0_B_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the carried contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 10 := N_0; omega)

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- info: 'Cert.KernelIdeal.HF.run_main' depends on axioms: [propext, Classical.choice, Quot.sound] -/
#guard_msgs in #print axioms run_main

/-- THE FRAME: @main runs and its ten argument arrays end as the launch left them, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.HF

end
-- ==== Proof.KV.HostRun.lean ====
/-
  The host side of the kernel program run: what the lines before the region leave in the bias row's buffer, and what
  the lines after the region leave in the result's buffer.
-/
import proofs.«430166_j43576738185611_3_alg».proof.Proof.KV.Stages
import proofs.«430166_j43576738185611_3_alg».proof.Proof.KI.Frame
import proofs.«430166_j43576738185611_3_alg».proof.Proof.LibTypedRef

set_option maxRecDepth 16384

noncomputable section

namespace Cert.KernelIdeal.KV

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

set_option maxHeartbeats 4000000 in
/-- The bias row's buffer, when the region is entered, holds the bias as one row. -/
theorem V_v41 (c : Dev nD) : HF.V m c main_v41 = brow (m ((c : Thread nD τ).loc main_arg4)) := by
  dsimp only [HF.V, HF.V0]
  simp only [hostOps0, hostOps0_1, hostOps0_2, List.flatten_cons, List.flatten_nil, List.append_nil, List.cons_append, List.nil_append]
  after_results
  rfl

open StableHlo in
set_option maxHeartbeats 40000000 in
/-- The result's buffer after the lines that follow the region, from any contents: the focal-loss reduction of the
    positive log-probabilities, read from the six buffers those lines read. Each line's result at its own buffer is its
    function's value, at any other buffer what was there; the two columns joined into the pairs of position words are
    read through the lines before the join one by one. -/
theorem tail_of (W : Valuation τ sig (Elt F)) :
    after hostOps1 W (Proc.devRef .tc main_v94)
      = tail (posVec (W (Proc.devRef .tc main_v40)) (W (Proc.devRef .tc main_arg3)) (W (Proc.devRef .tc main_arg4))
          (W (Proc.devRef .tc main_arg8)) (W (Proc.devRef .tc main_arg9)) (W (Proc.devRef .tc main_v42))) := by
  simp only [hostOps1]
  simp (disch := decide) only [after_cons, after_nil,
      nullary_result', unary_result', binary_result', ternary_result', reshape_result',
      nullary_result_ne', unary_result_ne', binary_result_ne', ternary_result_ne', reshape_result_ne']
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rfl

/-- The positive log-probabilities at equal operands. -/
theorem posVec_congr {xb xb' : Ten F S4096x256 .bf16} {a3 a3' : Ten F S50000x256 .f32} {a4 a4' : Ten F S50000 .f32}
    {a8 a8' a9 a9' : Ten F S8192 .i32} {lse lse' : Ten F S4096x1 .f32}
    (h0 : xb = xb') (h3 : a3 = a3') (h4 : a4 = a4') (h8 : a8 = a8') (h9 : a9 = a9') (hl : lse = lse') :
    posVec xb a3 a4 a8 a9 lse = posVec xb' a3' a4' a8' a9' lse' := by
  subst h0 h3 h4 h8 h9 hl; rfl

set_option maxHeartbeats 4000000 in
/-- The result's buffer after the lines that follow the region: the focal-loss reduction of the positive
    log-probabilities, read from the rounded features as the region found them, the weights, the bias, the span and tag
    words, and the column of row log-sum-exps the region left. The region leaves its three input arrays as it found
    them, its output array at the last point's contents, and every other buffer untouched. -/
theorem tail_res (c : Dev nD) :
    Pipeline.afterTail₀ cfgs (HF.dats m) 0 (HF.V0 m) [hostOps1] c main_v94
      = tail (posVec (HF.V m c main_v40) (m ((c : Thread nD τ).loc main_arg3)) (m ((c : Thread nD τ).loc main_arg4))
          (m ((c : Thread nD τ).loc main_arg8)) (m ((c : Thread nD τ).loc main_arg9)) ((HF.dats m 0 c).arrAt 3 cfg0.N)) := by
  unfold Pipeline.afterTail₀
  rw [show ([hostOps1] : List (List (HloOp τ sig (Elt F)))).flatten = hostOps1 from by
    simp only [List.flatten_cons, List.flatten_nil, List.append_nil]]
  rw [tail_of]
  exact congrArg tail (posVec_congr
    ((Pipeline.withArrays_arr spec0 launch0.win.arr_inj c _ _ 0).trans
      (((HF.dats m 0 c).arrAt_in 0 rfl _).trans (HF.A_eq m c 0)))
    ((Pipeline.withArrays_arr spec0 launch0.win.arr_inj c _ _ 1).trans
      (((HF.dats m 0 c).arrAt_in 1 rfl _).trans ((HF.A_eq m c 1).trans (HF.V_main_arg3 m c))))
    ((Pipeline.withArrays_of_ne _ c _ _ main_arg4 (by decide)).trans (HF.V_main_arg4 m c))
    ((Pipeline.withArrays_of_ne _ c _ _ main_arg8 (by decide)).trans (HF.V_main_arg8 m c))
    ((Pipeline.withArrays_of_ne _ c _ _ main_arg9 (by decide)).trans (HF.V_main_arg9 m c))
    (Pipeline.withArrays_arr spec0 launch0.win.arr_inj c _ _ 3))

end Cert.KernelIdeal.KV

end
-- ==== Proof.KV.Run.lean ====
/-
  The kernel program run whole: from any memory with zero counters @main terminates, its result buffer holds the focal
  loss of the per-tag positive log-probabilities computed from the arguments and the log-sum-exp array the region leaves,
  and its ten argument arrays end unchanged.
-/
import proofs.«430166_j43576738185611_3_alg».proof.Proof.KV.HostRun
import proofs.«430166_j43576738185611_3_alg».proof.Proof.KI.Frame

set_option maxRecDepth 16384

noncomputable section

namespace Cert.KernelIdeal.KV

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- THE RUN. The result buffer is unscoped and no array of the pipeline, so after the whole program it holds what the lines
    after the region leave in it (`tail_res`); the weights' array is an input the pipeline only reads; no line of the
    program writes any of the nine other arguments. -/
theorem run : θ_run defs (onTc (τ := τ) (main (F := F))) ⟨m, fun _ => 0, ρ⟩ fun r => ∀ c : Dev nD,
      r.2.mem ((c.tc : Thread nD τ).loc main_v94) = tail (posVec (HF.V m c main_v40) (m ((c.tc : Thread nD τ).loc main_arg3)) (m ((c.tc : Thread nD τ).loc main_arg4)) (m ((c.tc : Thread nD τ).loc main_arg8)) (m ((c.tc : Thread nD τ).loc main_arg9)) ((HF.dats m 0 c).arrAt 3 cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨
    ((h c).2 main_v94 (HF.arg_mem_rest main_v94 rfl (by decide))).trans (tail_res m c),
    ((h c).2 main_arg0 (HF.arg_mem_rest main_arg0 rfl (by decide))).trans (HF.tail_keeps_arg m (HF.dats m) c main_arg0 HF.hostOps1_keeps_arg0 (by decide) (HF.V_main_arg0 m c)),
    ((h c).2 main_arg1 (HF.arg_mem_rest main_arg1 rfl (by decide))).trans (HF.tail_keeps_arg m (HF.dats m) c main_arg1 HF.hostOps1_keeps_arg1 (by decide) (HF.V_main_arg1 m c)),
    ((h c).2 main_arg2 (HF.arg_mem_rest main_arg2 rfl (by decide))).trans (HF.tail_keeps_arg m (HF.dats m) c main_arg2 HF.hostOps1_keeps_arg2 (by decide) (HF.V_main_arg2 m c)),
    ((h c).1 1).trans (((HF.dats m 0 c).arrAt_in 1 rfl _).trans ((HF.A_eq m c 1).trans (HF.V_main_arg3 m c))),
    ((h c).2 main_arg4 (HF.arg_mem_rest main_arg4 rfl (by decide))).trans (HF.tail_keeps_arg m (HF.dats m) c main_arg4 HF.hostOps1_keeps_arg4 (by decide) (HF.V_main_arg4 m c)),
    ((h c).2 main_arg5 (HF.arg_mem_rest main_arg5 rfl (by decide))).trans (HF.tail_keeps_arg m (HF.dats m) c main_arg5 HF.hostOps1_keeps_arg5 (by decide) (HF.V_main_arg5 m c)),
    ((h c).2 main_arg6 (HF.arg_mem_rest main_arg6 rfl (by decide))).trans (HF.tail_keeps_arg m (HF.dats m) c main_arg6 HF.hostOps1_keeps_arg6 (by decide) (HF.V_main_arg6 m c)),
    ((h c).2 main_arg7 (HF.arg_mem_rest main_arg7 rfl (by decide))).trans (HF.tail_keeps_arg m (HF.dats m) c main_arg7 HF.hostOps1_keeps_arg7 (by decide) (HF.V_main_arg7 m c)),
    ((h c).2 main_arg8 (HF.arg_mem_rest main_arg8 rfl (by decide))).trans (HF.tail_keeps_arg m (HF.dats m) c main_arg8 HF.hostOps1_keeps_arg8 (by decide) (HF.V_main_arg8 m c)),
    ((h c).2 main_arg9 (HF.arg_mem_rest main_arg9 rfl (by decide))).trans (HF.tail_keeps_arg m (HF.dats m) c main_arg9 HF.hostOps1_keeps_arg9 (by decide) (HF.V_main_arg9 m c))⟩) (HF.run_main m ρ)

end Cert.KernelIdeal.KV

end
-- ==== Proof.KV.Prefix.lean ====
/-
  The kernel program's host lines before its region, read at the rounded features: the lines are cut into stretches,
  one before every join of columns; each stretch's results are the composed functions of what it starts from, and the
  buffer of the rounded features ends at the first stage's value rounded to bf16.
-/
import proofs.«430166_j43576738185611_3_alg».proof.Proof.KI.Runs
import proofs.«430166_j43576738185611_3_alg».proof.Proof.KV.Stages
import proofs.«430166_j43576738185611_3_alg».proof.Proof.LibNary3
import proofs.«430166_j43576738185611_3_alg».proof.Proof.LibTypedRef
import proofs.«430166_j43576738185611_3_alg».proof.Proof.LibKeepAll
import Idealize.ShloMosaic.Lib.Pipeline.Frame

noncomputable section

namespace Cert.KernelIdeal.KV

open Cert.KernelIdeal Cert.KernelIdeal.Gen Idealize.ShloMosaic Idealize.ShloMosaic.TcCoe Idealize.SL.Sem Idealize.ShloMosaic.StableHlo
open Cert.LibKeepAll

variable {F : FTy → Type} [FloatOps F]

set_option maxHeartbeats 4000000 in
/-- Lines 1 … 18 of the third list: the forward row wrapped, the batch entry wrapped, the column 0: the three index columns. -/
abbrev preFwdIdx : List (HloOp τ sig (Elt F)) :=
  [ StableHlo.nullary main_c_1 (constantI S_ 32 0#32),
    StableHlo.unary main_c_1 main_v3 (broadcastInDim S4096 ![] bcast_S_S4096 : (⟨S_, .i32⟩ : BufTy).Contents (Elt F) → (⟨S4096, .i32⟩ : BufTy).Contents (Elt F)),
    StableHlo.binary main_v2 main_v3 main_v4 (cmpi .slt : (⟨S4096, .i32⟩ : BufTy).Contents (Elt F) → (⟨S4096, .i32⟩ : BufTy).Contents (Elt F) → (⟨S4096, .i1⟩ : BufTy).Contents (Elt F)),
    StableHlo.nullary main_c_2 (constantI S_ 32 2048#32),
    StableHlo.unary main_c_2 main_v5 (broadcastInDim S4096 ![] bcast_S_S4096 : (⟨S_, .i32⟩ : BufTy).Contents (Elt F) → (⟨S4096, .i32⟩ : BufTy).Contents (Elt F)),
    StableHlo.binary main_v2 main_v5 main_v6 (addi : (⟨S4096, .i32⟩ : BufTy).Contents (Elt F) → (⟨S4096, .i32⟩ : BufTy).Contents (Elt F) → (⟨S4096, .i32⟩ : BufTy).Contents (Elt F)),
    StableHlo.ternary main_v4 main_v6 main_v2 main_v7 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_3 (constantI S_ 32 0#32),
    StableHlo.unary main_c_3 main_v8 (broadcastInDim S4096 ![] bcast_S_S4096 : (⟨S_, .i32⟩ : BufTy).Contents (Elt F) → (⟨S4096, .i32⟩ : BufTy).Contents (Elt F)),
    StableHlo.binary main_arg5 main_v8 main_v9 (cmpi .slt : (⟨S4096, .i32⟩ : BufTy).Contents (Elt F) → (⟨S4096, .i32⟩ : BufTy).Contents (Elt F) → (⟨S4096, .i1⟩ : BufTy).Contents (Elt F)),
    StableHlo.nullary main_c_4 (constantI S_ 32 16#32),
    StableHlo.unary main_c_4 main_v10 (broadcastInDim S4096 ![] bcast_S_S4096 : (⟨S_, .i32⟩ : BufTy).Contents (Elt F) → (⟨S4096, .i32⟩ : BufTy).Contents (Elt F)),
    StableHlo.binary main_arg5 main_v10 main_v11 (addi : (⟨S4096, .i32⟩ : BufTy).Contents (Elt F) → (⟨S4096, .i32⟩ : BufTy).Contents (Elt F) → (⟨S4096, .i32⟩ : BufTy).Contents (Elt F)),
    StableHlo.ternary main_v9 main_v11 main_arg5 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v7 main_v13 (broadcastInDim S4096x1 ![0] bcast_S4096_S4096x1_0 : (⟨S4096, .i32⟩ : BufTy).Contents (Elt F) → (⟨S4096x1, .i32⟩ : BufTy).Contents (Elt F)),
    StableHlo.unary main_v12 main_v14 (broadcastInDim S4096x1 ![0] bcast_S4096_S4096x1_0 : (⟨S4096, .i32⟩ : BufTy).Contents (Elt F) → (⟨S4096x1, .i32⟩ : BufTy).Contents (Elt F)),
    StableHlo.nullary main_c_5 (constantI S_ 32 0#32),
    StableHlo.unary main_c_5 main_v15 (broadcastInDim S4096x1 ![] bcast_S_S4096x1 : (⟨S_, .i32⟩ : BufTy).Contents (Elt F) → (⟨S4096x1, .i32⟩ : BufTy).Contents (Elt F)) ]

set_option maxHeartbeats 4000000 in
/-- Lines 19 … 38 of the third list: the forward start indices joined and the forward half gathered; then the backward row and batch entry wrapped, the column 512. -/
abbrev preFwdGather : List (HloOp τ sig (Elt F)) :=
  [ StableHlo.nary ![main_v13, main_v14, main_v15] main_v16 (fun u => concatenate S4096x3 1 [⟨S4096x1, u 0⟩, ⟨S4096x1, u 1⟩, ⟨S4096x1, u 2⟩] concatenates_S4096x1_S4096x1_S4096x1_S4096x3_d1),
    StableHlo.binary main_arg0 main_v16 main_v17 ((fun x i => Host.gather gather_S2048x16x1024_S4096x3_S4096x512_1_01_n_n_012_1_11512 x i) : (⟨S2048x16x1024, .f32⟩ : BufTy).Contents (Elt F) → (⟨S4096x3, .i32⟩ : BufTy).Contents (Elt F) → (⟨S4096x512, .f32⟩ : BufTy).Contents (Elt F)),
    StableHlo.nullary main_c_6 (constantI S_ 32 0#32),
    StableHlo.unary main_c_6 main_v18 (broadcastInDim S4096 ![] bcast_S_S4096 : (⟨S_, .i32⟩ : BufTy).Contents (Elt F) → (⟨S4096, .i32⟩ : BufTy).Contents (Elt F)),
    StableHlo.binary main_arg7 main_v18 main_v19 (cmpi .slt : (⟨S4096, .i32⟩ : BufTy).Contents (Elt F) → (⟨S4096, .i32⟩ : BufTy).Contents (Elt F) → (⟨S4096, .i1⟩ : BufTy).Contents (Elt F)),
    StableHlo.nullary main_c_7 (constantI S_ 32 2048#32),
    StableHlo.unary main_c_7 main_v20 (broadcastInDim S4096 ![] bcast_S_S4096 : (⟨S_, .i32⟩ : BufTy).Contents (Elt F) → (⟨S4096, .i32⟩ : BufTy).Contents (Elt F)),
    StableHlo.binary main_arg7 main_v20 main_v21 (addi : (⟨S4096, .i32⟩ : BufTy).Contents (Elt F) → (⟨S4096, .i32⟩ : BufTy).Contents (Elt F) → (⟨S4096, .i32⟩ : BufTy).Contents (Elt F)),
    StableHlo.ternary main_v19 main_v21 main_arg7 main_v22 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_8 (constantI S_ 32 0#32),
    StableHlo.unary main_c_8 main_v23 (broadcastInDim S4096 ![] bcast_S_S4096 : (⟨S_, .i32⟩ : BufTy).Contents (Elt F) → (⟨S4096, .i32⟩ : BufTy).Contents (Elt F)),
    StableHlo.binary main_arg5 main_v23 main_v24 (cmpi .slt : (⟨S4096, .i32⟩ : BufTy).Contents (Elt F) → (⟨S4096, .i32⟩ : BufTy).Contents (Elt F) → (⟨S4096, .i1⟩ : BufTy).Contents (Elt F)),
    StableHlo.nullary main_c_9 (constantI S_ 32 16#32),
    StableHlo.unary main_c_9 main_v25 (broadcastInDim S4096 ![] bcast_S_S4096 : (⟨S_, .i32⟩ : BufTy).Contents (Elt F) → (⟨S4096, .i32⟩ : BufTy).Contents (Elt F)),
    StableHlo.binary main_arg5 main_v25 main_v26 (addi : (⟨S4096, .i32⟩ : BufTy).Contents (Elt F) → (⟨S4096, .i32⟩ : BufTy).Contents (Elt F) → (⟨S4096, .i32⟩ : BufTy).Contents (Elt F)),
    StableHlo.ternary main_v24 main_v26 main_arg5 main_v27 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v22 main_v28 (broadcastInDim S4096x1 ![0] bcast_S4096_S4096x1_0 : (⟨S4096, .i32⟩ : BufTy).Contents (Elt F) → (⟨S4096x1, .i32⟩ : BufTy).Contents (Elt F)),
    StableHlo.unary main_v27 main_v29 (broadcastInDim S4096x1 ![0] bcast_S4096_S4096x1_0 : (⟨S4096, .i32⟩ : BufTy).Contents (Elt F) → (⟨S4096x1, .i32⟩ : BufTy).Contents (Elt F)),
    StableHlo.nullary main_c_10 (constantI S_ 32 512#32),
    StableHlo.unary main_c_10 main_v30 (broadcastInDim S4096x1 ![] bcast_S_S4096x1 : (⟨S_, .i32⟩ : BufTy).Contents (Elt F) → (⟨S4096x1, .i32⟩ : BufTy).Contents (Elt F)) ]

set_option maxHeartbeats 4000000 in
/-- Lines 39 … 40 of the third list: the backward start indices joined and the backward half gathered. -/
abbrev preBwdGather : List (HloOp τ sig (Elt F)) :=
  [ StableHlo.nary ![main_v28, main_v29, main_v30] main_v31 (fun u => concatenate S4096x3 1 [⟨S4096x1, u 0⟩, ⟨S4096x1, u 1⟩, ⟨S4096x1, u 2⟩] concatenates_S4096x1_S4096x1_S4096x1_S4096x3_d1),
    StableHlo.binary main_arg0 main_v31 main_v32 ((fun x i => Host.gather gather_S2048x16x1024_S4096x3_S4096x512_1_01_n_n_012_1_11512 x i) : (⟨S2048x16x1024, .f32⟩ : BufTy).Contents (Elt F) → (⟨S4096x3, .i32⟩ : BufTy).Contents (Elt F) → (⟨S4096x512, .f32⟩ : BufTy).Contents (Elt F)) ]

set_option maxHeartbeats 4000000 in
/-- Lines 41 … 49 of the third list: the halves joined, times `W1ᵀ`, plus `b1`, through tanh, rounded to bf16; the bias as a row. -/
abbrev preHidden : List (HloOp τ sig (Elt F)) :=
  [ StableHlo.binary main_v17 main_v32 main_v33 ((fun a b => concatenate S4096x1024 1 [⟨S4096x512, a⟩, ⟨S4096x512, b⟩] concatenates_S4096x512_S4096x512_S4096x1024_d1) : (⟨S4096x512, .f32⟩ : BufTy).Contents (Elt F) → (⟨S4096x512, .f32⟩ : BufTy).Contents (Elt F) → (⟨S4096x1024, .f32⟩ : BufTy).Contents (Elt F)),
    StableHlo.unary main_arg1 main_v34 ((transpose S1024x256 [1, 0] · transposes_S256x1024_S1024x256_1_0) : (⟨S256x1024, .f32⟩ : BufTy).Contents (Elt F) → (⟨S1024x256, .f32⟩ : BufTy).Contents (Elt F)),
    StableHlo.binary main_v33 main_v34 main_v35 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    StableHlo.unary main_arg2 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S4096x256 ![0, 1] bcast_S1x256_S4096x256_0_1 : (⟨S1x256, .f32⟩ : BufTy).Contents (Elt F) → (⟨S4096x256, .f32⟩ : BufTy).Contents (Elt F)),
    StableHlo.binary main_v35 main_v37 main_v38 (addf : (⟨S4096x256, .f32⟩ : BufTy).Contents (Elt F) → (⟨S4096x256, .f32⟩ : BufTy).Contents (Elt F) → (⟨S4096x256, .f32⟩ : BufTy).Contents (Elt F)),
    StableHlo.unary main_v38 main_v39 (Host.tanh : (⟨S4096x256, .f32⟩ : BufTy).Contents (Elt F) → (⟨S4096x256, .f32⟩ : BufTy).Contents (Elt F)),
    StableHlo.unary main_v39 main_v40 ((truncf .bf16 · bitsLt_bf16_f32) : (⟨S4096x256, .f32⟩ : BufTy).Contents (Elt F) → (⟨S4096x256, .bf16⟩ : BufTy).Contents (Elt F)),
    StableHlo.reshape main_arg4 main_v41 rfl shapeCasts_S50000_S1x50000 ]

/-- The third list is the four stretches in order. -/
theorem hostOps0_2_cut : (hostOps0_2 : List (HloOp τ sig (Elt F))) = preFwdIdx ++ (preFwdGather ++ (preBwdGather ++ preHidden)) := rfl

/-- The contents of one buffer after a literal stretch of operations, in one simplification pass: each operation's
    result at its own buffer is its function's value, at any other buffer what was there. -/
macro "stretch_results" : tactic =>
  `(tactic| (simp (disch := decide) only [after_cons, after_nil,
      nullary_result', unary_result', binary_result', ternary_result', reshape_result', Cert.LibNary3.nary3_result',
      nullary_result_ne', unary_result_ne', binary_result_ne', ternary_result_ne', reshape_result_ne', nary_result_ne']))

/-- The floor-modulo's result after the first two lists: `(span_begin - 1) mod 2048`. -/
theorem pre_rem_eq (V : Valuation τ sig (Elt F)) :
    after hostOps0_1 (after hostOps0 V) (main_v2 : DevRef τ sig) = remFloor (V (main_arg6 : DevRef τ sig)) := by
  stretch_results
  simp only [Cert.LibTypedRef.ofBuf_toBuf]
  simp only [TRef.toBuf, TRef.ofBuf, cast_eq]
  unfold remFloor remTrunc remDivisor splat4096
  rfl

/-- The forward row index as a column. -/
theorem pre_v13 (W : Valuation τ sig (Elt F)) :
    after preFwdIdx W (main_v13 : DevRef τ sig)
      = broadcastInDim S4096x1 ![0] bcast_S4096_S4096x1_0 (wrap4096 (F := F) 2048#32 (W (main_v2 : DevRef τ sig))) := by
  stretch_results
  unfold wrap4096 splat4096
  rfl

/-- The batch entry as a column. -/
theorem pre_v14 (W : Valuation τ sig (Elt F)) :
    after preFwdIdx W (main_v14 : DevRef τ sig)
      = broadcastInDim S4096x1 ![0] bcast_S4096_S4096x1_0 (wrap4096 (F := F) 16#32 (W (main_arg5 : DevRef τ sig))) := by
  stretch_results
  unfold wrap4096 splat4096
  rfl

/-- The column 0 as a column. -/
theorem pre_v15 (W : Valuation τ sig (Elt F)) :
    after preFwdIdx W (main_v15 : DevRef τ sig)
      = (broadcastInDim S4096x1 ![] bcast_S_S4096x1 (constantI S_ 32 0#32) : Ten F S4096x1 .i32) := by
  stretch_results

/-- The forward half gathered at the three joined columns. -/
theorem pre_v17 (W : Valuation τ sig (Elt F)) :
    after preFwdGather W (main_v17 : DevRef τ sig)
      = Host.gather gather_S2048x16x1024_S4096x3_S4096x512_1_01_n_n_012_1_11512 (W (main_arg0 : DevRef τ sig))
          (concatenate S4096x3 1
            [⟨S4096x1, W (main_v13 : DevRef τ sig)⟩, ⟨S4096x1, W (main_v14 : DevRef τ sig)⟩, ⟨S4096x1, W (main_v15 : DevRef τ sig)⟩]
            concatenates_S4096x1_S4096x1_S4096x1_S4096x3_d1) := by
  stretch_results
  rfl

/-- The backward row index as a column. -/
theorem pre_v28 (W : Valuation τ sig (Elt F)) :
    after preFwdGather W (main_v28 : DevRef τ sig)
      = broadcastInDim S4096x1 ![0] bcast_S4096_S4096x1_0 (wrap4096 (F := F) 2048#32 (W (main_arg7 : DevRef τ sig))) := by
  stretch_results
  unfold wrap4096 splat4096
  rfl

/-- The batch entry as a column, again. -/
theorem pre_v29 (W : Valuation τ sig (Elt F)) :
    after preFwdGather W (main_v29 : DevRef τ sig)
      = broadcastInDim S4096x1 ![0] bcast_S4096_S4096x1_0 (wrap4096 (F := F) 16#32 (W (main_arg5 : DevRef τ sig))) := by
  stretch_results
  unfold wrap4096 splat4096
  rfl

/-- The column 512 as a column. -/
theorem pre_v30 (W : Valuation τ sig (Elt F)) :
    after preFwdGather W (main_v30 : DevRef τ sig)
      = (broadcastInDim S4096x1 ![] bcast_S_S4096x1 (constantI S_ 32 512#32) : Ten F S4096x1 .i32) := by
  stretch_results

/-- The backward half gathered at the three joined columns. -/
theorem pre_v32 (W : Valuation τ sig (Elt F)) :
    after preBwdGather W (main_v32 : DevRef τ sig)
      = Host.gather gather_S2048x16x1024_S4096x3_S4096x512_1_01_n_n_012_1_11512 (W (main_arg0 : DevRef τ sig))
          (concatenate S4096x3 1
            [⟨S4096x1, W (main_v28 : DevRef τ sig)⟩, ⟨S4096x1, W (main_v29 : DevRef τ sig)⟩, ⟨S4096x1, W (main_v30 : DevRef τ sig)⟩]
            concatenates_S4096x1_S4096x1_S4096x1_S4096x3_d1) := by
  stretch_results
  rfl

/-- The rounded features: the joined halves times `W1ᵀ`, plus `b1`, through tanh, rounded to bf16. -/
theorem pre_v40 (W : Valuation τ sig (Elt F)) :
    after preHidden W (main_v40 : DevRef τ sig)
      = xbf (Host.tanh
          (addf
            (Host.dotGeneral dot_S4096x1024_S1024x256_S4096x256_1_0_0_1_n_n none
              (concatenate S4096x1024 1 [⟨S4096x512, W (main_v17 : DevRef τ sig)⟩, ⟨S4096x512, W (main_v32 : DevRef τ sig)⟩]
                concatenates_S4096x512_S4096x512_S4096x1024_d1)
              (transpose S1024x256 [1, 0] (W (main_arg1 : DevRef τ sig)) transposes_S256x1024_S1024x256_1_0))
            (broadcastInDim S4096x256 ![0, 1] bcast_S1x256_S4096x256_0_1
              (broadcastInDim S1x256 ![1] bcast_S256_S1x256_1 (W (main_arg2 : DevRef τ sig)))))) := by
  stretch_results
  rfl

theorem keep_hostOps0_arg0 (W : Valuation τ sig (Elt F)) : after hostOps0 W (main_arg0 : DevRef τ sig) = W (main_arg0 : DevRef τ sig) := by kept_all hostOps0
theorem keep_hostOps0_arg1 (W : Valuation τ sig (Elt F)) : after hostOps0 W (main_arg1 : DevRef τ sig) = W (main_arg1 : DevRef τ sig) := by kept_all hostOps0
theorem keep_hostOps0_arg2 (W : Valuation τ sig (Elt F)) : after hostOps0 W (main_arg2 : DevRef τ sig) = W (main_arg2 : DevRef τ sig) := by kept_all hostOps0
theorem keep_hostOps0_arg5 (W : Valuation τ sig (Elt F)) : after hostOps0 W (main_arg5 : DevRef τ sig) = W (main_arg5 : DevRef τ sig) := by kept_all hostOps0
theorem keep_hostOps0_arg7 (W : Valuation τ sig (Elt F)) : after hostOps0 W (main_arg7 : DevRef τ sig) = W (main_arg7 : DevRef τ sig) := by kept_all hostOps0
theorem keep_hostOps0_1_arg0 (W : Valuation τ sig (Elt F)) : after hostOps0_1 W (main_arg0 : DevRef τ sig) = W (main_arg0 : DevRef τ sig) := by kept_all hostOps0_1
theorem keep_hostOps0_1_arg1 (W : Valuation τ sig (Elt F)) : after hostOps0_1 W (main_arg1 : DevRef τ sig) = W (main_arg1 : DevRef τ sig) := by kept_all hostOps0_1
theorem keep_hostOps0_1_arg2 (W : Valuation τ sig (Elt F)) : after hostOps0_1 W (main_arg2 : DevRef τ sig) = W (main_arg2 : DevRef τ sig) := by kept_all hostOps0_1
theorem keep_hostOps0_1_arg5 (W : Valuation τ sig (Elt F)) : after hostOps0_1 W (main_arg5 : DevRef τ sig) = W (main_arg5 : DevRef τ sig) := by kept_all hostOps0_1
theorem keep_hostOps0_1_arg7 (W : Valuation τ sig (Elt F)) : after hostOps0_1 W (main_arg7 : DevRef τ sig) = W (main_arg7 : DevRef τ sig) := by kept_all hostOps0_1
theorem keep_preFwdIdx_arg0 (W : Valuation τ sig (Elt F)) : after preFwdIdx W (main_arg0 : DevRef τ sig) = W (main_arg0 : DevRef τ sig) := by kept_all preFwdIdx
theorem keep_preFwdIdx_arg1 (W : Valuation τ sig (Elt F)) : after preFwdIdx W (main_arg1 : DevRef τ sig) = W (main_arg1 : DevRef τ sig) := by kept_all preFwdIdx
theorem keep_preFwdIdx_arg2 (W : Valuation τ sig (Elt F)) : after preFwdIdx W (main_arg2 : DevRef τ sig) = W (main_arg2 : DevRef τ sig) := by kept_all preFwdIdx
theorem keep_preFwdIdx_arg5 (W : Valuation τ sig (Elt F)) : after preFwdIdx W (main_arg5 : DevRef τ sig) = W (main_arg5 : DevRef τ sig) := by kept_all preFwdIdx
theorem keep_preFwdIdx_arg7 (W : Valuation τ sig (Elt F)) : after preFwdIdx W (main_arg7 : DevRef τ sig) = W (main_arg7 : DevRef τ sig) := by kept_all preFwdIdx
theorem keep_preFwdGather_arg0 (W : Valuation τ sig (Elt F)) : after preFwdGather W (main_arg0 : DevRef τ sig) = W (main_arg0 : DevRef τ sig) := by kept_all preFwdGather
theorem keep_preFwdGather_arg1 (W : Valuation τ sig (Elt F)) : after preFwdGather W (main_arg1 : DevRef τ sig) = W (main_arg1 : DevRef τ sig) := by kept_all preFwdGather
theorem keep_preFwdGather_arg2 (W : Valuation τ sig (Elt F)) : after preFwdGather W (main_arg2 : DevRef τ sig) = W (main_arg2 : DevRef τ sig) := by kept_all preFwdGather
theorem keep_preBwdGather_arg1 (W : Valuation τ sig (Elt F)) : after preBwdGather W (main_arg1 : DevRef τ sig) = W (main_arg1 : DevRef τ sig) := by kept_all preBwdGather
theorem keep_preBwdGather_arg2 (W : Valuation τ sig (Elt F)) : after preBwdGather W (main_arg2 : DevRef τ sig) = W (main_arg2 : DevRef τ sig) := by kept_all preBwdGather
theorem keep_preBwdGather_v17 (W : Valuation τ sig (Elt F)) : after preBwdGather W (main_v17 : DevRef τ sig) = W (main_v17 : DevRef τ sig) := by kept_all preBwdGather

/-- The rounded features' buffer after all the lines before the region, from any contents. -/
theorem pre_value (V : Valuation τ sig (Elt F)) :
    after (List.flatten [hostOps0, hostOps0_1, hostOps0_2]) V (main_v40 : DevRef τ sig)
      = xbf (xval (V (main_arg0 : DevRef τ sig)) (V (main_arg1 : DevRef τ sig)) (V (main_arg2 : DevRef τ sig)) (V (main_arg5 : DevRef τ sig))
          (V (main_arg6 : DevRef τ sig)) (V (main_arg7 : DevRef τ sig))) := by
  simp only [List.flatten_cons, List.flatten_nil, List.append_nil, hostOps0_2_cut, StableHlo.after_append]
  rw [pre_v40, pre_v32, keep_preBwdGather_v17, pre_v17, pre_v28, pre_v29, pre_v30, pre_v13, pre_v14, pre_v15, pre_rem_eq]
  simp only [keep_hostOps0_arg0, keep_hostOps0_arg1, keep_hostOps0_arg2, keep_hostOps0_arg5, keep_hostOps0_arg7, keep_hostOps0_1_arg0, keep_hostOps0_1_arg1, keep_hostOps0_1_arg2, keep_hostOps0_1_arg5, keep_hostOps0_1_arg7, keep_preFwdIdx_arg0, keep_preFwdIdx_arg1, keep_preFwdIdx_arg2, keep_preFwdIdx_arg5, keep_preFwdIdx_arg7, keep_preFwdGather_arg0, keep_preFwdGather_arg1, keep_preFwdGather_arg2, keep_preBwdGather_arg1, keep_preBwdGather_arg2]
  rfl

variable (m : (ℓ : Loc nD τ sig) → Buf (Elt F) ℓ)

/-- When the region is entered the buffer the kernel reads its features from holds the first stage's value, rounded
    to bf16, of the arguments' launch contents. -/
theorem V_v40 (c : Dev nD) :
    HF.V m c main_v40 = xbf (xval (m ((c : Thread nD τ).loc main_arg0)) (m ((c : Thread nD τ).loc main_arg1)) (m ((c : Thread nD τ).loc main_arg2))
      (m ((c : Thread nD τ).loc main_arg5)) (m ((c : Thread nD τ).loc main_arg6)) (m ((c : Thread nD τ).loc main_arg7))) :=
  pre_value _

end Cert.KernelIdeal.KV

end
-- ==== Proof.KV.Pieces.lean ====
/-
  What each control case of the log-sum-exp kernel's body leaves in the two carried scratch operands (the running
  maximum and the running sum of a row block) and, at the last vocabulary tile, in the output block, as values of the
  body's loads: the first tile leaves the update of the reset pair, a later tile the update of the pair found, and
  the last tile writes back the updated maximum plus the logarithm of the updated sum.
-/
import proofs.«430166_j43576738185611_3_alg».proof.Proof.KI.Frame
import Idealize.ShloMosaic.Lib.Pipeline.Value
import Idealize.ShloMosaic.Lib.Tactic

set_option maxRecDepth 16384

noncomputable section

namespace Cert.KernelIdeal.KV

open Idealize.ShloMosaic Idealize.ShloMosaic.TcCoe Idealize.ShloMosaic.Tactic
open Idealize.SL.Sem
open Cert.KernelIdeal Cert.KernelIdeal.Gen Cert.KernelIdeal.HF

variable {F : FTy → Type} [FloatOps F]

/-- The zero offsets of a whole-buffer access, as a function. -/
theorem hz00 : (![0, 0] : Fin 2 → Nat) = fun _ => 0 := funext fun a => by fin_cases a <;> rfl

/-- The ten thousand bias entries the body loads at grid coordinates `i` from the bias row `x2`. -/
abbrev biasTile (i : grid0.Coords) (x2 : Vec F S1x50000 .f32) : Vec F S1x10000 .f32 :=
  View.ld (Val := Elt F) x2 (Rect.unit (s := S1x50000) (k0_off1 i) S1x10000.size (k0_off1_inb i))

/-! ## The first vocabulary tile of a row block: the reset pair, updated -/

theorem sA0 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x256 .bf16) (x1 : Vec F S10000x256 .f32) (x2 : Vec F S1x50000 .f32) :
    sout0_A_0 c i arg2 harg2 arg3 harg3 arg4 harg4 arg5 harg5 arg6 harg6 arg7 harg7 hc0 hc1 x0 x1 x2 = k0_pay7 x0 x1 (biasTile i x2) (k0_pay2 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S2048x1) hz00]
  simp only [View.readAt_eq_ld, harg2.read_unread, harg3.read_unread, harg4.read_unread, harg6.read_unread, harg7.read_unread,
    View.ld_unit_zero (S := S2048x256) hz00, View.ld_unit_zero (S := S10000x256) hz00, View.ld_unit_zero (S := S2048x1) hz00,
    View.readCov_unit_zero (S := S2048x1) _ hz00]
  rfl

theorem sA1 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x256 .bf16) (x1 : Vec F S10000x256 .f32) (x2 : Vec F S1x50000 .f32) :
    sout0_A_1 c i arg2 harg2 arg3 harg3 arg4 harg4 arg5 harg5 arg6 harg6 arg7 harg7 hc0 hc1 x0 x1 x2 = k0_pay6 x0 x1 (biasTile i x2) (k0_pay2 (F := F)) (k0_pay3 (F := F)) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S2048x1) hz00]
  simp only [View.readAt_eq_ld, harg2.read_unread, harg3.read_unread, harg4.read_unread, harg6.read_unread, harg7.read_unread,
    View.ld_unit_zero (S := S2048x256) hz00, View.ld_unit_zero (S := S10000x256) hz00, View.ld_unit_zero (S := S2048x1) hz00,
    View.readCov_unit_zero (S := S2048x1) _ hz00]
  rfl

/-! ## A middle vocabulary tile: the pair found, updated -/

theorem sB0 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x256 .bf16) (x1 : Vec F S10000x256 .f32) (x2 : Vec F S1x50000 .f32) (xs0 : Vec F S2048x1 .f32) (xs1 : Vec F S2048x1 .f32) :
    sout0_B_0 c i arg2 harg2 arg3 harg3 arg4 harg4 arg5 harg5 arg6 harg6 arg7 harg7 hc0 hc1 x0 x1 x2 xs0 xs1 = k0_pay7 x0 x1 (biasTile i x2) xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S2048x1) hz00]
  simp only [View.readAt_eq_ld, harg2.read_unread, harg3.read_unread, harg4.read_unread, harg6.read_unread, harg7.read_unread,
    View.ld_unit_zero (S := S2048x256) hz00, View.ld_unit_zero (S := S10000x256) hz00, View.ld_unit_zero (S := S2048x1) hz00,
    View.readCov_unit_zero (S := S2048x1) _ hz00]
  rfl

theorem sB1 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x256 .bf16) (x1 : Vec F S10000x256 .f32) (x2 : Vec F S1x50000 .f32) (xs0 : Vec F S2048x1 .f32) (xs1 : Vec F S2048x1 .f32) :
    sout0_B_1 c i arg2 harg2 arg3 harg3 arg4 harg4 arg5 harg5 arg6 harg6 arg7 harg7 hc0 hc1 x0 x1 x2 xs0 xs1 = k0_pay6 x0 x1 (biasTile i x2) xs0 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S2048x1) hz00]
  simp only [View.readAt_eq_ld, harg2.read_unread, harg3.read_unread, harg4.read_unread, harg6.read_unread, harg7.read_unread,
    View.ld_unit_zero (S := S2048x256) hz00, View.ld_unit_zero (S := S10000x256) hz00, View.ld_unit_zero (S := S2048x1) hz00,
    View.readCov_unit_zero (S := S2048x1) _ hz00]
  rfl

/-! ## The last vocabulary tile: the pair found, updated, and the value written back -/

theorem sC0 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .bf16) (x1 : Vec F S10000x256 .f32) (x2 : Vec F S1x50000 .f32) (xs0 : Vec F S2048x1 .f32) (xs1 : Vec F S2048x1 .f32) :
    sout0_C_0 c i arg2 harg2 arg3 harg3 arg4 harg4 arg5 harg5 arg6 harg6 arg7 harg7 hc0 hc1 x0 x1 x2 xs0 xs1 = k0_pay7 x0 x1 (biasTile i x2) xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S2048x1) hz00]
  simp only [View.readAt_eq_ld, harg2.read_unread, harg3.read_unread, harg4.read_unread, harg6.read_unread, harg7.read_unread,
    View.ld_unit_zero (S := S2048x256) hz00, View.ld_unit_zero (S := S10000x256) hz00, View.ld_unit_zero (S := S2048x1) hz00,
    View.readCov_unit_zero (S := S2048x1) _ hz00]
  rfl

theorem sC1 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .bf16) (x1 : Vec F S10000x256 .f32) (x2 : Vec F S1x50000 .f32) (xs0 : Vec F S2048x1 .f32) (xs1 : Vec F S2048x1 .f32) :
    sout0_C_1 c i arg2 harg2 arg3 harg3 arg4 harg4 arg5 harg5 arg6 harg6 arg7 harg7 hc0 hc1 x0 x1 x2 xs0 xs1 = k0_pay6 x0 x1 (biasTile i x2) xs0 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S2048x1) hz00]
  simp only [View.readAt_eq_ld, harg2.read_unread, harg3.read_unread, harg4.read_unread, harg6.read_unread, harg7.read_unread,
    View.ld_unit_zero (S := S2048x256) hz00, View.ld_unit_zero (S := S10000x256) hz00, View.ld_unit_zero (S := S2048x1) hz00,
    View.readCov_unit_zero (S := S2048x1) _ hz00]
  rfl

theorem oC3 (c : Dev nD) (i : grid0.Coords) (arg2 : Memref sig .tc .vmem S2048x256 .bf16) (harg2 : arg2.IsWhole) (arg3 : Memref sig .tc .vmem S10000x256 .f32) (harg3 : arg3.IsWhole) (arg4 : Memref sig .tc .vmem S1x50000 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x256 .bf16) (x1 : Vec F S10000x256 .f32) (x2 : Vec F S1x50000 .f32) (xs0 : Vec F S2048x1 .f32) (xs1 : Vec F S2048x1 .f32) :
    out0_C_3 c i arg2 harg2 arg3 harg3 arg4 harg4 arg5 harg5 arg6 harg6 arg7 harg7 hc0 hc1 x0 x1 x2 xs0 xs1
      = k0_pay1 (k0_pay7 x0 x1 (biasTile i x2) xs0) (k0_pay6 x0 x1 (biasTile i x2) xs0 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S2048x1) hz00]
  simp only [View.readAt_eq_ld, harg2.read_unread, harg3.read_unread, harg4.read_unread, harg6.read_unread, harg7.read_unread,
    View.ld_unit_zero (S := S2048x256) hz00, View.ld_unit_zero (S := S10000x256) hz00, View.ld_unit_zero (S := S2048x1) hz00,
    View.readCov_unit_zero (S := S2048x1) _ hz00]
  rfl

end Cert.KernelIdeal.KV

end
-- ==== Proof.KV.Blocks.lean ====
/-
  The three input windows' blocks of the log-sum-exp kernel, entry by entry: at grid point t = 5 i + v the activations'
  block is rows 2048 i … 2048 i + 2047 of the rounded features, the weights' block is rows 10000 v … 10000 v + 9999 of
  the second layer's matrix, and the bias block is the whole bias row, of which the body loads the 10000 entries from
  column 10000 v on.
-/
import proofs.«430166_j43576738185611_3_alg».proof.Proof.KI.Runs
import Idealize.ShloMosaic.Lib.Pipeline.Value
import Idealize.ShloMosaic.Lib.ValueIdx

set_option maxRecDepth 16384

noncomputable section

namespace Cert.KernelIdeal.KV

open Idealize.ShloMosaic Idealize.ShloMosaic.TcCoe Idealize.ShloMosaic.ValueIdx
open Idealize.SL.Sem
open Cert.KernelIdeal Cert.KernelIdeal.Gen

variable {F : FTy → Type} [FloatOps F]
variable (m : (ℓ : Loc nD τ sig) → Buf (Elt F) ℓ)

/-- The activations' block at point t. -/
abbrev xblk (c : Dev nD) (t : Fin cfg0.N) : Vec F S2048x256 .bf16 := HF.iblk m c 0 t
/-- The weights' block at point t. -/
abbrev wblk (c : Dev nD) (t : Fin cfg0.N) : Vec F S10000x256 .f32 := HF.iblk m c 1 t
/-- The bias block at point t. -/
abbrev bblk (c : Dev nD) (t : Fin cfg0.N) : Vec F S1x50000 .f32 := HF.iblk m c 2 t

/-- The grid has ten points. -/
theorem N_eq : cfg0.N = 10 := N_0

/-- The index maps over the grid: the activations' row block is t / 5, the weights' row block is t mod 5, every other
    block index is 0. -/
theorem idx_facts : ∀ t : Fin cfg0.N,
    win0_0.index t (0 : Fin 2) = t.val / 5 ∧ win0_0.index t (1 : Fin 2) = 0
    ∧ win0_1.index t (0 : Fin 2) = t.val % 5 ∧ win0_1.index t (1 : Fin 2) = 0
    ∧ win0_2.index t (0 : Fin 2) = 0 ∧ win0_2.index t (1 : Fin 2) = 0 :=
  (by decide +kernel : ∀ t : Fin grid0.N, _)

/-- The vocabulary tile of point t is t mod 5. -/
theorem coord1 : ∀ t : Fin cfg0.N, ((grid0.coords t) 1).val = t.val % 5 :=
  (by decide +kernel : ∀ t : Fin grid0.N, _)

/-- Entry (r, k) of the activations' block is entry (2048 (t / 5) + r, k) of the rounded features. -/
theorem xblk_at (c : Dev nD) (t : Fin cfg0.N) (r : Fin 2048) (k : Fin 256) :
    xblk m c t (ix2 r k) = HF.V m c main_v40 (ix2 (⟨2048 * (t.val / 5) + r.val, by
      have := t.isLt; have := r.isLt; have := N_eq; omega⟩ : Fin 4096) k) := by
  obtain ⟨e0, e1, -⟩ := idx_facts t
  show HF.V m c main_v40 (((cfg0.win 0).blk t).view.emb (ix2 r k)) = HF.V m c main_v40 _
  refine congrArg _ (funext fun a => Fin.ext ?_)
  match a with
  | ⟨0, _⟩ => show win0_0.index t (0 : Fin 2) * 2048 + 1 * r.val = 2048 * (t.val / 5) + r.val; omega
  | ⟨1, _⟩ => show win0_0.index t (1 : Fin 2) * 256 + 1 * k.val = k.val; omega

/-- Entry (q, k) of the weights' block is entry (10000 (t mod 5) + q, k) of the second layer's matrix. -/
theorem wblk_at (c : Dev nD) (t : Fin cfg0.N) (q : Fin 10000) (k : Fin 256) :
    wblk m c t (ix2 q k) = HF.V m c main_arg3 (ix2 (⟨10000 * (t.val % 5) + q.val, by
      have := q.isLt; omega⟩ : Fin 50000) k) := by
  obtain ⟨-, -, e0, e1, -⟩ := idx_facts t
  show HF.V m c main_arg3 (((cfg0.win 1).blk t).view.emb (ix2 q k)) = HF.V m c main_arg3 _
  refine congrArg _ (funext fun a => Fin.ext ?_)
  match a with
  | ⟨0, _⟩ => show win0_1.index t (0 : Fin 2) * 10000 + 1 * q.val = 10000 * (t.val % 5) + q.val; omega
  | ⟨1, _⟩ => show win0_1.index t (1 : Fin 2) * 256 + 1 * k.val = k.val; omega

/-- The bias block is the bias row. -/
theorem bblk_at (c : Dev nD) (t : Fin cfg0.N) (j : Fin 50000) :
    bblk m c t (ix2 (0 : Fin 1) j) = HF.V m c main_v41 (ix2 (0 : Fin 1) j) := by
  obtain ⟨-, -, -, -, e0, e1⟩ := idx_facts t
  show HF.V m c main_v41 (((cfg0.win 2).blk t).view.emb (ix2 (0 : Fin 1) j)) = HF.V m c main_v41 _
  refine congrArg _ (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 50000 + 1 * j.val = j.val; omega

/-- The body's bias load starts at column 10000 (t mod 5). -/
theorem off1_at (t : Fin cfg0.N) : k0_off1 (grid0.coords t) = ![0, 10000 * (t.val % 5)] := by
  rw [k0_off1_eq, coord1]

/-- Ten thousand columns loaded from the body's offset, of any row X: entry (0, q) is X at column 10000 (t mod 5) + q. -/
theorem ld_off1_at (t : Fin cfg0.N) (X : Vec F S1x50000 .f32) (q : Fin 10000) :
    View.ld (Val := Elt F) X (Rect.unit (s := S1x50000) (k0_off1 (grid0.coords t)) S1x10000.size (k0_off1_inb (grid0.coords t)))
        (ix2 (0 : Fin 1) q)
      = X (ix2 (0 : Fin 1) (⟨10000 * (t.val % 5) + q.val, by have := q.isLt; omega⟩ : Fin 50000)) := by
  show X ((Rect.unit (s := S1x50000) (k0_off1 (grid0.coords t)) S1x10000.size (k0_off1_inb (grid0.coords t))).idx (ix2 (0 : Fin 1) q)) = _
  refine congrArg X (funext fun a => Fin.ext ?_)
  match a with
  | ⟨0, _⟩ =>
    show k0_off1 (grid0.coords t) (0 : Fin 2) + 1 * (0 : Fin 1).val = (0 : Fin 1).val
    rw [off1_at]; rfl
  | ⟨1, _⟩ =>
    show k0_off1 (grid0.coords t) (1 : Fin 2) + 1 * q.val = 10000 * (t.val % 5) + q.val
    rw [off1_at]
    show 10000 * (t.val % 5) + 1 * q.val = 10000 * (t.val % 5) + q.val
    omega

/-- The tile of the bias the body loads at point t: entry (0, q) is the bias row at column 10000 (t mod 5) + q. -/
theorem bias_tile_at (c : Dev nD) (t : Fin cfg0.N) (q : Fin 10000) :
    View.ld (Val := Elt F) (bblk m c t) (Rect.unit (s := S1x50000) (k0_off1 (grid0.coords t)) S1x10000.size (k0_off1_inb (grid0.coords t)))
        (ix2 (0 : Fin 1) q)
      = HF.V m c main_v41 (ix2 (0 : Fin 1) (⟨10000 * (t.val % 5) + q.val, by have := q.isLt; omega⟩ : Fin 50000)) := by
  rw [ld_off1_at, bblk_at]

end Cert.KernelIdeal.KV

end
-- ==== Proof.Spec.lean ====
/-
  The mathematics both programs compute, over plain index types and the extended reals.

  For a span row n and a vocabulary entry v the logit is z(n, v) = ∑ k, x(n, k) · w(v, k) + b(v).  One program takes
  the logarithm of a softmax the textbook way: with M(n) the row's largest logit and s(n) = ∑ v, exp(z(n, v) − M(n)),
  the entry (n, v) is (z(n, v) − M(n)) − log s(n).  The other walks the vocabulary in five tiles of 10000 entries and
  keeps a running pair (m, l): m starts at a large negative finite number and l at 0; a tile with logits ζ replaces
  (m, l) by (m', l · exp(m − m') + ∑ c, exp(ζ(c) − m')) with m' = max m (max ζ); after the last tile the row's value is
  m + log l, and the entry is min(z(n, v) − (m + log l), 0).  Over the reals both are z(n, v) − log ∑ v', exp z(n, v'),
  which is never positive, so the two entries agree wherever x, w and b hold real numbers.
-/
import Idealize.ShloMosaic.PureOps.Ideal
import Idealize.ShloMosaic.PureOps.Ideal.Laws

noncomputable section

open scoped BigOperators

namespace Cert.Spec

open Idealize.ShloMosaic

/-- The running maximum's starting value: the finite number the float pattern denotes (about −10³⁰). -/
def negBig : EReal := Ideal.ofBits .f32 0xF149F2CA#32

/-- The logit of row `n` at vocabulary entry `v`. -/
def logit (x : Fin 4096 → Fin 256 → EReal) (w : Fin 50000 → Fin 256 → EReal) (b : Fin 50000 → EReal)
    (n : Fin 4096) (v : Fin 50000) : EReal :=
  (∑ k : Fin 256, x n k * w v k) + b v

/-- Entry `c` of tile `j` is vocabulary entry `10000 j + c`. -/
def tileIdx (j : Fin 5) (c : Fin 10000) : Fin 50000 := ⟨10000 * j.val + c.val, by have := j.isLt; have := c.isLt; omega⟩

/-- One tile's update of the running maximum: the larger of the old one and the tile's largest logit. -/
def mStep (mo : EReal) (ζ : Fin 10000 → EReal) : EReal :=
  max mo ((Finset.univ : Finset (Fin 10000)).fold max (Ideal.ofBits .f32 0xFF800000#32) ζ)

/-- One tile's update of the running sum, rescaled to the new maximum. -/
def lStep (mo lo : EReal) (ζ : Fin 10000 → EReal) : EReal :=
  lo * Ideal.exp (mo - mStep mo ζ) + ∑ c : Fin 10000, Ideal.exp (ζ c - mStep mo ζ)

/-- The running pair after the first `j` tiles of row `n`. -/
def runPair (z : Fin 50000 → EReal) : (j : Nat) → j ≤ 5 → EReal × EReal
  | 0, _ => (negBig, 0)
  | j + 1, h =>
    let p := runPair z j (Nat.le_of_succ_le h)
    (mStep p.1 (fun c => z (tileIdx ⟨j, h⟩ c)), lStep p.1 p.2 (fun c => z (tileIdx ⟨j, h⟩ c)))

/-- The tiled program's log-sum-exp of a row of logits. -/
def lseTiled (z : Fin 50000 → EReal) : EReal :=
  (runPair z 5 le_rfl).1 + Ideal.log (runPair z 5 le_rfl).2

/-- The tiled program's entry: the logit less the row's log-sum-exp, capped at 0. -/
def posTiled (z : Fin 50000 → EReal) (v : Fin 50000) : EReal := min (z v - lseTiled z) 0

/-- The textbook program's row maximum (the two neutral elements it folds in are −∞). -/
def rowMax (z : Fin 50000 → EReal) : EReal :=
  max (Ideal.ofBits .f32 0xFF800000#32) ((Finset.univ : Finset (Fin 50000)).fold max (Ideal.ofBits .f32 0xFF800000#32) z)

/-- The textbook program's entry: the shifted logit less the logarithm of the shifted exponentials' sum. -/
def posPlain (z : Fin 50000 → EReal) (v : Fin 50000) : EReal :=
  (z v - rowMax z) - Ideal.log (0 + ∑ v' : Fin 50000, Ideal.exp (z v' - rowMax z))

/-- A position word after the wrap of a negative position: a word below zero (read signed) has the extent added. -/
def wrapWord (n a : BitVec 32) : BitVec 32 := if IntOp.cmpi .slt a 0#32 = 1 then a + n else a

/-- A position word read signed and clipped into `[0, N)`. -/
def clipIdx (N : Nat) (hN : 0 < N) (a : BitVec 32) : Fin N := ⟨min a.toInt.toNat (N - 1), by omega⟩

/-- The span row a span-position word selects. -/
def rowOf (a : BitVec 32) : Fin 4096 := clipIdx 4096 (by decide) (wrapWord 4096#32 a)

/-- The vocabulary entry a tag word selects. -/
def vocOf (a : BitVec 32) : Fin 50000 := clipIdx 50000 (by decide) (wrapWord 50000#32 a)

end Cert.Spec

end
-- ==== Proof.LibDotT.lean ====
/-
  A matrix product against a transposed right operand, read at an entry. For the dimension numbers "contract the left
  operand's columns with the right operand's columns, no batch axis", the vector unit's product into a zero
  accumulator is, at entry (r, c) and over the extended reals, the sum over k of x(r, k) · w(c, k).
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-! ## The four coordinates of the operand indices

  With the left operand's rows the only free left axis, the right operand's rows the only free right axis and one
  shared axis (each operand's columns), the left operand is read at (row of the entry, shared coordinate) and the
  right operand at (column of the entry, shared coordinate). Each of the four coordinates is its own statement, at
  the literal axis. -/

section Axes

variable {R K C : Nat} (d : DotDims ⟨2, ![R, K]⟩ ⟨2, ![C, K]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the entry's column. -/
theorem rhs_axis0 (hln : d.lhsNonContracting = [0]) (hrn : d.rhsNonContracting = [0]) (hlb : d.lhsBatch = [])
    (hrb : d.rhsBatch = []) (j : (⟨2, ![R, C]⟩ : Shape).Idx) (k : d.contr.Idx) : (d.rhsIdx j k 0 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column coordinate is the shared coordinate. -/
theorem rhs_axis1 (hl : d.lhsContracting = [1]) (hr : d.rhsContracting = [1]) (j : (⟨2, ![R, C]⟩ : Shape).Idx)
    (k : d.contr.Idx) : (d.rhsIdx j k 1 : ℕ) = (k ⟨0, by rw [rank_contr_one d hl]; exact Nat.one_pos⟩ : ℕ) :=
  d.rhsIdx_val_of_single hr j k

end Axes

/-- The contraction sum of a product against a transposed right operand, re-indexed by the shared axis's
    coordinate: the left operand is read at (r, k), the right one at (c, k). -/
theorem contr_sum_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (x : FVec Ideal ⟨2, ![R, K]⟩ φ₁) (w : FVec Ideal ⟨2, ![C, K]⟩ φ₂) (r : Fin R) (c : Fin C) :
    (∑ k : d.contr.Idx, x (d.lhsIdx (ix2 r c) k) * w (d.rhsIdx (ix2 r c) k)) = ∑ k : Fin K, x (ix2 r k) * w (ix2 c k) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 c k := by
    funext a
    match a with
    | ⟨0, _⟩ => exact Fin.ext (rhs_axis0 d hln hrn hlb hrb _ _)
    | ⟨1, _⟩ => exact Fin.ext ((rhs_axis1 d hl hr _ _).trans hk)
  rw [hx, hw]

/-- The vector unit's product against a transposed right operand into the zero accumulator, at entry (r, c). -/
theorem matmul_zero_at_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (prec : Option ContractPrecision) (x : FVec Ideal ⟨2, ![R, K]⟩ φ₁) (w : FVec Ideal ⟨2, ![C, K]⟩ φ₂) (r : Fin R) (c : Fin C) :
    FloatOps.matmul d prec x w (constant ⟨2, ![R, C]⟩ .f32 0x00000000#32) (ix2 r c) = ∑ k : Fin K, x (ix2 r k) * w (ix2 c k) := by
  rw [Ideal.matmul_constant_zero_apply]
  exact contr_sum_T d hl hr hln hrn hlb hrb x w r c

end Cert.LibDotT

end
-- ==== Proof.KV.Pay.lean ====
/-
  The values one grid point of the tiled log-sum-exp kernel computes, read at an entry over the extended reals.

  With x the block of 2048 rows, w the tile of 10000 vocabulary rows, b the tile's slice of the bias row and (m, l) the
  running pair of a row: the logit at (r, c) is ∑ k, x(r, k) · w(c, k) + b(c); the new running maximum of row r is the
  larger of m(r) and the largest logit of the row; the new running sum is l(r) · exp(m(r) − m'(r)) plus the sum over
  the tile of exp(logit − m'(r)); the value written back is m(r) + log l(r); and the pair starts at (−10³⁰, 0).
-/
import proofs.«430166_j43576738185611_3_alg».proof.Proof.Gen.KernelIdeal.Skeleton
import proofs.«430166_j43576738185611_3_alg».proof.Proof.Spec
import proofs.«430166_j43576738185611_3_alg».proof.Proof.LibDotT
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KV

open Idealize.ShloMosaic Idealize.ShloMosaic.ValueIdx

/-! ## Two layout readings the library states for other shapes -/

section Layout

variable {α : Type}

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction along the columns inserts coordinate `c` into, over row `r`, is `(r, c)`. -/
theorem lift_row (h : S2048x10000.Reduces [1] S2048) (r : Fin 2048) (c : Fin 10000) : h.lift (ix1 r) c = ix2 r c :=
  funext fun a => match a with
    | ⟨0, _⟩ => Fin.ext rfl
    | ⟨1, _⟩ => Fin.ext rfl

end Layout

/-! ## The payloads at an entry -/

variable (x0 : Vec Ideal S2048x256 .bf16) (w0 : Vec Ideal S10000x256 .f32) (b0 : Vec Ideal S1x10000 .f32)
  (mo lo mv lv : Vec Ideal S2048x1 .f32) (r : Fin 2048) (c : Fin 10000)

/-- The logit of the block's row `r` at the tile's entry `c`. -/
theorem pay4_at : Gen.k0_pay4 (F := Ideal) x0 w0 b0 (ix2 r c)
    = (∑ k : Fin 256, x0 (ix2 r k) * w0 (ix2 c k)) + b0 (ix2 (0 : Fin 1) c) := by
  unfold Gen.k0_pay4
  rw [shapeCast_self, shapeCast_self]
  refine (addf_apply _ _ _).trans ?_
  refine congrArg₂ (· + ·) ?_ ?_
  · exact Cert.LibDotT.matmul_zero_at_T dot_S2048x256_S10000x256_S2048x10000_1_1_0_0_n_n rfl rfl rfl rfl rfl rfl none
      x0 (truncf .bf16 w0 Gen.bitsLt_bf16_f32) r c
  · exact broadcastTo_1b_ab_apply b0 _ r c

/-- The new running maximum of row `r`. -/
theorem pay5_at : Gen.k0_pay5 (F := Ideal) x0 w0 b0 mo (ix2 r (0 : Fin 1))
    = Cert.Spec.mStep (mo (ix2 r 0)) (fun c => Gen.k0_pay4 (F := Ideal) x0 w0 b0 (ix2 r c)) := by
  unfold Gen.k0_pay5 Cert.Spec.mStep
  refine (maximumf_apply _ _ _).trans ?_
  refine congrArg (max (mo (ix2 r 0))) ?_
  refine (shapeCast_a_a1_apply _ _ r 0).trans ?_
  refine (Ideal.multiReduction_maximumf_single _ _ _ _ _ (ix1 r)).trans ?_
  refine congrArg (Finset.fold max _ · Finset.univ) ?_
  funext c
  exact congrArg (Gen.k0_pay4 (F := Ideal) x0 w0 b0) (lift_row _ r c)

/-- The value stored back as the running maximum is the same. -/
theorem pay7_at : Gen.k0_pay7 (F := Ideal) x0 w0 b0 mo (ix2 r (0 : Fin 1))
    = Cert.Spec.mStep (mo (ix2 r 0)) (fun c => Gen.k0_pay4 (F := Ideal) x0 w0 b0 (ix2 r c)) := by
  unfold Gen.k0_pay7
  rw [shapeCast_self]
  exact pay5_at x0 w0 b0 mo r

/-- The new running sum of row `r`. -/
theorem pay6_at : Gen.k0_pay6 (F := Ideal) x0 w0 b0 mo lo (ix2 r (0 : Fin 1))
    = Cert.Spec.lStep (mo (ix2 r 0)) (lo (ix2 r 0)) (fun c => Gen.k0_pay4 (F := Ideal) x0 w0 b0 (ix2 r c)) := by
  unfold Gen.k0_pay6 Cert.Spec.lStep
  rw [shapeCast_self]
  refine (addf_apply _ _ _).trans ?_
  refine congrArg₂ (· + ·) ?_ ?_
  · show lo (ix2 r 0) * Ideal.exp (mo (ix2 r 0) - Gen.k0_pay5 (F := Ideal) x0 w0 b0 mo (ix2 r 0)) = _
    rw [pay5_at]
  · refine (shapeCast_a_a1_apply _ _ r 0).trans ?_
    refine (Ideal.multiReduction_add_single _ _ _ _ _ (ix1 r)).trans ?_
    refine Finset.sum_congr rfl fun (c : Fin 10000) _ => ?_
    rw [lift_row Gen.reduces_S2048x10000_S2048 r c]
    show Ideal.exp (Gen.k0_pay4 (F := Ideal) x0 w0 b0 (ix2 r c)
      - broadcastTo S2048x10000 (Gen.k0_pay5 (F := Ideal) x0 w0 b0 mo) Gen.broadcasts_S2048x1_S2048x10000 (ix2 r c)) = _
    rw [broadcastTo_a1_ab_apply, pay5_at]

/-- The value written back: the running maximum plus the logarithm of the running sum. -/
theorem pay1_at : Gen.k0_pay1 (F := Ideal) mv lv (ix2 r (0 : Fin 1)) = mv (ix2 r 0) + Ideal.log (lv (ix2 r 0)) := rfl

/-- The running maximum starts at the large negative finite number. -/
theorem pay2_at : Gen.k0_pay2 (F := Ideal) (ix2 r (0 : Fin 1)) = Cert.Spec.negBig := by
  unfold Gen.k0_pay2
  rw [shapeCast_self]
  rfl

/-- The running sum starts at zero. -/
theorem pay3_at : Gen.k0_pay3 (F := Ideal) (ix2 r (0 : Fin 1)) = 0 := by
  unfold Gen.k0_pay3
  rw [shapeCast_self]
  exact Ideal.ofBits_zero_f32

end Cert.KernelIdeal.KV

end
-- ==== Proof.KV.Step.lean ====
/-
  One vocabulary tile's step of a row's running pair, and the row's value after the last tile, over the extended reals.

  If a row's running pair before tile j is the specification's pair after j tiles, and the tile's logits are the row's
  logits at the tile's vocabulary entries, then the stored running maximum and running sum are the specification's
  pair after j + 1 tiles; the reset pair is the pair after no tile; and after the fifth tile the value written back is
  the row's tiled log-sum-exp. The tile's logits are the row's when the block of x holds the row, the tile of w the
  tile's vocabulary rows and the bias slice the tile's bias entries.
-/
import proofs.«430166_j43576738185611_3_alg».proof.Proof.KV.Pay
import Idealize.ShloMosaic.Lib.Pipeline.FrameBody

noncomputable section

open scoped BigOperators

namespace Cert.KernelIdeal.KV

open Idealize.ShloMosaic Idealize.ShloMosaic.ValueIdx

variable (z : Fin 50000 → EReal)
  (x0 : Vec Ideal S2048x256 .bf16) (w0 : Vec Ideal S10000x256 .f32) (b0 : Vec Ideal S1x10000 .f32)
  (mo lo : Vec Ideal S2048x1 .f32) (r : Fin 2048)

/-- One tile's step: from the pair after `j` tiles to the pair after `j + 1`. -/
theorem step_pair (j : Nat) (hj : j + 1 ≤ 5)
    (hz : ∀ c : Fin 10000, Gen.k0_pay4 (F := Ideal) x0 w0 b0 (ix2 r c) = z (Cert.Spec.tileIdx ⟨j, hj⟩ c))
    (hm : mo (ix2 r (0 : Fin 1)) = (Cert.Spec.runPair z j (Nat.le_of_succ_le hj)).1)
    (hl : lo (ix2 r (0 : Fin 1)) = (Cert.Spec.runPair z j (Nat.le_of_succ_le hj)).2) :
    Gen.k0_pay7 (F := Ideal) x0 w0 b0 mo (ix2 r (0 : Fin 1)) = (Cert.Spec.runPair z (j + 1) hj).1
      ∧ Gen.k0_pay6 (F := Ideal) x0 w0 b0 mo lo (ix2 r (0 : Fin 1)) = (Cert.Spec.runPair z (j + 1) hj).2 := by
  have hζ : (fun c => Gen.k0_pay4 (F := Ideal) x0 w0 b0 (ix2 r c)) = fun c => z (Cert.Spec.tileIdx ⟨j, hj⟩ c) :=
    funext hz
  rw [pay7_at, pay6_at, hζ, hm, hl]
  exact ⟨rfl, rfl⟩

/-- The first tile's step starts from the reset pair. -/
theorem first_pair
    (hz : ∀ c : Fin 10000, Gen.k0_pay4 (F := Ideal) x0 w0 b0 (ix2 r c) = z (Cert.Spec.tileIdx ⟨0, by decide⟩ c)) :
    Gen.k0_pay7 (F := Ideal) x0 w0 b0 (Gen.k0_pay2 (F := Ideal)) (ix2 r (0 : Fin 1))
        = (Cert.Spec.runPair z 1 (by decide)).1
      ∧ Gen.k0_pay6 (F := Ideal) x0 w0 b0 (Gen.k0_pay2 (F := Ideal)) (Gen.k0_pay3 (F := Ideal)) (ix2 r (0 : Fin 1))
        = (Cert.Spec.runPair z 1 (by decide)).2 :=
  step_pair z x0 w0 b0 (Gen.k0_pay2 (F := Ideal)) (Gen.k0_pay3 (F := Ideal)) r 0 (by decide) hz (pay2_at r) (pay3_at r)

/-- After the last tile's step the value written back is the row's tiled log-sum-exp. -/
theorem last_value
    (hz : ∀ c : Fin 10000, Gen.k0_pay4 (F := Ideal) x0 w0 b0 (ix2 r c) = z (Cert.Spec.tileIdx ⟨4, by decide⟩ c))
    (hm : mo (ix2 r (0 : Fin 1)) = (Cert.Spec.runPair z 4 (by decide)).1)
    (hl : lo (ix2 r (0 : Fin 1)) = (Cert.Spec.runPair z 4 (by decide)).2) :
    Gen.k0_pay1 (F := Ideal) (Gen.k0_pay7 (F := Ideal) x0 w0 b0 mo) (Gen.k0_pay6 (F := Ideal) x0 w0 b0 mo lo)
      (ix2 r (0 : Fin 1)) = Cert.Spec.lseTiled z := by
  obtain ⟨h1, h2⟩ := step_pair z x0 w0 b0 mo lo r 4 (by decide) hz hm hl
  rw [pay1_at, h1, h2]
  rfl

/-- The tile's logits are the row's logits at the tile's vocabulary entries, when the blocks hold the row of x, the
    tile's rows of w and the tile's bias entries. -/
theorem pay4_eq_logit (X : Fin 4096 → Fin 256 → EReal) (W : Fin 50000 → Fin 256 → EReal) (B : Fin 50000 → EReal)
    (n : Fin 4096) (j : Fin 5)
    (hx : ∀ k : Fin 256, x0 (ix2 r k) = X n k)
    (hw : ∀ (c : Fin 10000) (k : Fin 256), w0 (ix2 c k) = W (Cert.Spec.tileIdx j c) k)
    (hb : ∀ c : Fin 10000, b0 (ix2 (0 : Fin 1) c) = B (Cert.Spec.tileIdx j c)) (c : Fin 10000) :
    Gen.k0_pay4 (F := Ideal) x0 w0 b0 (ix2 r c) = Cert.Spec.logit X W B n (Cert.Spec.tileIdx j c) := by
  rw [pay4_at, hb]
  unfold Cert.Spec.logit
  refine congrArg (· + B (Cert.Spec.tileIdx j c)) ?_
  exact Finset.sum_congr rfl fun k _ => by rw [hx, hw]

/-- A load of ten thousand consecutive entries of the one-row bias array from column `o` reads, at `(0, c)`, the
    array's entry `(0, o + c)`. -/
theorem ld_row_slice {F : FTy → Type} (X : Vec F S1x50000 .f32) (off : Fin 2 → Nat) (o : Nat)
    (hoff : off = ![0, o]) (inb : ∀ a, off a + S1x10000.size a ≤ S1x50000.size a) (c : Fin 10000) (ho : o + c.val < 50000) :
    View.ld X (Rect.unit (s := S1x50000) off S1x10000.size inb) (ix2 (0 : Fin 1) c)
      = X (ix2 (0 : Fin 1) ⟨o + c.val, ho⟩) := by
  subst hoff
  refine congrArg X (funext fun a => Fin.ext ?_)
  match a with
  | ⟨0, _⟩ => rfl
  | ⟨1, _⟩ => show o + 1 * c.val = o + c.val; rw [Nat.one_mul]

end Cert.KernelIdeal.KV

end
-- ==== Proof.KV.Lse.lean ====
/-
  The array the tiled log-sum-exp kernel writes, over the extended reals: row n of the output holds the tiled
  log-sum-exp of row n's logits.

  At grid point t = 5 i + v the body works on rows 2048 i … 2048 i + 2047 and on the vocabulary tile v. By induction
  on the point, after point t the two carried operands hold, for the block's row r, the specification's running pair
  after v + 1 tiles of the logits of row 2048 i + r: the first tile of a row block starts from the reset pair, a later
  tile from the pair the point before left (same row block, one tile fewer). At the last tile the block written
  back is the row's tiled log-sum-exp, and the two blocks written back, at points 4 and 9, cover the 4096 rows.
-/
import proofs.«430166_j43576738185611_3_alg».proof.Proof.KV.Pieces
import proofs.«430166_j43576738185611_3_alg».proof.Proof.KV.Blocks
import proofs.«430166_j43576738185611_3_alg».proof.Proof.KV.Step

set_option maxRecDepth 16384

noncomputable section

namespace Cert.KernelIdeal.KV

open Idealize.ShloMosaic Idealize.ShloMosaic.TcCoe Idealize.ShloMosaic.ValueIdx
open Idealize.SL.Sem
open Idealize.ShloMosaic.Pipeline (Dat)
open Cert.KernelIdeal Cert.KernelIdeal.Gen

variable (m : (ℓ : Loc nD τ sig) → Buf (Elt Ideal) ℓ)

/-! ## The arrays the region finds, and a row's logits -/

/-- The rounded features, entry by entry. -/
abbrev xarr (c : Dev nD) : Fin 4096 → Fin 256 → EReal := fun n k => HF.V m c main_v40 (ix2 n k)
/-- The second layer's matrix. -/
abbrev warr (c : Dev nD) : Fin 50000 → Fin 256 → EReal := fun v k => HF.V m c main_arg3 (ix2 v k)
/-- The bias row. -/
abbrev barr (c : Dev nD) : Fin 50000 → EReal := fun v => HF.V m c main_v41 (ix2 (0 : Fin 1) v)
/-- The logits of row `n`. -/
abbrev zrow (c : Dev nD) (n : Fin 4096) : Fin 50000 → EReal :=
  fun v => Cert.Spec.logit (xarr m c) (warr m c) (barr m c) n v

/-- At point t the body's logits of the block's row r are the logits of row 2048 (t / 5) + r at the entries of
    vocabulary tile t mod 5. -/
theorem tile_logits (c : Dev nD) (t : Fin cfg0.N) (r : Fin 2048) (R : Fin 4096) (hR : R.val = 2048 * (t.val / 5) + r.val)
    (j : Fin 5) (hj : j.val = t.val % 5) (q : Fin 10000) :
    Gen.k0_pay4 (F := Ideal) (xblk m c t) (wblk m c t) (biasTile (grid0.coords t) (bblk m c t)) (ix2 r q)
      = zrow m c R (Cert.Spec.tileIdx j q) := by
  refine pay4_eq_logit (xblk m c t) (wblk m c t) (biasTile (grid0.coords t) (bblk m c t)) r (xarr m c) (warr m c)
    (barr m c) R j ?_ ?_ ?_ q
  · intro k
    exact (xblk_at m c t r k).trans (congrArg (fun n => HF.V m c main_v40 (ix2 n k)) (Fin.ext hR.symm))
  · intro q k
    exact (wblk_at m c t q k).trans (congrArg (fun n => HF.V m c main_arg3 (ix2 n k))
      (Fin.ext (by show 10000 * (t.val % 5) + q.val = 10000 * j.val + q.val; rw [hj])))
  · intro q
    exact (bias_tile_at m c t q).trans (congrArg (fun n => HF.V m c main_v41 (ix2 (0 : Fin 1) n))
      (Fin.ext (by show 10000 * (t.val % 5) + q.val = 10000 * j.val + q.val; rw [hj])))

/-! ## The running pair after each point -/

/-- The first tile of a row block leaves the pair after one tile. -/
theorem caseA (c : Dev nD) (t : Fin cfg0.N) (h0 : t.val % 5 = 0) (r : Fin 2048) (R : Fin 4096)
    (hR : R.val = 2048 * (t.val / 5) + r.val) :
    (HF.outsAt0 m c t.val t.isLt).2.1 (ix2 r (0 : Fin 1)) = (Cert.Spec.runPair (zrow m c R) (0 + 1) (by decide)).1
      ∧ (HF.outsAt0 m c t.val t.isLt).2.2 (ix2 r (0 : Fin 1)) = (Cert.Spec.runPair (zrow m c R) (0 + 1) (by decide)).2 := by
  have h1 : ¬t.val % 5 = 4 := by omega
  obtain ⟨e1, e2⟩ := first_pair (zrow m c R) (xblk m c t) (wblk m c t) (biasTile (grid0.coords t) (bblk m c t)) r
    (tile_logits m c t r R hR ⟨0, by decide⟩ (by rw [h0]))
  rw [HF.outsAt0_A m c t h0 h1]
  dsimp only
  exact ⟨(congrFun (sA0 (F := Ideal) c (grid0.coords t) (HF.ms0_0 t) (HF.hs0_0 t) (HF.ms0_1 t) (HF.hs0_1 t) (HF.ms0_2 t)
      (HF.hs0_2 t) (HF.ms0_3 t) (HF.hs0_3 t) HF.scM0_0 (Memref.isWhole_whole _) HF.scM0_1 (Memref.isWhole_whole _)
      ((HF.hcond0_0 t).mpr h0) (fun h => h1 ((HF.hcond0_1 t).mp h)) (xblk m c t) (wblk m c t) (bblk m c t))
      (ix2 r (0 : Fin 1))).trans e1,
    (congrFun (sA1 (F := Ideal) c (grid0.coords t) (HF.ms0_0 t) (HF.hs0_0 t) (HF.ms0_1 t) (HF.hs0_1 t) (HF.ms0_2 t)
      (HF.hs0_2 t) (HF.ms0_3 t) (HF.hs0_3 t) HF.scM0_0 (Memref.isWhole_whole _) HF.scM0_1 (Memref.isWhole_whole _)
      ((HF.hcond0_0 t).mpr h0) (fun h => h1 ((HF.hcond0_1 t).mp h)) (xblk m c t) (wblk m c t) (bblk m c t))
      (ix2 r (0 : Fin 1))).trans e2⟩

/-- A later tile takes the pair the point before left from `j` tiles to `j + 1`. -/
theorem caseStep (c : Dev nD) (t : Fin cfg0.N) (h0 : ¬t.val % 5 = 0) (r : Fin 2048) (R : Fin 4096)
    (hR : R.val = 2048 * (t.val / 5) + r.val) (j : ℕ) (hj : j + 1 ≤ 5) (hjt : t.val % 5 = j)
    (hm : (HF.outsAt0 m c (t.val - 1) (Nat.lt_of_le_of_lt (Nat.sub_le _ _) t.isLt)).2.1 (ix2 r (0 : Fin 1))
      = (Cert.Spec.runPair (zrow m c R) j (Nat.le_of_succ_le hj)).1)
    (hl : (HF.outsAt0 m c (t.val - 1) (Nat.lt_of_le_of_lt (Nat.sub_le _ _) t.isLt)).2.2 (ix2 r (0 : Fin 1))
      = (Cert.Spec.runPair (zrow m c R) j (Nat.le_of_succ_le hj)).2) :
    (HF.outsAt0 m c t.val t.isLt).2.1 (ix2 r (0 : Fin 1)) = (Cert.Spec.runPair (zrow m c R) (j + 1) hj).1
      ∧ (HF.outsAt0 m c t.val t.isLt).2.2 (ix2 r (0 : Fin 1)) = (Cert.Spec.runPair (zrow m c R) (j + 1) hj).2 := by
  obtain ⟨e1, e2⟩ := step_pair (zrow m c R) (xblk m c t) (wblk m c t) (biasTile (grid0.coords t) (bblk m c t))
    (HF.outsAt0 m c (t.val - 1) (Nat.lt_of_le_of_lt (Nat.sub_le _ _) t.isLt)).2.1
    (HF.outsAt0 m c (t.val - 1) (Nat.lt_of_le_of_lt (Nat.sub_le _ _) t.isLt)).2.2 r j hj
    (tile_logits m c t r R hR ⟨j, hj⟩ hjt.symm) hm hl
  by_cases h1 : t.val % 5 = 4
  · rw [HF.outsAt0_C m c t h0 h1]
    dsimp only
    exact ⟨(congrFun (sC0 (F := Ideal) c (grid0.coords t) (HF.ms0_0 t) (HF.hs0_0 t) (HF.ms0_1 t) (HF.hs0_1 t) (HF.ms0_2 t)
        (HF.hs0_2 t) (HF.ms0_3 t) (HF.hs0_3 t) HF.scM0_0 (Memref.isWhole_whole _) HF.scM0_1 (Memref.isWhole_whole _)
        (fun h => h0 ((HF.hcond0_0 t).mp h)) ((HF.hcond0_1 t).mpr h1) (xblk m c t) (wblk m c t) (bblk m c t)
        (HF.outsAt0 m c (t.val - 1) (Nat.lt_of_le_of_lt (Nat.sub_le _ _) t.isLt)).2.1
        (HF.outsAt0 m c (t.val - 1) (Nat.lt_of_le_of_lt (Nat.sub_le _ _) t.isLt)).2.2) (ix2 r (0 : Fin 1))).trans e1,
      (congrFun (sC1 (F := Ideal) c (grid0.coords t) (HF.ms0_0 t) (HF.hs0_0 t) (HF.ms0_1 t) (HF.hs0_1 t) (HF.ms0_2 t)
        (HF.hs0_2 t) (HF.ms0_3 t) (HF.hs0_3 t) HF.scM0_0 (Memref.isWhole_whole _) HF.scM0_1 (Memref.isWhole_whole _)
        (fun h => h0 ((HF.hcond0_0 t).mp h)) ((HF.hcond0_1 t).mpr h1) (xblk m c t) (wblk m c t) (bblk m c t)
        (HF.outsAt0 m c (t.val - 1) (Nat.lt_of_le_of_lt (Nat.sub_le _ _) t.isLt)).2.1
        (HF.outsAt0 m c (t.val - 1) (Nat.lt_of_le_of_lt (Nat.sub_le _ _) t.isLt)).2.2) (ix2 r (0 : Fin 1))).trans e2⟩
  · rw [HF.outsAt0_B m c t h0 h1]
    dsimp only
    exact ⟨(congrFun (sB0 (F := Ideal) c (grid0.coords t) (HF.ms0_0 t) (HF.hs0_0 t) (HF.ms0_1 t) (HF.hs0_1 t) (HF.ms0_2 t)
        (HF.hs0_2 t) (HF.ms0_3 t) (HF.hs0_3 t) HF.scM0_0 (Memref.isWhole_whole _) HF.scM0_1 (Memref.isWhole_whole _)
        (fun h => h0 ((HF.hcond0_0 t).mp h)) (fun h => h1 ((HF.hcond0_1 t).mp h)) (xblk m c t) (wblk m c t) (bblk m c t)
        (HF.outsAt0 m c (t.val - 1) (Nat.lt_of_le_of_lt (Nat.sub_le _ _) t.isLt)).2.1
        (HF.outsAt0 m c (t.val - 1) (Nat.lt_of_le_of_lt (Nat.sub_le _ _) t.isLt)).2.2) (ix2 r (0 : Fin 1))).trans e1,
      (congrFun (sB1 (F := Ideal) c (grid0.coords t) (HF.ms0_0 t) (HF.hs0_0 t) (HF.ms0_1 t) (HF.hs0_1 t) (HF.ms0_2 t)
        (HF.hs0_2 t) (HF.ms0_3 t) (HF.hs0_3 t) HF.scM0_0 (Memref.isWhole_whole _) HF.scM0_1 (Memref.isWhole_whole _)
        (fun h => h0 ((HF.hcond0_0 t).mp h)) (fun h => h1 ((HF.hcond0_1 t).mp h)) (xblk m c t) (wblk m c t) (bblk m c t)
        (HF.outsAt0 m c (t.val - 1) (Nat.lt_of_le_of_lt (Nat.sub_le _ _) t.isLt)).2.1
        (HF.outsAt0 m c (t.val - 1) (Nat.lt_of_le_of_lt (Nat.sub_le _ _) t.isLt)).2.2) (ix2 r (0 : Fin 1))).trans e2⟩

/-- THE INVARIANT: after point n the two carried operands hold, at the block's row r, the running pair after
    n mod 5 + 1 tiles of the logits of row 2048 (n / 5) + r. -/
theorem pair_at (c : Dev nD) : ∀ (n : ℕ) (hn : n < cfg0.N) (r : Fin 2048) (R : Fin 4096)
    (hR : R.val = 2048 * (n / 5) + r.val) (j : ℕ) (hj : j + 1 ≤ 5) (hjn : n % 5 = j),
    (HF.outsAt0 m c n hn).2.1 (ix2 r (0 : Fin 1)) = (Cert.Spec.runPair (zrow m c R) (j + 1) hj).1
      ∧ (HF.outsAt0 m c n hn).2.2 (ix2 r (0 : Fin 1)) = (Cert.Spec.runPair (zrow m c R) (j + 1) hj).2
  | 0, hn, r, R, hR, j, hj, hjn => by
    obtain rfl : j = 0 := by omega
    exact caseA m c ⟨0, hn⟩ rfl r R hR
  | n + 1, hn, r, R, hR, j, hj, hjn => by
    by_cases h0 : (n + 1) % 5 = 0
    · obtain rfl : j = 0 := by omega
      exact caseA m c ⟨n + 1, hn⟩ h0 r R hR
    · obtain ⟨j', rfl⟩ : ∃ j', j = j' + 1 := ⟨j - 1, by omega⟩
      have ih := pair_at c n (Nat.lt_of_succ_lt hn) r R (by omega) j' (by omega) (by omega)
      exact caseStep m c ⟨n + 1, hn⟩ h0 r R hR (j' + 1) hj hjn ih.1 ih.2

/-- At the last tile of a row block the block written back holds, at row r, the tiled log-sum-exp of the row. -/
theorem out_last (c : Dev nD) (t : Fin cfg0.N) (h1 : t.val % 5 = 4) (r : Fin 2048) (R : Fin 4096)
    (hR : R.val = 2048 * (t.val / 5) + r.val) :
    (HF.outsAt0 m c t.val t.isLt).1 (ix2 r (0 : Fin 1)) = Cert.Spec.lseTiled (zrow m c R) := by
  have h0 : ¬t.val % 5 = 0 := by omega
  have ih := pair_at m c (t.val - 1) (Nat.lt_of_le_of_lt (Nat.sub_le _ _) t.isLt) r R (by omega) 3 (by decide) (by omega)
  rw [HF.outsAt0_C m c t h0 h1]
  dsimp only
  refine (congrFun (oC3 (F := Ideal) c (grid0.coords t) (HF.ms0_0 t) (HF.hs0_0 t) (HF.ms0_1 t) (HF.hs0_1 t) (HF.ms0_2 t)
    (HF.hs0_2 t) (HF.ms0_3 t) (HF.hs0_3 t) HF.scM0_0 (Memref.isWhole_whole _) HF.scM0_1 (Memref.isWhole_whole _)
    (fun h => h0 ((HF.hcond0_0 t).mp h)) ((HF.hcond0_1 t).mpr h1) (xblk m c t) (wblk m c t) (bblk m c t)
    (HF.outsAt0 m c (t.val - 1) (Nat.lt_of_le_of_lt (Nat.sub_le _ _) t.isLt)).2.1
    (HF.outsAt0 m c (t.val - 1) (Nat.lt_of_le_of_lt (Nat.sub_le _ _) t.isLt)).2.2) (ix2 r (0 : Fin 1))).trans ?_
  exact last_value (zrow m c R) (xblk m c t) (wblk m c t) (biasTile (grid0.coords t) (bblk m c t))
    (HF.outsAt0 m c (t.val - 1) (Nat.lt_of_le_of_lt (Nat.sub_le _ _) t.isLt)).2.1
    (HF.outsAt0 m c (t.val - 1) (Nat.lt_of_le_of_lt (Nat.sub_le _ _) t.isLt)).2.2 r
    (tile_logits m c t r R hR ⟨4, by decide⟩ (by rw [h1])) ih.1 ih.2

/-! ## The output array -/

/-- The output window's block index at a point: the row block on the rows, zero on the one column. -/
theorem index3 : ∀ t : Fin cfg0.N, win0_3.index t 0 = t.val / 5 ∧ win0_3.index t 1 = 0 :=
  (by decide +kernel : ∀ t : Fin grid0.N, win0_3.index t 0 = t.val / 5 ∧ win0_3.index t 1 = 0)

/-- Its block is whole at every point. -/
theorem xsize3 : ∀ t : Fin cfg0.N, win0_3.xsize (grid0.coords t) 0 = 2048 ∧ win0_3.xsize (grid0.coords t) 1 = 1 :=
  (by decide +kernel : ∀ t : Fin grid0.N, win0_3.xsize (grid0.coords t) 0 = 2048 ∧ win0_3.xsize (grid0.coords t) 1 = 1)

/-- The array of the rows' tiled log-sum-exps. -/
abbrev lseArr (c : Dev nD) : Vec Ideal S4096x1 .f32 := fun i => Cert.Spec.lseTiled (zrow m c (i 0))

/-- Each block written back is its block of that array. -/
theorem flushed_eq (c : Dev nD) (t : Fin cfg0.N) (hf : (cfg0.win 3).flush t = true) :
    (HF.dats m 0 c).flushed 3 t = ((cfg0.win 3).blk t).view.read (Elt Ideal) (lseArr m c) := by
  have h4 : t.val % 5 = 4 := (flush0_3 t).mp hf
  show (cfg0.win 3).cut (grid0.coords t) ((HF.dats m 0 c).after 3 t) = _
  rw [HF.after0_3]
  funext y
  rw [View.read_apply]
  have hy0 : (y 0).val < 2048 := by
    have h : (y 0).val < win0_3.xsize (grid0.coords t) 0 := (y 0).isLt
    rwa [(xsize3 t).1] at h
  have hy1 : (y 1).val = 0 := by
    have h : (y 1).val < win0_3.xsize (grid0.coords t) 1 := (y 1).isLt
    rw [(xsize3 t).2] at h; omega
  have e : (cfg0.win 3).xinj (grid0.coords t) y = ix2 (⟨(y 0).val, hy0⟩ : Fin 2048) (0 : Fin 1) :=
    funext fun a => Fin.ext (match a with
      | ⟨0, _⟩ => rfl
      | ⟨1, _⟩ => hy1)
  show (HF.outsAt0 m c t.val t.isLt).1 ((cfg0.win 3).xinj (grid0.coords t) y) = lseArr m c (((cfg0.win 3).blk t).view.emb y)
  rw [e]
  refine out_last m c t h4 ⟨(y 0).val, hy0⟩ (((cfg0.win 3).blk t).view.emb y 0) ?_
  show win0_3.index t 0 * 2048 + 1 * (y 0).val = 2048 * (t.val / 5) + (y 0).val
  rw [(index3 t).1]; omega

/-- Every row of the output array lies in the block written back at the last tile of its row block. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 4096 := (i 0).isLt
  have h1 : (i 1 : Nat) < 1 := (i 1).isLt
  have hN : cfg0.N = 10 := N_eq
  let t : Fin cfg0.N := ⟨5 * ((i 0).val / 2048) + 4, by rw [hN]; omega⟩
  have ht : t.val = 5 * ((i 0).val / 2048) + 4 := rfl
  refine ⟨t, (flush0_3 t).mpr (by rw [ht]; omega), ?_⟩
  show i ∈ ((View.whole main_v42).slice (win0_3.rect t)).set
  rw [View.set_slice_whole, Rect.mem_set_unit]
  intro a
  match a with
  | ⟨0, _⟩ =>
    show win0_3.index t 0 * win0_3.size 0 ≤ (i 0 : Nat) ∧ (i 0 : Nat) < win0_3.index t 0 * win0_3.size 0 + win0_3.xsize (grid0.coords t) 0
    rw [(index3 t).1, (xsize3 t).1, ht]
    show (5 * ((i 0).val / 2048) + 4) / 5 * 2048 ≤ (i 0 : Nat) ∧ (i 0 : Nat) < (5 * ((i 0).val / 2048) + 4) / 5 * 2048 + 2048
    omega
  | ⟨1, _⟩ =>
    show win0_3.index t 1 * win0_3.size 1 ≤ (i 1 : Nat) ∧ (i 1 : Nat) < win0_3.index t 1 * win0_3.size 1 + win0_3.xsize (grid0.coords t) 1
    rw [(index3 t).2, (xsize3 t).2]
    omega

/-- THE VALUE: after the region the output array holds, at row n, the tiled log-sum-exp of row n's logits. -/
theorem lse_arr (c : Dev nD) (n : Fin 4096) :
    (HF.dats m 0 c).arrAt 3 cfg0.N (ix2 n (0 : Fin 1))
      = Cert.Spec.lseTiled (fun v => Cert.Spec.logit (fun n k => HF.V m c main_v40 (ix2 n k))
          (fun v k => HF.V m c main_arg3 (ix2 v k)) (fun v => HF.V m c main_v41 (ix2 (0 : Fin 1) v)) n v) :=
  congrFun ((HF.dats m 0 c).arrAt_eq_of_cover 3 (lseArr m c) (flushed_eq m c) (cover3 c)) (ix2 n (0 : Fin 1))

end Cert.KernelIdeal.KV

end
-- ==== Proof.LibGatherRows.lean ====
/-
  A gather of whole rows of a table, and of entries of a vector, read at one element. The start indices are an
  n × 1 column of position words; result row e is the table's row at position word e read signed and clipped into the
  table (a negative word reads row 0, one past the end reads the last row).
-/
import Idealize.ShloMosaic.PureOps.ShapeOps
import Idealize.ShloMosaic.PureOps.Dims
import Idealize.ShloMosaic.Lib.ValueIdx
import Idealize.ShloMosaic.Lib.StableHlo.Predicate

noncomputable section

namespace Cert.LibGatherRows

open Idealize.ShloMosaic Idealize.ShloMosaic.ValueIdx

/-- Rows of an N × D table gathered at n position words: result (e, k) is the table at the clipped position of word e and column k. -/
theorem gather_rows_apply {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k)
      = x (ix2 (⟨min (idx (ix2 e (0 : Fin 1))).toInt.toNat (N - 1), by omega⟩ : Fin N) k) := by
  obtain ⟨od, cd, obd, sbd, sim, ivd, ss, wf⟩ := d
  simp only at hoff hcoll hob hsb hsim hivd
  subst hoff hcoll hob hsb hsim hivd
  generalize hd : (GatherDims.mk [1] [0] [] [] [0] 1 ss wf : GatherDims ⟨2, ![N, D]⟩ ⟨2, ![n, 1]⟩ ⟨2, ![n, D]⟩) = d
  have hcoll : d.collapsedSliceDims = [0] := by subst hd; rfl
  have hob : d.operandBatchingDims = [] := by subst hd; rfl
  have hsim : d.startIndexMap = [0] := by subst hd; rfl
  have hb : ∀ a : Fin 2, a ∉ d.operandBatchingDims := fun a => by rw [hob]; exact List.not_mem_nil
  have h0 : (d.operandIdx (ix2 e k) idx (0 : Fin 2)).val = min (idx (ix2 e (0 : Fin 1))).toInt.toNat (N - 1) := by
    show d.start (ix2 e k) idx (0 : Fin 2) + d.batchCoord (ix2 e k) (0 : Fin 2) + d.offCoord (ix2 e k) (0 : Fin 2) = _
    have hk : (0 : Fin 2) ∉ d.sKept := fun h => ((GatherDims.mem_sKept _ _).mp h).1 (by rw [hcoll]; exact List.mem_singleton.mpr rfl)
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk, Nat.add_zero]
    unfold GatherDims.start
    rw [dif_pos hm, hsl]
    have hsi : d.siIdx (ix2 e k) ⟨List.idxOf (0 : Fin 2) d.startIndexMap, List.idxOf_lt_length_iff.2 hm⟩ = ix2 e (0 : Fin 1) := by
      subst hd
      funext b; refine Fin.ext ?_
      match b with
      | ⟨0, _⟩ => rfl
      | ⟨1, _⟩ => rfl
    rw [hsi]
    rfl
  have h1 : (d.operandIdx (ix2 e k) idx (1 : Fin 2)).val = k.val := by
    show d.start (ix2 e k) idx (1 : Fin 2) + d.batchCoord (ix2 e k) (1 : Fin 2) + d.offCoord (ix2 e k) (1 : Fin 2) = _
    have hne : ¬ ((1 : Fin 2) = 0) := by decide
    have hm : (1 : Fin 2) ∉ d.startIndexMap := by rw [hsim]; exact fun h => hne (List.mem_singleton.mp h)
    have hk : (1 : Fin 2) ∈ d.sKept := (GatherDims.mem_sKept _ _).mpr ⟨by rw [hcoll]; exact fun h => hne (List.mem_singleton.mp h), hb 1⟩
    rw [GatherDims.batchCoord_eq_zero _ _ _ (hb 1), Nat.add_zero]
    unfold GatherDims.start GatherDims.offCoord
    rw [dif_neg hm, dif_pos hk, Nat.zero_add]
    subst hd
    rfl
  unfold Host.gather
  congr 1
  funext a
  match a with
  | ⟨0, _⟩ => exact Fin.ext h0
  | ⟨1, _⟩ => exact Fin.ext h1

/-- Entries of an N-vector gathered at n position words: result e is the vector at the clipped position of word e. -/
theorem gather_vec_apply {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) (hN : 0 < N) :
    Host.gather d x idx (ix1 e)
      = x (ix1 (⟨min (idx (ix2 e (0 : Fin 1))).toInt.toNat (N - 1), by omega⟩ : Fin N)) := by
  have h1 : (ix1 e : (⟨1, ![n]⟩ : Shape).Idx) = Shape.Idx.ofFin e := by
    funext a; match a with | ⟨0, _⟩ => rfl
  have h2 : (ix2 e (0 : Fin 1) : (⟨2, ![n, 1]⟩ : Shape).Idx) = StableHlo.Predicate.ixP e := by
    funext a; match a with | ⟨0, _⟩ => rfl | ⟨1, _⟩ => rfl
  have h3 : ∀ m : Fin N, (ix1 m : (⟨1, ![N]⟩ : Shape).Idx) = Shape.Idx.ofFin m := fun m => by
    funext a; match a with | ⟨0, _⟩ => rfl
  rw [h1, h3]
  refine (StableHlo.Predicate.gather_take d hcoll hob hsim hivd x idx e hN).trans ?_
  refine congrArg x (congrArg Shape.Idx.ofFin (Fin.ext ?_))
  show min (idx (StableHlo.Predicate.ixP e)).toInt.toNat (N - 1) = min (idx (ix2 e (0 : Fin 1))).toInt.toNat (N - 1)
  rw [h2]

end Cert.LibGatherRows

end
-- ==== Proof.LibGatherElem.lean ====
/-
  A gather of single entries of a matrix, read at one element. The start indices are an n × 2 table of position words
  (a row word and a column word per result element); result e is the matrix entry whose row is the first word of line e
  and whose column is the second, each read signed and clipped into its axis (a negative word reads position 0, one
  past the end reads the last position).
-/
import Idealize.ShloMosaic.PureOps.ShapeOps
import Idealize.ShloMosaic.PureOps.Dims
import Idealize.ShloMosaic.Lib.ValueIdx

noncomputable section

namespace Cert.LibGatherElem

open Idealize.ShloMosaic Idealize.ShloMosaic.ValueIdx

/-- Entries of an N × D matrix gathered at n pairs of position words: result e is the matrix at the clipped row word and the clipped column word of pair e. -/
theorem gather_elem_apply {α : Type} {N D n w : Nat} (d : GatherDims ⟨2, ![N, D]⟩ ⟨2, ![n, 2]⟩ ⟨1, ![n]⟩)
    (hoff : d.offsetDims = []) (hcoll : d.collapsedSliceDims = [0, 1]) (hob : d.operandBatchingDims = [])
    (hsb : d.startIndicesBatchingDims = []) (hsim : d.startIndexMap = [0, 1]) (hivd : d.indexVectorDim = 1)
    (x : (⟨2, ![N, D]⟩ : Shape).Idx → α) (idx : IVec ⟨2, ![n, 2]⟩ w) (e : Fin n) (hN : 0 < N) (hD : 0 < D) :
    Host.gather d x idx (ix1 e)
      = x (ix2 (⟨min (idx (ix2 e (0 : Fin 2))).toInt.toNat (N - 1), by omega⟩ : Fin N)
               (⟨min (idx (ix2 e (1 : Fin 2))).toInt.toNat (D - 1), by omega⟩ : Fin D)) := by
  obtain ⟨od, cd, obd, sbd, sim, ivd, ss, wf⟩ := d
  simp only at hoff hcoll hob hsb hsim hivd
  subst hoff hcoll hob hsb hsim hivd
  generalize hd : (GatherDims.mk [] [0, 1] [] [] [0, 1] 1 ss wf : GatherDims ⟨2, ![N, D]⟩ ⟨2, ![n, 2]⟩ ⟨1, ![n]⟩) = d
  have hcoll : d.collapsedSliceDims = [0, 1] := by subst hd; rfl
  have hob : d.operandBatchingDims = [] := by subst hd; rfl
  have hsim : d.startIndexMap = [0, 1] := by subst hd; rfl
  have hb : ∀ a : Fin 2, a ∉ d.operandBatchingDims := fun a => by rw [hob]; exact List.not_mem_nil
  have hc : ∀ a : Fin 2, a ∈ d.collapsedSliceDims := fun a => by
    rw [hcoll]
    match a with
    | ⟨0, _⟩ => exact List.mem_cons_self
    | ⟨1, _⟩ => exact List.mem_cons_of_mem _ List.mem_cons_self
  have hk : ∀ a : Fin 2, a ∉ d.sKept := fun a h => ((GatherDims.mem_sKept _ _).mp h).1 (hc a)
  have hm : ∀ a : Fin 2, a ∈ d.startIndexMap := fun a => by rw [hsim, ← hcoll]; exact hc a
  have hsl : ∀ a : Fin 2, d.sliceSizes a = 1 := fun a => d.slice_collapsed a (hc a)
  have hsi : ∀ a : Fin 2, d.siIdx (ix1 e) ⟨List.idxOf a d.startIndexMap, List.idxOf_lt_length_iff.2 (hm a)⟩ = ix2 e a := fun a => by
    subst hd
    funext b; refine Fin.ext ?_
    match a, b with
    | ⟨0, _⟩, ⟨0, _⟩ => rfl
    | ⟨0, _⟩, ⟨1, _⟩ => rfl
    | ⟨1, _⟩, ⟨0, _⟩ => rfl
    | ⟨1, _⟩, ⟨1, _⟩ => rfl
  have hax : ∀ a : Fin 2, (d.operandIdx (ix1 e) idx a).val = min (idx (ix2 e a)).toInt.toNat ((⟨2, ![N, D]⟩ : Shape).size a - 1) := fun a => by
    show d.start (ix1 e) idx a + d.batchCoord (ix1 e) a + d.offCoord (ix1 e) a = _
    rw [GatherDims.batchCoord_eq_zero _ _ _ (hb a), GatherDims.offCoord_eq_zero _ _ _ (hk a), Nat.add_zero]
    unfold GatherDims.start
    rw [dif_pos (hm a), hsl a, hsi a]
  unfold Host.gather
  congr 1
  funext a
  match a with
  | ⟨0, _⟩ => exact Fin.ext (hax 0)
  | ⟨1, _⟩ => exact Fin.ext (hax 1)

end Cert.LibGatherElem

end
-- ==== Proof.KV.Read.lean ====
/-
  The positive log-probability vector read at one tag: the rounded features' row at the tag's span times the row of
  `W2` at the tag (rounding is the identity over the extended reals), summed over the 256 columns from zero, plus
  the bias at the tag, less the span's log-sum-exp, capped at zero. A span word and a tag word are read the way the
  program's gathers read them: a negative word has the axis's extent added, and the result is clipped into the axis.
-/
import proofs.«430166_j43576738185611_3_alg».proof.Proof.KV.Stages
import proofs.«430166_j43576738185611_3_alg».proof.Proof.Spec
import proofs.«430166_j43576738185611_3_alg».proof.Proof.LibGatherRows
import proofs.«430166_j43576738185611_3_alg».proof.Proof.LibGatherElem
import Idealize.ShloMosaic.Lib.IdealHost
import Idealize.ShloMosaic.Lib.Pipeline.Value

noncomputable section

open scoped BigOperators

namespace Cert.KernelIdeal.KV

open Cert.KernelIdeal Cert.KernelIdeal.Gen Idealize.ShloMosaic Idealize.ShloMosaic.ValueIdx

/-- A wrapped position vector read at a tag is the wrapped word. -/
theorem wrap8192_apply (k : BitVec 32) (v : Ten Ideal S8192 .i32) (t : Fin 8192) :
    wrap8192 (F := Ideal) k v (ix1 t) = Cert.Spec.wrapWord k (v (ix1 t)) := rfl

/-- A vector laid out as a column reads, at row `t`, the vector at `t`. -/
theorem col_apply {α : Type} (v : S8192.Idx → α) (t : Fin 8192) (z : Fin 1) :
    broadcastInDim S8192x1 ![0] bcast_S8192_S8192x1_0 v (ix2 t z) = v (ix1 t) :=
  broadcastInDim_apply _ _ _ _ (ix1 t) (fun a => by match a with | ⟨0, _⟩ => rfl)

/-- A wrapped position vector laid out as a column reads, at row `t`, the wrapped word of `t`. -/
theorem idx_col (k : BitVec 32) (v : Ten Ideal S8192 .i32) (t : Fin 8192) (z : Fin 1) :
    broadcastInDim S8192x1 ![0] bcast_S8192_S8192x1_0 (wrap8192 (F := Ideal) k v) (ix2 t z)
      = Cert.Spec.wrapWord k (v (ix1 t)) :=
  (col_apply _ t z).trans (wrap8192_apply k v t)

/-- A word that is a wrapped span word, read signed and clipped into the 4096 rows, is the span's row. -/
theorem row_of_eq {a w : BitVec 32} (h : a = Cert.Spec.wrapWord 4096#32 w) (p : min a.toInt.toNat (4096 - 1) < 4096) :
    (⟨min a.toInt.toNat (4096 - 1), p⟩ : Fin 4096) = Cert.Spec.rowOf w := by subst h; rfl

/-- A word that is a wrapped tag word, read signed and clipped into the 50000 entries, is the tag's entry. -/
theorem voc_of_eq {a w : BitVec 32} (h : a = Cert.Spec.wrapWord 50000#32 w) (p : min a.toInt.toNat (50000 - 1) < 50000) :
    (⟨min a.toInt.toNat (50000 - 1), p⟩ : Fin 50000) = Cert.Spec.vocOf w := by subst h; rfl

/-- The reduction over the columns. -/
theorem red256 : S8192x256.Reduces [1] S8192 := by decide

/-- The source index over tag `t` at column `k`. -/
theorem red256_lift (t : Fin 8192) (k : Fin 256) : red256.lift (ix1 t) k = ix2 t k := by
  funext c
  match c with
  | ⟨0, _⟩ => rfl
  | ⟨1, _⟩ => rfl

/-- The tag's logit at its own span. -/
theorem posLogit_at (xb : Ten Ideal S4096x256 .bf16) (a3 : Ten Ideal S50000x256 .f32) (a4 : Ten Ideal S50000 .f32)
    (a8 a9 : Ten Ideal S8192 .i32) (t : Fin 8192) :
    posLogit (F := Ideal) xb a3 a4 a8 a9 (ix1 t)
      = ((0 : EReal) + ∑ k : Fin 256, xb (ix2 (Cert.Spec.rowOf (a8 (ix1 t))) k) * a3 (ix2 (Cert.Spec.vocOf (a9 (ix1 t))) k))
        + a4 (ix1 (Cert.Spec.vocOf (a9 (ix1 t)))) := by
  unfold posLogit
  rw [addf_apply, hostReduceAdd_apply, Ideal.hostReduceAdd_single _ red256, constant_apply, Ideal.ofBits_zero_f32]
  congr 1
  · congr 1
    refine Finset.sum_congr rfl fun (k : Fin 256) _ => ?_
    rw [mulf_apply, extf_apply, extf_apply, truncf_apply, red256_lift]
    rw [Cert.LibGatherRows.gather_rows_apply _ rfl rfl rfl rfl rfl rfl _ _ t k (by decide)]
    rw [Cert.LibGatherRows.gather_rows_apply _ rfl rfl rfl rfl rfl rfl _ _ t k (by decide)]
    rw [row_of_eq (idx_col 4096#32 a8 t 0), voc_of_eq (idx_col 50000#32 a9 t 0)]
  · rw [Cert.LibGatherRows.gather_vec_apply _ rfl rfl rfl rfl _ _ t (by decide)]
    rw [voc_of_eq (idx_col 50000#32 a9 t 0)]

/-- The tag's span's log-sum-exp. -/
theorem posLse_at (a8 : Ten Ideal S8192 .i32) (lse : Ten Ideal S4096x1 .f32) (t : Fin 8192) :
    posLse (F := Ideal) a8 lse (ix1 t) = lse (ix2 (Cert.Spec.rowOf (a8 (ix1 t))) (0 : Fin 1)) := by
  unfold posLse
  rw [Cert.LibGatherElem.gather_elem_apply _ rfl rfl rfl rfl rfl rfl _ _ t (by decide) (by decide)]
  rw [row_of_eq ((concatenate_pair_apply_left (t := S8192x2) (s₁ := S8192x1) (s₂ := S8192x1) (1 : Fin 2) _ _
      concatenates_S8192x1_S8192x1_S8192x2_d1 (ix2 t (0 : Fin 2)) rfl (ix2 t (0 : Fin 1))
      (fun b => by match b with | ⟨0, _⟩ => rfl | ⟨1, _⟩ => rfl)).trans (idx_col 4096#32 a8 t 0))]
  exact congrArg (fun z : Fin 1 => lse (ix2 (Cert.Spec.rowOf (a8 (ix1 t))) z)) (Subsingleton.elim _ _)

/-- The positive log-probability of tag `t`: its logit at its own span, less the span's log-sum-exp, capped at zero. -/
theorem posVec_at (xb : Ten Ideal S4096x256 .bf16) (a3 : Ten Ideal S50000x256 .f32) (a4 : Ten Ideal S50000 .f32)
    (a8 a9 : Ten Ideal S8192 .i32) (lse : Ten Ideal S4096x1 .f32) (t : Fin 8192) :
    posVec (F := Ideal) xb a3 a4 a8 a9 lse (ix1 t)
      = min ((((0 : EReal) + ∑ k : Fin 256, xb (ix2 (Cert.Spec.rowOf (a8 (ix1 t))) k) * a3 (ix2 (Cert.Spec.vocOf (a9 (ix1 t))) k))
          + a4 (ix1 (Cert.Spec.vocOf (a9 (ix1 t))))) - lse (ix2 (Cert.Spec.rowOf (a8 (ix1 t))) (0 : Fin 1))) 0 := by
  unfold posVec
  rw [minimumf_apply, subf_apply, posLogit_at, posLse_at, broadcastInDim_scalar_apply, constant_apply, Ideal.ofBits_zero_f32]

end Cert.KernelIdeal.KV

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibRowRead.lean ====
/-
  Reading row-wise operations of an R × C matrix at one index, over the extended reals.

  A reduction over the column axis, read at row r, ranges over the entries (r, c), c < C: with a maximum body it is
  the fold of max from the initial value over them, with an add body the initial value plus their sum. A vector with
  one entry per row, made a column and spread along the rows, reads at (r, c) the vector's entry r; a vector with one
  entry per column, made a row and spread down the columns, reads at (r, c) the vector's entry c.
-/
import Idealize.ShloMosaic.PureOps.Reduce
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.LibRowRead

open Idealize.ShloMosaic Idealize.ShloMosaic.ValueIdx

/-- The row index r with the column coordinate k put back is (r, k). -/
theorem lift_row {R C : Nat} (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  match c with
  | ⟨0, _⟩ => rfl
  | ⟨1, _⟩ => rfl

/-- The host's reduce with a maximum body over the columns, at row r: the fold of max over the row from the initial value. -/
theorem hostReduceMax_row {R C : Nat} (x : FVec Ideal ⟨2, ![R, C]⟩ .f32) (b : BitVec 32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x (constant (F := Ideal) (⟨0, ![]⟩ : Shape) .f32 b) h' hu (ix1 r)
      = (Finset.univ : Finset (Fin C)).fold max (Ideal.ofBits .f32 b) (fun c => x (ix2 r c)) := by
  rw [Host.reduce_eq_fold_single FloatOps.maximumf x _ h' h hu]
  have hf : (x ∘ h.lift (ix1 r)) = fun k : Fin C => x (ix2 r k) := funext fun k => congrArg x (lift_row h r k)
  exact congrArg (fun f => Finset.fold max (Ideal.ofBits .f32 b) f (Finset.univ : Finset (Fin C))) hf

/-- The host's reduce with an add body over the columns, at row r: the initial value plus the row's sum. -/
theorem hostReduceAdd_row {R C : Nat} {φ : FTy} (x : FVec Ideal ⟨2, ![R, C]⟩ φ) (init : (⟨0, ![]⟩ : Shape).Idx → Ideal φ)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd x init h' hu (ix1 r) = init (Shape.Idx.first hu) + ∑ c : Fin C, x (ix2 r c) := by
  rw [hostReduceAdd_apply, Ideal.hostReduceAdd_single h' h]
  refine congrArg (fun s => init (Shape.Idx.first hu) + s) ?_
  exact Finset.sum_congr rfl fun k _ => congrArg x (lift_row h r k)

/-- A vector of n entries made an n × 1 column reads, at (e, 0), its entry e. -/
theorem bcast_column_apply {α : Type} {n : Nat} (h : (⟨1, ![n]⟩ : Shape).BroadcastsInDim (⟨2, ![n, 1]⟩ : Shape) ![0])
    (v : (⟨1, ![n]⟩ : Shape).Idx → α) (e : Fin n) (z : Fin 1) :
    broadcastInDim (⟨2, ![n, 1]⟩ : Shape) ![0] h v (ix2 e z) = v (ix1 e) := by
  refine broadcastInDim_apply _ h v _ (ix1 e) fun a => ?_
  match a with
  | ⟨0, _⟩ =>
    show e.val = if n = 1 then 0 else e.val
    split
    · have := e.isLt; omega
    · rfl

/-- An R × 1 column spread along the rows reads, at (r, c), the column's entry r. -/
theorem bcast_alongRows_apply {α : Type} {R C : Nat} (h2 : (⟨2, ![R, 1]⟩ : Shape).BroadcastsInDim (⟨2, ![R, C]⟩ : Shape) ![0, 1])
    (w : (⟨2, ![R, 1]⟩ : Shape).Idx → α) (r : Fin R) (c : Fin C) :
    broadcastInDim (⟨2, ![R, C]⟩ : Shape) ![0, 1] h2 w (ix2 r c) = w (ix2 r (0 : Fin 1)) := by
  refine broadcastInDim_apply _ h2 w _ (ix2 r (0 : Fin 1)) fun a => ?_
  match a with
  | ⟨0, _⟩ =>
    show r.val = if R = 1 then 0 else r.val
    split
    · have := r.isLt; omega
    · rfl
  | ⟨1, _⟩ => rfl

/-- A vector with one entry per row, made a column and spread along the rows, reads at (r, c) its entry r. -/
theorem bcast_perRow_apply {α : Type} {R C : Nat} (h1 : (⟨1, ![R]⟩ : Shape).BroadcastsInDim (⟨2, ![R, 1]⟩ : Shape) ![0])
    (h2 : (⟨2, ![R, 1]⟩ : Shape).BroadcastsInDim (⟨2, ![R, C]⟩ : Shape) ![0, 1])
    (v : (⟨1, ![R]⟩ : Shape).Idx → α) (r : Fin R) (c : Fin C) :
    broadcastInDim (⟨2, ![R, C]⟩ : Shape) ![0, 1] h2 (broadcastInDim (⟨2, ![R, 1]⟩ : Shape) ![0] h1 v) (ix2 r c) = v (ix1 r) := by
  exact (bcast_alongRows_apply h2 _ r c).trans (bcast_column_apply h1 v r 0)

/-- A vector with one entry per column, made a row and spread down the columns, reads at (r, c) its entry c. -/
theorem bcast_perCol_apply {α : Type} {R C : Nat} (h1 : (⟨1, ![C]⟩ : Shape).BroadcastsInDim (⟨2, ![1, C]⟩ : Shape) ![1])
    (h2 : (⟨2, ![1, C]⟩ : Shape).BroadcastsInDim (⟨2, ![R, C]⟩ : Shape) ![0, 1])
    (v : (⟨1, ![C]⟩ : Shape).Idx → α) (r : Fin R) (c : Fin C) :
    broadcastInDim (⟨2, ![R, C]⟩ : Shape) ![0, 1] h2 (broadcastInDim (⟨2, ![1, C]⟩ : Shape) ![1] h1 v) (ix2 r c) = v (ix1 c) := by
  have hc : ∀ m : Nat, ∀ c : Fin C, c.val = if C = 1 then 0 else c.val := fun _ c => by
    split
    · have := c.isLt; omega
    · rfl
  refine (broadcastInDim_apply _ h2 _ _ (ix2 (0 : Fin 1) c) fun a => ?_).trans
    (broadcastInDim_apply _ h1 v _ (ix1 c) fun a => ?_)
  · match a with
    | ⟨0, _⟩ => rfl
    | ⟨1, _⟩ => exact hc 0 c
  · match a with
    | ⟨0, _⟩ => exact hc 0 c

end Cert.LibRowRead

end
-- ==== Proof.R.Read.lean ====
/-
  The reference program's stages read at one index, over the extended reals.

  The logit of row n at vocabulary entry v is the sum over k of x(n, k) · w(v, k), plus b(v). Row n of the log-softmax
  subtracts from each logit the row's maximum M (folded from minus infinity) and then the logarithm of the sum of the
  exponentials of the shifted logits. A target tag t reads that table at the row its span word selects and the entry
  its tag word selects, each word counted from the end when negative and clipped into its axis.
-/
import proofs.«430166_j43576738185611_3_alg».proof.Proof.R.Stages
import proofs.«430166_j43576738185611_3_alg».proof.Proof.Spec
import proofs.«430166_j43576738185611_3_alg».proof.Proof.LibDot
import proofs.«430166_j43576738185611_3_alg».proof.Proof.LibGatherElem
import proofs.«430166_j43576738185611_3_alg».proof.Proof.LibRowRead
import Idealize.ShloMosaic.Lib.ValueLayout
import Idealize.ShloMosaic.Lib.IdealHost

noncomputable section

open scoped BigOperators

namespace Cert.ReferenceIdeal.HRead

open Cert.ReferenceIdeal Cert.ReferenceIdeal.Gen Idealize.ShloMosaic Idealize.ShloMosaic.ValueIdx

/-- The host's exponential at an index is the exponential of the entry. -/
theorem hostExp_apply {s : Shape} {φ : FTy} (w : FVec Ideal s φ) (i : s.Idx) : Host.exp w i = Ideal.exp (w i) := rfl

/-- The host's logarithm at an index is the logarithm of the entry. -/
theorem hostLog_apply {s : Shape} {φ : FTy} (w : FVec Ideal s φ) (i : s.Idx) : Host.log w i = Ideal.log (w i) := rfl

/-- The logits at (n, v): the row of x against the row of the weight table, plus the bias entry. -/
theorem logits_at (x : HR.Ten Ideal S4096x256 .f32) (a3 : HR.Ten Ideal S50000x256 .f32) (a4 : HR.Ten Ideal S50000 .f32)
    (n : Fin 4096) (v : Fin 50000) :
    HR.logits (F := Ideal) x a3 a4 (ix2 n v)
      = Cert.Spec.logit (fun n k => x (ix2 n k)) (fun v k => a3 (ix2 v k)) (fun v => a4 (ix1 v)) n v := by
  unfold HR.logits Cert.Spec.logit
  rw [addf_apply, Cert.LibRowRead.bcast_perCol_apply]
  simp only [Host.dotGeneral]
  rw [Cert.LibDot.dotGeneral_at _ rfl rfl rfl rfl rfl rfl]
  refine congrArg (fun s => s + a4 (ix1 v)) ?_
  exact Finset.sum_congr rfl fun k _ => by rw [transpose_ix2_apply]

/-- The row maximum at row n. -/
theorem rowMax_at (z : HR.Ten Ideal S4096x50000 .f32) (n : Fin 4096) :
    HR.rowMax (F := Ideal) z (ix1 n) = Cert.Spec.rowMax (fun v => z (ix2 n v)) := by
  unfold HR.rowMax Cert.Spec.rowMax
  rw [maximumf_apply, broadcastInDim_scalar_apply, constant_apply,
    Cert.LibRowRead.hostReduceMax_row z _ reducesTo_S4096x50000_S4096_d1 (by decide) h_S_ n]

/-- The shifted logits at (n, v). -/
theorem shifted_at (z : HR.Ten Ideal S4096x50000 .f32) (n : Fin 4096) (v : Fin 50000) :
    HR.shifted (F := Ideal) z (ix2 n v) = z (ix2 n v) - Cert.Spec.rowMax (fun v' => z (ix2 n v')) := by
  unfold HR.shifted
  rw [subf_apply, Cert.LibRowRead.bcast_perRow_apply, rowMax_at]

/-- The log-softmax at (n, v). -/
theorem logp_at (z : HR.Ten Ideal S4096x50000 .f32) (n : Fin 4096) (v : Fin 50000) :
    HR.logp (F := Ideal) z (ix2 n v) = Cert.Spec.posPlain (fun v' => z (ix2 n v')) v := by
  unfold HR.logp Cert.Spec.posPlain
  rw [subf_apply, shifted_at, Cert.LibRowRead.bcast_alongRows_apply, hostLog_apply, Cert.LibRowRead.bcast_column_apply,
    Cert.LibRowRead.hostReduceAdd_row _ _ reducesTo_S4096x50000_S4096_d1 (by decide) h_S_ n, constant_apply,
    Ideal.ofBits_zero_f32]
  refine congrArg (fun s => (z (ix2 n v) - Cert.Spec.rowMax fun v' => z (ix2 n v')) - Ideal.log (0 + s)) ?_
  exact Finset.sum_congr rfl fun c _ => by rw [hostExp_apply, shifted_at]

/-- A wrapped position word at t. -/
theorem wrap8192_at (k : BitVec 32) (a : HR.Ten Ideal S8192 .i32) (t : Fin 8192) :
    HR.wrap8192 (F := Ideal) k a (ix1 t) = Cert.Spec.wrapWord k (a (ix1 t)) := rfl

/-- The gathered entry at target t: the table at the row and the vocabulary entry the two words select. -/
theorem posVec_read (lp : HR.Ten Ideal S4096x50000 .f32) (a8 a9 : HR.Ten Ideal S8192 .i32) (t : Fin 8192) :
    HR.posVec (F := Ideal) lp a8 a9 (ix1 t)
      = lp (ix2 (Cert.Spec.rowOf (a8 (ix1 t))) (Cert.Spec.vocOf (a9 (ix1 t)))) := by
  unfold HR.posVec
  rw [Cert.LibGatherElem.gather_elem_apply _ rfl rfl rfl rfl rfl rfl lp _ t (by decide) (by decide)]
  have h0 : ∀ (A B : IVec S8192x1 32),
      concatenate S8192x2 1 [⟨S8192x1, A⟩, ⟨S8192x1, B⟩] concatenates_S8192x1_S8192x1_S8192x2_d1 (ix2 t (0 : Fin 2))
        = A (ix2 t (0 : Fin 1)) := fun A B =>
    concatenate_pair_apply_left (t := S8192x2) (s₁ := S8192x1) (s₂ := S8192x1) (1 : Fin 2) A B concatenates_S8192x1_S8192x1_S8192x2_d1 _ rfl (ix2 t (0 : Fin 1))
      fun b => match b with | ⟨0, _⟩ => rfl | ⟨1, _⟩ => rfl
  have h1 : ∀ (A B : IVec S8192x1 32),
      concatenate S8192x2 1 [⟨S8192x1, A⟩, ⟨S8192x1, B⟩] concatenates_S8192x1_S8192x1_S8192x2_d1 (ix2 t (1 : Fin 2))
        = B (ix2 t (0 : Fin 1)) := fun A B =>
    concatenate_pair_apply_right (t := S8192x2) (s₁ := S8192x1) (s₂ := S8192x1) (1 : Fin 2) A B concatenates_S8192x1_S8192x1_S8192x2_d1 _ rfl rfl (ix2 t (0 : Fin 1))
      (fun b hb => match b, hb with | ⟨0, _⟩, _ => rfl | ⟨1, _⟩, hb => absurd rfl hb) rfl
  refine congrArg lp ?_
  funext a
  match a with
  | ⟨0, _⟩ =>
    refine Fin.ext ?_
    show min (_ : BitVec 32).toInt.toNat (4096 - 1) = min (Cert.Spec.wrapWord 4096#32 (a8 (ix1 t))).toInt.toNat (4096 - 1)
    rw [h0, Cert.LibRowRead.bcast_column_apply, wrap8192_at]
  | ⟨1, _⟩ =>
    refine Fin.ext ?_
    show min (_ : BitVec 32).toInt.toNat (50000 - 1) = min (Cert.Spec.wrapWord 50000#32 (a9 (ix1 t))).toInt.toNat (50000 - 1)
    rw [h1, Cert.LibRowRead.bcast_column_apply, wrap8192_at]

/-- The reference's gathered log-probability at target t, as the textbook entry of the logits' row. -/
theorem posVec_at (x : HR.Ten Ideal S4096x256 .f32) (a3 : HR.Ten Ideal S50000x256 .f32) (a4 : HR.Ten Ideal S50000 .f32)
    (a8 a9 : HR.Ten Ideal S8192 .i32) (t : Fin 8192) :
    HR.posVec (F := Ideal) (HR.logp (HR.logits x a3 a4)) a8 a9 (ix1 t)
      = Cert.Spec.posPlain
          (fun v => Cert.Spec.logit (fun n k => x (ix2 n k)) (fun v k => a3 (ix2 v k)) (fun v => a4 (ix1 v))
            (Cert.Spec.rowOf (a8 (ix1 t))) v)
          (Cert.Spec.vocOf (a9 (ix1 t))) := by
  rw [posVec_read, logp_at]
  refine congrArg (fun z => Cert.Spec.posPlain z (Cert.Spec.vocOf (a9 (ix1 t)))) ?_
  funext v
  exact logits_at x a3 a4 _ v

end Cert.ReferenceIdeal.HRead

end
-- ==== Proof.Br.Same.lean ====
/-
  The two programs share their first stretch and their last. Before the vocabulary projection both compute the same
  span features through the first linear layer and tanh, and after the gathered target log-probabilities both apply the
  same focal-loss reduction: operation for operation the same functions of the same arguments, at any float instance.
-/
import proofs.«430166_j43576738185611_3_alg».proof.Proof.R.Stages
import proofs.«430166_j43576738185611_3_alg».proof.Proof.KV.Stages

namespace Cert.Bridge

open Idealize.ShloMosaic Cert.KernelIdeal Cert.KernelIdeal.KV

variable {F : FTy → Type} [FloatOps F]

/-- The kernel program's first stage — the span features times `W1ᵀ`, plus `b1`, through tanh — is the reference's. -/
theorem xval_same (a0 : Ten F S2048x16x1024 .f32) (a1 : Ten F S256x1024 .f32) (a2 : Ten F S256 .f32)
    (a5 a6 a7 : Ten F S4096 .i32) :
    Cert.KernelIdeal.KV.xval (F := F) a0 a1 a2 a5 a6 a7 = Cert.ReferenceIdeal.HR.xval (F := F) a0 a1 a2 a5 a6 a7 := rfl

/-- The kernel program's last stage — the focal loss summed over the tags and divided by their count — is the
    reference's. -/
theorem tail_same (p : Ten F S8192 .f32) :
    Cert.KernelIdeal.KV.tail (F := F) p = Cert.ReferenceIdeal.HR.tail (F := F) p := rfl

end Cert.Bridge
-- ==== Proof.Br.Brow.lean ====
/-
  Two readings of the kernel program's host side at an index. The bias laid out as one row of 50000 entries holds, at
  column v, the bias's entry v; and at the ideal instance rounding the features to bf16 changes nothing, a format change
  being the identity on extended reals.
-/
import proofs.«430166_j43576738185611_3_alg».proof.Proof.KV.Stages
import Idealize.ShloMosaic.Lib.Pipeline.Value
import Idealize.ShloMosaic.Lib.ValueIdx
import Idealize.ShloMosaic.PureOps.Ideal

namespace Cert.Bridge

open Idealize.ShloMosaic Cert.KernelIdeal Cert.KernelIdeal.KV

/-- The bias as a row, read at (0, v), is the bias at v: the two indices have the same row-major position. -/
theorem brow_at {F : FTy → Type} [FloatOps F] (a4 : Ten F S50000 .f32) (v : Fin 50000) :
    Cert.KernelIdeal.KV.brow (F := F) a4 (ValueIdx.ix2 (0 : Fin 1) v) = a4 (ValueIdx.ix1 v) := by
  unfold Cert.KernelIdeal.KV.brow
  refine shapeCast_apply a4 _ (ValueIdx.ix2 (0 : Fin 1) v) (ValueIdx.ix1 v) ?_
  rw [Shape.rowMajor_val_one, Shape.rowMajor_val_two]
  simp

/-- At the ideal instance the features rounded to bf16 are the features, entry by entry. -/
theorem xbf_id (x : Ten Ideal S4096x256 .f32) (i : S4096x256.Idx) :
    Cert.KernelIdeal.KV.xbf (F := Ideal) x i = x i := rfl

end Cert.Bridge
-- ==== Proof.Br.Finite.lean ====
/-
  The precondition gives real entries. The printed predicate is the conjunction, over the five float inputs, of
  "every entry's absolute value is below +∞"; where it is all ones, every entry of the output weight and of the
  output bias is an extended real that is neither infinity, that is, a real number.
-/
import proofs.«430166_j43576738185611_3_alg».proof.Pre_finite_inputs
import proofs.«430166_j43576738185611_3_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

namespace Cert.Bridge

open Idealize.ShloMosaic Cert.Pre_finite_inputs Cert.Pre_finite_inputs.Gen

/-- The word 0x7F800000 encodes +∞. -/
theorem inf_word : Ideal.ofBits .f32 0x7F800000#32 = (⊤ : EReal) := by simp [Ideal.ofBits, Ideal.ieee]

/-- An extended real whose absolute value compares below +∞ is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_word] at h'
  induction x using EReal.rec with
  | bot => exact absurd h' (by simp [Ideal.cmp])
  | top => exact absurd h' (by simp [Ideal.cmp])
  | coe r => exact ⟨r, rfl⟩

/-- The scalar shape has one index. -/
instance : Subsingleton S_.Idx := ⟨fun a b => funext fun d => d.elim0⟩

/-- `jnp.all(|a| < +∞)` read back: where the and-reduction over all axes of the comparison of `|a|` with the
    broadcast +∞ is 1, every entry of `a` is a real number. -/
theorem all_real {s : Shape} {axes : List (Fin s.rank)} (hb : S_.BroadcastsInDim s (![] : Fin 0 → Fin s.rank))
    (hr : s.ReducesTo axes S_) (hu : 0 < S_.numel) (a : FVec Ideal s .f32)
    (e : Host.reduce IntOp.andi
        (cmpf .olt (Host.absf a) (broadcastInDim s ![] hb (constant (F := Ideal) S_ .f32 0x7F800000#32)))
        (constantI S_ 1 1#1) hr hu ValueIdx.ix0 = 1#1) (i : s.Idx) : ∃ r : ℝ, a i = (r : EReal) :=
  real_of_abs_lt_inf (a i) (Host.reduce_andi_all _ _ hr hu ValueIdx.ix0 e i)

variable (a0 : FVec Ideal S2048x16x1024 .f32) (a1 : FVec Ideal S256x1024 .f32) (a2 : FVec Ideal S256 .f32)
  (a3 : FVec Ideal S50000x256 .f32) (a4 : FVec Ideal S50000 .f32) (a5 a6 a7 : IVec S4096 32) (a8 a9 : IVec S8192 32)

/-- Where the printed predicate is all ones, its last two conjuncts hold: the all-finite test of the output weight
    and that of the output bias are both 1. -/
theorem last_two (h : Cert.Pre_finite_inputs.fn (F := Ideal) a0 a1 a2 a3 a4 a5 a6 a7 a8 a9 = fun _ => 1#1) :
    Host.reduce IntOp.andi
        (cmpf .olt (Host.absf a3)
          (broadcastInDim S50000x256 ![] bcast_S_S50000x256 (constant (F := Ideal) S_ .f32 0x7F800000#32)))
        (constantI S_ 1 1#1) reducesTo_S50000x256_S_d0_1 h_S_ ValueIdx.ix0 = 1#1
    ∧ Host.reduce IntOp.andi
        (cmpf .olt (Host.absf a4)
          (broadcastInDim S50000 ![] bcast_S_S50000 (constant (F := Ideal) S_ .f32 0x7F800000#32)))
        (constantI S_ 1 1#1) reducesTo_S50000_S_d0 h_S_ ValueIdx.ix0 = 1#1 := by
  have h0 := congrFun h ValueIdx.ix0
  dsimp only [Cert.Pre_finite_inputs.fn, Cert.Pre_finite_inputs.fn_part1, andi] at h0
  obtain ⟨h1, hb2⟩ := IntOp.andi_eq_one.1 h0
  obtain ⟨_, hw2⟩ := IntOp.andi_eq_one.1 h1
  exact ⟨hw2, hb2⟩

/-- Under the precondition every entry of the output weight (50000 × 256) is a real number. -/
theorem w2_real (h : Cert.Pre_finite_inputs.fn (F := Ideal) a0 a1 a2 a3 a4 a5 a6 a7 a8 a9 = fun _ => 1#1) :
    ∀ i, ∃ r : ℝ, a3 i = (r : EReal) :=
  all_real bcast_S_S50000x256 reducesTo_S50000x256_S_d0_1 h_S_ a3 (last_two a0 a1 a2 a3 a4 a5 a6 a7 a8 a9 h).1

/-- Under the precondition every entry of the output bias (50000) is a real number. -/
theorem b2_real (h : Cert.Pre_finite_inputs.fn (F := Ideal) a0 a1 a2 a3 a4 a5 a6 a7 a8 a9 = fun _ => 1#1) :
    ∀ i, ∃ r : ℝ, a4 i = (r : EReal) :=
  all_real bcast_S_S50000 reducesTo_S50000_S_d0 h_S_ a4 (last_two a0 a1 a2 a3 a4 a5 a6 a7 a8 a9 h).2

end Cert.Bridge
-- ==== Proof.Br.XReal.lean ====
/-
  Every entry of a hyperbolic tangent is a real number. At the ideal instance a float is an extended real, and the
  host's tanh sends -∞ to -1, +∞ to 1 and a real number r to tanh r: whatever its argument, the value is finite.
-/
import Idealize.ShloMosaic.PureOps.Ideal
import Idealize.ShloMosaic.PureOps.Vector
import proofs.«430166_j43576738185611_3_alg».proof.Proof.KV.Stages

namespace Cert.Bridge

open Idealize.ShloMosaic

/-- The ideal tanh of an extended real is a real number: -1 at -∞, 1 at +∞, `Real.tanh r` at a real `r`. -/
theorem ideal_tanh_real (x : EReal) : ∃ r : ℝ, Ideal.tanh x = (r : EReal) := by
  induction x using EReal.rec with
  | bot => exact ⟨-1, by rw [EReal.coe_neg, EReal.coe_one]; rfl⟩
  | top => exact ⟨1, by rw [EReal.coe_one]; rfl⟩
  | coe r => exact ⟨Real.tanh r, rfl⟩

/-- Every entry of the host's tanh of an ideal vector is a real number, whatever the vector holds. -/
theorem host_tanh_real {s : Shape} (v : FVec Ideal s .f32) (i : s.Idx) : ∃ r : ℝ, Host.tanh v i = (r : EReal) :=
  ideal_tanh_real (v i)

open Cert.KernelIdeal Cert.KernelIdeal.KV in
/-- The kernel program's features are a tanh, so each of their 4096 × 256 entries is a real number, whatever the
    inputs hold. -/
theorem xval_real (a0 : Ten Ideal S2048x16x1024 .f32) (a1 : Ten Ideal S256x1024 .f32) (a2 : Ten Ideal S256 .f32)
    (a5 a6 a7 : Ten Ideal S4096 .i32) (i : S4096x256.Idx) :
    ∃ r : ℝ, Cert.KernelIdeal.KV.xval (F := Ideal) a0 a1 a2 a5 a6 a7 i = (r : EReal) := by
  unfold Cert.KernelIdeal.KV.xval
  exact host_tanh_real _ i

end Cert.Bridge
-- ==== Proof.SpecMath.lean ====
/-
  The two ways of taking the logarithm of a softmax entry agree on real logits.

  Write S = ∑ v', exp z(v').  The textbook entry is (z(v) − M) − log ∑ v', exp(z(v') − M) = z(v) − log S for any real
  shift M.  The tiled walk keeps, after j tiles, a real m_j and l_j = ∑ over the entries seen so far of exp(z − m_j):
  rescaling by exp(m_j − m_{j+1}) moves the old sum to the new maximum.  After the last tile m + log l = log S, and
  z(v) − log S ≤ 0 because exp z(v) is one of the summands of S, so capping at 0 changes nothing.
-/
import proofs.«430166_j43576738185611_3_alg».proof.Proof.Spec
import Mathlib.Analysis.SpecialFunctions.Log.Basic
import Mathlib.Algebra.BigOperators.Fin
import Mathlib.Data.Fintype.BigOperators

noncomputable section

open scoped BigOperators

namespace Cert.Spec

open Idealize.ShloMosaic

/-! ## The two float patterns -/

/-- The pattern of the negative infinity denotes −∞. -/
theorem negInf_eq : Ideal.ofBits .f32 0xFF800000#32 = (⊥ : EReal) := by
  simp [Ideal.ofBits, Ideal.ieee]

/-- The running maximum's starting value is a real number. -/
theorem negBig_real : ∃ r : ℝ, negBig = (r : EReal) := by
  unfold negBig
  simp [Ideal.ofBits, Ideal.ieee]
  exact ⟨_, rfl⟩

/-! ## Real readings inside the extended reals -/

/-- A finite sum of reals read in the extended reals is the sum of the readings. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The larger of two real readings is the reading of the larger real. -/
theorem coe_max (a b : ℝ) : max (a : EReal) (b : EReal) = ((max a b : ℝ) : EReal) :=
  (EReal.coe_strictMono.monotone.map_max).symm

/-- The running maximum of real readings over a finite set, started at −∞, is −∞ or a real number. -/
theorem fold_max_bot_or_real {ι : Type} (s : Finset ι) (ζ : ι → ℝ) :
    s.fold max (⊥ : EReal) (fun c => (ζ c : EReal)) = ⊥ ∨
      ∃ r : ℝ, s.fold max (⊥ : EReal) (fun c => (ζ c : EReal)) = (r : EReal) := by
  classical
  refine Finset.induction_on s (Or.inl (by simp)) ?_
  intro a s ha ih
  right
  rw [Finset.fold_insert ha]
  rcases ih with h | ⟨r, h⟩
  · exact ⟨ζ a, by rw [h, max_bot_right]⟩
  · exact ⟨max (ζ a) r, by rw [h, coe_max]⟩

/-- Over a nonempty finite set it is a real number. -/
theorem fold_max_real {ι : Type} (s : Finset ι) (hs : s.Nonempty) (ζ : ι → ℝ) :
    ∃ r : ℝ, s.fold max (⊥ : EReal) (fun c => (ζ c : EReal)) = (r : EReal) := by
  classical
  obtain ⟨a, ha⟩ := hs
  rw [← Finset.insert_erase ha, Finset.fold_insert (Finset.notMem_erase a s)]
  rcases fold_max_bot_or_real (s.erase a) ζ with h | ⟨r, h⟩
  · exact ⟨ζ a, by rw [h, max_bot_right]⟩
  · exact ⟨max (ζ a) r, by rw [h, coe_max]⟩

/-- A tile's update of a real running maximum, over real logits, is a real number. -/
theorem mStep_real (m : ℝ) (ζ : Fin 10000 → ℝ) :
    ∃ r : ℝ, mStep (m : EReal) (fun c => (ζ c : EReal)) = (r : EReal) := by
  unfold mStep
  rw [negInf_eq]
  rcases fold_max_bot_or_real Finset.univ ζ with h | ⟨r, h⟩
  · exact ⟨m, by rw [h, max_bot_right]⟩
  · exact ⟨max m r, by rw [h, coe_max]⟩

/-- The textbook row maximum of real logits is a real number. -/
theorem rowMax_real (ζ : Fin 50000 → ℝ) : ∃ r : ℝ, rowMax (fun v => (ζ v : EReal)) = (r : EReal) := by
  unfold rowMax
  rw [negInf_eq, max_bot_left]
  exact fold_max_real Finset.univ ⟨⟨0, by norm_num⟩, Finset.mem_univ _⟩ ζ

/-- A tile's update of a real running sum: the old sum rescaled plus the tile's shifted exponentials. -/
theorem lStep_real (μ l μ' : ℝ) (ζ : Fin 10000 → ℝ) (hm : mStep (μ : EReal) (fun c => (ζ c : EReal)) = (μ' : EReal)) :
    lStep (μ : EReal) (l : EReal) (fun c => (ζ c : EReal)) =
      ((l * Real.exp (μ - μ') + ∑ c : Fin 10000, Real.exp (ζ c - μ') : ℝ) : EReal) := by
  unfold lStep
  rw [hm]
  simp only [← EReal.coe_sub, Ideal.exp_coe]
  rw [← coe_sum, ← EReal.coe_mul, ← EReal.coe_add]

/-! ## The tiles cover the vocabulary -/

/-- A vocabulary entry v is entry (v mod 10000) of tile (v / 10000). -/
def tileEquiv : Fin 5 × Fin 10000 ≃ Fin 50000 where
  toFun p := tileIdx p.1 p.2
  invFun v := (⟨v.val / 10000, by have := v.isLt; omega⟩, ⟨v.val % 10000, Nat.mod_lt _ (by norm_num)⟩)
  left_inv := by
    rintro ⟨j, c⟩
    have := j.isLt; have := c.isLt
    ext <;> simp only [tileIdx] <;> omega
  right_inv := by
    intro v
    have := v.isLt
    ext; simp only [tileIdx]; omega

/-- A sum over the vocabulary is the sum over the tiles of the sums over each tile. -/
theorem sum_tiles (f : Fin 50000 → ℝ) : ∑ v : Fin 50000, f v = ∑ j : Fin 5, ∑ c : Fin 10000, f (tileIdx j c) := by
  rw [← Equiv.sum_comp tileEquiv f, Fintype.sum_prod_type]
  rfl

/-- The shifted exponentials summed over tile i (zero past the last tile). -/
def tileSum (ζ : Fin 50000 → ℝ) (i : ℕ) (μ : ℝ) : ℝ :=
  if h : i < 5 then ∑ c : Fin 10000, Real.exp (ζ (tileIdx ⟨i, h⟩ c) - μ) else 0

/-- Rescaling by exp(μ − μ') moves a tile's sum from the shift μ to the shift μ'. -/
theorem tileSum_rescale (ζ : Fin 50000 → ℝ) (i : ℕ) (μ μ' : ℝ) :
    tileSum ζ i μ * Real.exp (μ - μ') = tileSum ζ i μ' := by
  unfold tileSum
  split
  · rw [Finset.sum_mul]
    refine Finset.sum_congr rfl fun c _ => ?_
    rw [← Real.exp_add]
    congr 1
    ring
  · simp

/-- All five tiles' sums together are the sum over the vocabulary. -/
theorem range_tileSum (ζ : Fin 50000 → ℝ) (μ : ℝ) :
    ∑ i ∈ Finset.range 5, tileSum ζ i μ = ∑ v : Fin 50000, Real.exp (ζ v - μ) := by
  rw [sum_tiles, Finset.sum_range]
  refine Finset.sum_congr rfl fun i _ => ?_
  unfold tileSum
  rw [dif_pos i.isLt]

/-! ## The running pair -/

/-- After j tiles the running pair is a real μ and the first j tiles' exponentials shifted by μ. -/
theorem runPair_eq (ζ : Fin 50000 → ℝ) : ∀ (j : ℕ) (h : j ≤ 5), ∃ μ : ℝ,
    runPair (fun v => (ζ v : EReal)) j h = ((μ : EReal), ((∑ i ∈ Finset.range j, tileSum ζ i μ : ℝ) : EReal))
  | 0, _ => by
    obtain ⟨r, hr⟩ := negBig_real
    exact ⟨r, by simp [runPair, hr]⟩
  | j + 1, h => by
    obtain ⟨μ, hμ⟩ := runPair_eq ζ j (Nat.le_of_succ_le h)
    obtain ⟨μ', hμ'⟩ := mStep_real μ (fun c => ζ (tileIdx ⟨j, h⟩ c))
    refine ⟨μ', ?_⟩
    rw [runPair]
    simp only [hμ]
    rw [lStep_real μ _ μ' _ hμ', hμ']
    have hold : (∑ i ∈ Finset.range j, tileSum ζ i μ) * Real.exp (μ - μ') = ∑ i ∈ Finset.range j, tileSum ζ i μ' := by
      rw [Finset.sum_mul]
      exact Finset.sum_congr rfl fun i _ => tileSum_rescale ζ i μ μ'
    have hnew : ∑ c : Fin 10000, Real.exp (ζ (tileIdx ⟨j, h⟩ c) - μ') = tileSum ζ j μ' := by
      unfold tileSum
      rw [dif_pos (Nat.lt_of_succ_le h)]
    rw [hold, hnew, ← Finset.sum_range_succ]

/-! ## Both entries as one real number -/

/-- The sum of the exponentials of real logits is positive. -/
theorem sum_exp_pos (ζ : Fin 50000 → ℝ) : 0 < ∑ v : Fin 50000, Real.exp (ζ v) :=
  Finset.sum_pos (fun v _ => Real.exp_pos _) ⟨⟨0, by norm_num⟩, Finset.mem_univ _⟩

/-- The exponentials shifted by μ sum to the unshifted sum over exp μ. -/
theorem sum_shifted (ζ : Fin 50000 → ℝ) (μ : ℝ) :
    ∑ v : Fin 50000, Real.exp (ζ v - μ) = (∑ v : Fin 50000, Real.exp (ζ v)) / Real.exp μ := by
  simp only [Real.exp_sub]
  rw [← Finset.sum_div]

/-- The shifted sum is positive. -/
theorem sum_shifted_pos (ζ : Fin 50000 → ℝ) (μ : ℝ) : 0 < ∑ v : Fin 50000, Real.exp (ζ v - μ) := by
  rw [sum_shifted]
  exact div_pos (sum_exp_pos ζ) (Real.exp_pos μ)

/-- Its logarithm is the unshifted sum's logarithm less the shift. -/
theorem log_shifted (ζ : Fin 50000 → ℝ) (μ : ℝ) :
    Real.log (∑ v : Fin 50000, Real.exp (ζ v - μ)) = Real.log (∑ v : Fin 50000, Real.exp (ζ v)) - μ := by
  rw [sum_shifted, Real.log_div (sum_exp_pos ζ).ne' (Real.exp_pos μ).ne', Real.log_exp]

/-- The tiled walk's value for a row of real logits is log ∑ exp. -/
theorem lseTiled_eq (ζ : Fin 50000 → ℝ) :
    lseTiled (fun v => (ζ v : EReal)) = ((Real.log (∑ v : Fin 50000, Real.exp (ζ v)) : ℝ) : EReal) := by
  obtain ⟨μ, hμ⟩ := runPair_eq ζ 5 le_rfl
  unfold lseTiled
  rw [hμ]
  simp only
  rw [range_tileSum, Ideal.log_coe, if_neg (not_le.mpr (sum_shifted_pos ζ μ)), log_shifted, ← EReal.coe_add]
  exact congrArg Real.toEReal (by ring)

/-- The textbook entry for a row of real logits is the logit less log ∑ exp. -/
theorem posPlain_eq (ζ : Fin 50000 → ℝ) (v : Fin 50000) :
    posPlain (fun v => (ζ v : EReal)) v = ((ζ v - Real.log (∑ v' : Fin 50000, Real.exp (ζ v')) : ℝ) : EReal) := by
  obtain ⟨M, hM⟩ := rowMax_real ζ
  unfold posPlain
  rw [hM]
  simp only [← EReal.coe_sub, Ideal.exp_coe]
  rw [← coe_sum, zero_add, Ideal.log_coe, if_neg (not_le.mpr (sum_shifted_pos ζ M)), log_shifted, ← EReal.coe_sub]
  exact congrArg Real.toEReal (by ring)

/-- Each logit is at most log ∑ exp: its exponential is one of the summands. -/
theorem le_log_sum (ζ : Fin 50000 → ℝ) (v : Fin 50000) : ζ v ≤ Real.log (∑ v' : Fin 50000, Real.exp (ζ v')) := by
  rw [Real.le_log_iff_exp_le (sum_exp_pos ζ)]
  exact Finset.single_le_sum (f := fun v' => Real.exp (ζ v')) (fun i _ => (Real.exp_pos _).le) (Finset.mem_univ v)

/-- Where every logit is a real number the two entries agree. -/
theorem pos_eq (z : Fin 50000 → EReal) (hz : ∀ v, ∃ r : ℝ, z v = (r : EReal)) (v : Fin 50000) :
    posTiled z v = posPlain z v := by
  choose ζ hζ using hz
  obtain rfl : z = fun v => (ζ v : EReal) := funext hζ
  rw [posPlain_eq]
  unfold posTiled
  rw [lseTiled_eq, ← EReal.coe_sub]
  exact min_eq_left (by exact_mod_cast sub_nonpos.mpr (le_log_sum ζ v))

/-- A logit of real operands is a real number. -/
theorem logit_real (x : Fin 4096 → Fin 256 → EReal) (w : Fin 50000 → Fin 256 → EReal) (b : Fin 50000 → EReal)
    (hx : ∀ n k, ∃ r : ℝ, x n k = (r : EReal)) (hw : ∀ v k, ∃ r : ℝ, w v k = (r : EReal)) (hb : ∀ v, ∃ r : ℝ, b v = (r : EReal))
    (n : Fin 4096) (v : Fin 50000) : ∃ r : ℝ, logit x w b n v = (r : EReal) := by
  choose ξ hξ using hx
  choose ω hω using hw
  choose β hβ using hb
  refine ⟨(∑ k : Fin 256, ξ n k * ω v k) + β v, ?_⟩
  unfold logit
  rw [EReal.coe_add, coe_sum, hβ]
  congr 1
  refine Finset.sum_congr rfl fun k _ => ?_
  rw [hξ, hω, EReal.coe_mul]

end Cert.Spec

end
-- ==== Proof.Bridge.lean ====
/-
  The two programs' results are one number.

  Both end in the same reduction of a vector p of 8192 target log-probabilities (exp, one minus, power one, negate,
  times p, sum, divide), so it is enough that the two vectors agree entry by entry.  At target t, with n the row its
  span word selects and v the entry its tag word selects, the tiled program's entry is
  min(z(n, v) − (m + log l), 0), where (m, l) is the running pair after the five vocabulary tiles of row n, and the
  textbook program's is (z(n, v) − M) − log ∑ exp(z(n, ·) − M); z is the same table of logits on both sides, because
  the features x are computed by the same operations (rounding them is the identity over the extended reals), the
  weights are the same array and the bias row is the bias vector laid out as one row.  The logits are real numbers —
  the features are values of tanh, the weights and the bias are finite by the precondition — and on real logits the
  two entries agree.
-/
import proofs.«430166_j43576738185611_3_alg».proof.Proof.KV.HostRun
import proofs.«430166_j43576738185611_3_alg».proof.Proof.KV.Prefix
import proofs.«430166_j43576738185611_3_alg».proof.Proof.KV.Lse
import proofs.«430166_j43576738185611_3_alg».proof.Proof.KV.Read
import proofs.«430166_j43576738185611_3_alg».proof.Proof.R.Read
import proofs.«430166_j43576738185611_3_alg».proof.Proof.Br.Same
import proofs.«430166_j43576738185611_3_alg».proof.Proof.Br.Brow
import proofs.«430166_j43576738185611_3_alg».proof.Proof.Br.Finite
import proofs.«430166_j43576738185611_3_alg».proof.Proof.Br.XReal
import proofs.«430166_j43576738185611_3_alg».proof.Proof.SpecMath

noncomputable section

open scoped BigOperators

namespace Cert.Bridge

open Idealize.ShloMosaic Idealize.ShloMosaic.TcCoe Idealize.ShloMosaic.ValueIdx Idealize.SL.Sem
open Cert.KernelIdeal

/-- An index of a vector of 8192 entries is its one coordinate. -/
theorem idx8192 (i : S8192.Idx) : ∃ t : Fin 8192, i = ix1 t :=
  ⟨i 0, funext fun a => by match a with | ⟨0, _⟩ => rfl⟩

variable (m : (ℓ : Loc nD τ sig) → Buf (Elt Ideal) ℓ)

/-- The tiled program's vector of target log-probabilities is the textbook program's, where the float inputs are finite. -/
theorem posVec_eq (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) = fun _ => 1#1) :
    KV.posVec (F := Ideal) (HF.V m c main_v40) (m ((c.tc : Thread nD τ).loc main_arg3)) (m ((c.tc : Thread nD τ).loc main_arg4))
        (m ((c.tc : Thread nD τ).loc main_arg8)) (m ((c.tc : Thread nD τ).loc main_arg9)) ((HF.dats m 0 c).arrAt 3 cfg0.N)
      = Cert.ReferenceIdeal.HR.posVec (F := Ideal)
          (Cert.ReferenceIdeal.HR.logp (Cert.ReferenceIdeal.HR.logits
            (Cert.ReferenceIdeal.HR.xval (m ((c.tc : Thread nD τ).loc main_arg0)) (m ((c.tc : Thread nD τ).loc main_arg1))
              (m ((c.tc : Thread nD τ).loc main_arg2)) (m ((c.tc : Thread nD τ).loc main_arg5)) (m ((c.tc : Thread nD τ).loc main_arg6))
              (m ((c.tc : Thread nD τ).loc main_arg7)))
            (m ((c.tc : Thread nD τ).loc main_arg3)) (m ((c.tc : Thread nD τ).loc main_arg4))))
          (m ((c.tc : Thread nD τ).loc main_arg8)) (m ((c.tc : Thread nD τ).loc main_arg9)) := by
  funext i
  obtain ⟨t, rfl⟩ := idx8192 i
  rw [KV.posVec_at, Cert.ReferenceIdeal.HRead.posVec_at, KV.lse_arr]
  -- the rounded features the region finds are the textbook program's features
  have hx : ∀ (n : Fin 4096) (k : Fin 256), HF.V m c main_v40 (ix2 n k)
      = Cert.ReferenceIdeal.HR.xval (F := Ideal) (m ((c.tc : Thread nD τ).loc main_arg0)) (m ((c.tc : Thread nD τ).loc main_arg1))
          (m ((c.tc : Thread nD τ).loc main_arg2)) (m ((c.tc : Thread nD τ).loc main_arg5)) (m ((c.tc : Thread nD τ).loc main_arg6))
          (m ((c.tc : Thread nD τ).loc main_arg7)) (ix2 n k) := fun n k => by
    rw [KV.V_v40 m c, xbf_id, xval_same]
  -- the bias row the region finds is the bias vector
  have hb : ∀ v : Fin 50000, HF.V m c main_v41 (ix2 (0 : Fin 1) v) = m ((c.tc : Thread nD τ).loc main_arg4) (ix1 v) := fun v => by
    rw [KV.V_v41 m c, brow_at]
  have hw : HF.V m c main_arg3 = m ((c.tc : Thread nD τ).loc main_arg3) := HF.V_main_arg3 m c
  simp only [hx, hb, hw]
  -- one table of logits on both sides
  set z : Fin 50000 → EReal := fun v => Cert.Spec.logit
      (fun n k => Cert.ReferenceIdeal.HR.xval (F := Ideal) (m ((c.tc : Thread nD τ).loc main_arg0)) (m ((c.tc : Thread nD τ).loc main_arg1))
          (m ((c.tc : Thread nD τ).loc main_arg2)) (m ((c.tc : Thread nD τ).loc main_arg5)) (m ((c.tc : Thread nD τ).loc main_arg6))
          (m ((c.tc : Thread nD τ).loc main_arg7)) (ix2 n k))
      (fun v k => m ((c.tc : Thread nD τ).loc main_arg3) (ix2 v k)) (fun v => m ((c.tc : Thread nD τ).loc main_arg4) (ix1 v))
      (Cert.Spec.rowOf (m ((c.tc : Thread nD τ).loc main_arg8) (ix1 t))) v with hz
  have hreal : ∀ v, ∃ r : ℝ, z v = (r : EReal) := fun v =>
    Cert.Spec.logit_real _ _ _
      (fun n k => by rw [← xval_same]; exact xval_real _ _ _ _ _ _ _)
      (fun v k => w2_real _ _ _ _ _ _ _ _ _ _ hpre _) (fun v => b2_real _ _ _ _ _ _ _ _ _ _ hpre _) _ v
  rw [← Cert.Spec.pos_eq z hreal]
  show _ = min (z _ - Cert.Spec.lseTiled z) 0
  rw [zero_add]
  rfl

/-- The tiled program's result is the textbook program's. -/
theorem result_eq (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) = fun _ => 1#1) :
    KV.tail (F := Ideal) (KV.posVec (HF.V m c main_v40) (m ((c.tc : Thread nD τ).loc main_arg3)) (m ((c.tc : Thread nD τ).loc main_arg4))
        (m ((c.tc : Thread nD τ).loc main_arg8)) (m ((c.tc : Thread nD τ).loc main_arg9)) ((HF.dats m 0 c).arrAt 3 cfg0.N))
      = Cert.ReferenceIdeal.HR.res (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.HR.res
  rw [posVec_eq m c hpre, tail_same]

end Cert.Bridge

end
-- ==== Proof.lean ====
/-
  The certificate of the span-tagging focal loss: a program that takes each span's log-sum-exp over the vocabulary
  tile by tile, keeping a running maximum and a rescaled running sum, against the textbook log-softmax.

  Frames.  The tiled program, at the word level and over the extended reals alike, runs its host operations, then the
  grid of ten points (two row blocks by five vocabulary tiles; the running pair lives in two scratch buffers that are
  reset at a row block's first tile and read out at its last), then the host operations that follow; nothing in it
  writes an argument.  The textbook program is host operations only.

  Values.  Over the extended reals both programs end in one and the same reduction of the vector of target
  log-probabilities, and those vectors agree entry by entry: the tiled walk's m + log l is the logarithm of the sum of
  the row's exponentials, as is the textbook's M + log ∑ exp(z − M), and the logit less that logarithm is never
  positive, so the cap at zero is idle.  This needs the logits real, which the finite-inputs precondition gives for
  the weights and the bias, and tanh for the features.  Nothing was rewritten by the idealization, so its
  soundness statement is trivial.
-/
import proofs.«430166_j43576738185611_3_alg».proof.Defs
import proofs.«430166_j43576738185611_3_alg».proof.Proof.Gen.Kernel
import proofs.«430166_j43576738185611_3_alg».proof.Proof.Gen.KernelIdeal
import proofs.«430166_j43576738185611_3_alg».proof.Proof.Gen.ReferenceIdeal
import proofs.«430166_j43576738185611_3_alg».proof.Proof.Gen.Pre_finite_inputs
import proofs.«430166_j43576738185611_3_alg».proof.Proof.K.Frame
import proofs.«430166_j43576738185611_3_alg».proof.Proof.R.Run
import proofs.«430166_j43576738185611_3_alg».proof.Proof.KV.Run
import proofs.«430166_j43576738185611_3_alg».proof.Proof.Bridge
import Idealize.ShloMosaic.Adequacy
import Idealize.ShloMosaic.Init

noncomputable section

namespace Cert.Proof

open Idealize.ShloMosaic Idealize.SL.Sem

/-- The tiled program at the word level runs to the end and leaves its arguments as they were. -/
theorem frame_k : Cert.frame_Kernel (hKernel := Cert.Kernel.Gen.facts) (hPre_finite_inputs := Cert.Pre_finite_inputs.Gen.facts) :=
  fun m ρ _ => Cert.Kernel.HF.frame m ρ

/-- So does the tiled program over the extended reals. -/
theorem frame_ki : Cert.frame_KernelIdeal (hKernelIdeal := Cert.KernelIdeal.Gen.facts) (hPre_finite_inputs := Cert.Pre_finite_inputs.Gen.facts) :=
  fun m ρ _ => Cert.KernelIdeal.HF.frame m ρ

/-- The textbook program's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HR.run (F := Ideal) m ρ)

/-- From memories that agree on the arguments both programs end at the textbook program's value of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, ?_, Cert.ReferenceIdeal.HR.run (F := Ideal) m' ρ'⟩
  refine (θ_run Cert.KernelIdeal.defs _ _).mono (fun _ h c => ⟨(h c).1.trans ?_, (h c).2⟩) (Cert.KernelIdeal.KV.run (F := Ideal) m ρ)
  rw [Cert.Bridge.result_eq m c (hpre c)]
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
